-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x2048 : Shape := ⟨3, ![1, 1, 2048]⟩
abbrev S350x2048 : Shape := ⟨2, ![350, 2048]⟩
abbrev S350x4096 : Shape := ⟨2, ![350, 4096]⟩
abbrev S350 : Shape := ⟨1, ![350]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S350x2048 : S_.BroadcastsInDim S350x2048 (![] : Fin 0 → Fin S350x2048.rank)
  reducesTo_S350x2048_S_d0_1 : S350x2048.ReducesTo [0, 1] S_
  bcast_S_S350x4096 : S_.BroadcastsInDim S350x4096 (![] : Fin 0 → Fin S350x4096.rank)
  reducesTo_S350x4096_S_d0_1 : S350x4096.ReducesTo [0, 1] S_
  bcast_S_S350 : S_.BroadcastsInDim S350 (![] : Fin 0 → Fin S350.rank)
  reducesTo_S350_S_d0 : S350.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_

variable [Facts]

def fn_part3 {F : FTy → Type} [FloatOps F] (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  main_v53

def fn_part2 {F : FTy → Type} [FloatOps F] (main_arg7 : FVec F S6144x2048 .f32) (main_arg8 : FVec F S6144x2048 .f32) (main_arg9 : FVec F S6144 .f32) (main_arg10 : FVec F S6144 .f32) (main_v33 : IVec S_ 1) : IVec S_ 1 :=
  let main_v34 : FVec F S6144x2048 .f32 := Host.absf main_arg7
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144x2048 .f32 := Host.absf main_arg8
  let main_cst_14 : FVec F S_ .f32 := constant S_ .f32 0x7F800000#32
  let main_v40 : FVec F S6144x2048 .f32 := broadcastInDim S6144x2048 ![] bcast_S_S6144x2048 main_cst_14
  let main_v41 : IVec S6144x2048 1 := cmpf .olt main_v39 main_v40
  let main_c_15 : IVec S_ 1 := constantI S_ 1 1#1
  let main_v42 : IVec S_ 1 := (fun x v => Host.reduce IntOp.andi x v reducesTo_S6144x2048_S_d0_1 h_S_) main_v41 main_c_15
  let main_v43 : IVec S_ 1 := andi main_v38 main_v42
  let main_v44 : FVec F S6144 .f32 := Host.absf main_arg9
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144 .f32 := Host.absf main_arg10
  let main_cst_18 : FVec F S_ .f32 := constant S_ .f32 0x7F800000#32
  let main_v50 : FVec F S6144 .f32 := broadcastInDim S6144 ![] bcast_S_S6144 main_cst_18
  fn_part3 (F := F) main_v48 main_v49 main_v50

def fn_part1 {F : FTy → Type} [FloatOps F] (main_arg4 : FVec F S350 .f32) (main_arg5 : FVec F S2048x4096 .f32) (main_arg6 : FVec F S2048 .f32) (main_arg7 : FVec F S6144x2048 .f32) (main_arg8 : FVec F S6144x2048 .f32) (main_arg9 : FVec F S6144 .f32) (main_arg10 : FVec F S6144 .f32) (main_v13 : IVec S_ 1) (main_v16 : IVec S350x4096 1) : IVec S_ 1 :=
  let main_c_5 : IVec S_ 1 := constantI S_ 1 1#1
  let main_v17 : IVec S_ 1 := (fun x v => Host.reduce IntOp.andi x v reducesTo_S350x4096_S_d0_1 h_S_) main_v16 main_c_5
  let main_v18 : IVec S_ 1 := andi main_v13 main_v17
  let main_v19 : FVec F S350 .f32 := Host.absf main_arg4
  let main_cst_6 : FVec F S_ .f32 := constant S_ .f32 0x7F800000#32
  let main_v20 : FVec F S350 .f32 := broadcastInDim S350 ![] bcast_S_S350 main_cst_6
  let main_v21 : IVec S350 1 := cmpf .olt main_v19 main_v20
  let main_c_7 : IVec S_ 1 := constantI S_ 1 1#1
  let main_v22 : IVec S_ 1 := (fun x v => Host.reduce IntOp.andi x v reducesTo_S350_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x1x2048 .f32) (main_arg1 : FVec F S1x1x2048 .f32) (main_arg2 : FVec F S350x2048 .f32) (main_arg3 : FVec F S350x4096 .f32) (main_arg4 : FVec F S350 .f32) (main_arg5 : FVec F S2048x4096 .f32) (main_arg6 : FVec F S2048 .f32) (main_arg7 : FVec F S6144x2048 .f32) (main_arg8 : FVec F S6144x2048 .f32) (main_arg9 : FVec F S6144 .f32) (main_arg10 : FVec F S6144 .f32) : IVec S_ 1 :=
  let main_v0 : FVec F S1x1x2048 .f32 := Host.absf main_arg0
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S1x1x2048 .f32 := Host.absf main_arg1
  let main_cst_0 : FVec F S_ .f32 := constant S_ .f32 0x7F800000#32
  let main_v5 : FVec F S1x1x2048 .f32 := broadcastInDim S1x1x2048 ![] bcast_S_S1x1x2048 main_cst_0
  let main_v6 : IVec S1x1x2048 1 := cmpf .olt main_v4 main_v5
  let main_c_1 : IVec S_ 1 := constantI S_ 1 1#1
  let main_v7 : IVec S_ 1 := (fun x v => Host.reduce IntOp.andi x v reducesTo_S1x1x2048_S_d0_1_2 h_S_) main_v6 main_c_1
  let main_v8 : IVec S_ 1 := andi main_v3 main_v7
  let main_v9 : FVec F S350x2048 .f32 := Host.absf main_arg2
  let main_cst_2 : FVec F S_ .f32 := constant S_ .f32 0x7F800000#32
  let main_v10 : FVec F S350x2048 .f32 := broadcastInDim S350x2048 ![] bcast_S_S350x2048 main_cst_2
  let main_v11 : IVec S350x2048 1 := cmpf .olt main_v9 main_v10
  let main_c_3 : IVec S_ 1 := constantI S_ 1 1#1
  let main_v12 : IVec S_ 1 := (fun x v => Host.reduce IntOp.andi x v reducesTo_S350x2048_S_d0_1 h_S_) main_v11 main_c_3
  let main_v13 : IVec S_ 1 := andi main_v8 main_v12
  let main_v14 : FVec F S350x4096 .f32 := Host.absf main_arg3
  let main_cst_4 : FVec F S_ .f32 := constant S_ .f32 0x7F800000#32
  let main_v15 : FVec F S350x4096 .f32 := broadcastInDim S350x4096 ![] bcast_S_S350x4096 main_cst_4
  let main_v16 : IVec S350x4096 1 := cmpf .olt main_v14 main_v15
  fn_part1 (F := F) main_arg4 main_arg5 main_arg6 main_arg7 main_arg8 main_arg9 main_arg10 main_v13 main_v16
-- ==== Kernel.lean ====
abbrev S1x1x2048 : Shape := ⟨3, ![1, 1, 2048]⟩
abbrev S350x2048 : Shape := ⟨2, ![350, 2048]⟩
abbrev S350x4096 : Shape := ⟨2, ![350, 4096]⟩
abbrev S350 : Shape := ⟨1, ![350]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S1x2048 : Shape := ⟨2, ![1, 2048]⟩
abbrev S1x350 : Shape := ⟨2, ![1, 350]⟩
abbrev S1x4096 : Shape := ⟨2, ![1, 4096]⟩
abbrev S1 : Shape := ⟨1, ![1]⟩
abbrev S1x1 : Shape := ⟨2, ![1, 1]⟩
abbrev S256x4096 : Shape := ⟨2, ![256, 4096]⟩
abbrev S1x256 : Shape := ⟨2, ![1, 256]⟩
abbrev S3x2048x2048 : Shape := ⟨3, ![3, 2048, 2048]⟩
abbrev S3x1x2048 : Shape := ⟨3, ![3, 1, 2048]⟩
abbrev S1x128 : Shape := ⟨2, ![1, 128]⟩
abbrev S3x128x2048 : Shape := ⟨3, ![3, 128, 2048]⟩
abbrev S3x1x128 : Shape := ⟨3, ![3, 1, 128]⟩
abbrev S1x128x2048 : Shape := ⟨3, ![1, 128, 2048]⟩
abbrev S128x2048 : Shape := ⟨2, ![128, 2048]⟩
abbrev S1x1x128 : Shape := ⟨3, ![1, 1, 128]⟩

abbrev nBuf : Space → Nat
  | .hbm => 25
  | .vmem => 29
  | .smem => 0
  | _ => 0

abbrev bufTy : (tb : Table) → Fin (tcTables nBuf tb) → BufTy
  | .hbm, ⟨0, _⟩ => ⟨S1x1x2048, .f32⟩
  | .hbm, ⟨1, _⟩ => ⟨S1x1x2048, .f32⟩
  | .hbm, ⟨2, _⟩ => ⟨S350x2048, .f32⟩
  | .hbm, ⟨3, _⟩ => ⟨S350x4096, .f32⟩
  | .hbm, ⟨4, _⟩ => ⟨S350, .f32⟩
  | .hbm, ⟨5, _⟩ => ⟨S2048x4096, .f32⟩
  | .hbm, ⟨6, _⟩ => ⟨S2048, .f32⟩
  | .hbm, ⟨7, _⟩ => ⟨S6144x2048, .f32⟩
  | .hbm, ⟨8, _⟩ => ⟨S6144x2048, .f32⟩
  | .hbm, ⟨9, _⟩ => ⟨S6144, .f32⟩
  | .hbm, ⟨10, _⟩ => ⟨S6144, .f32⟩
  | .hbm, ⟨11, _⟩ => ⟨S1x2048, .f32⟩
  | .hbm, ⟨12, _⟩ => ⟨S1x2048, .f32⟩
  | .hbm, ⟨13, _⟩ => ⟨S1x350, .f32⟩
  | .hbm, ⟨14, _⟩ => ⟨S1x350, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S3x2048x2048, .f32⟩
  | .hbm, ⟨19, _⟩ => ⟨S3x2048x2048, .f32⟩
  | .hbm, ⟨20, _⟩ => ⟨S3x1x2048, .f32⟩
  | .hbm, ⟨21, _⟩ => ⟨S3x1x2048, .f32⟩
  | .hbm, ⟨22, _⟩ => ⟨S1x2048, .f32⟩
  | .hbm, ⟨23, _⟩ => ⟨S1x1x2048, .f32⟩
  | .hbm, ⟨24, _⟩ => ⟨S1x1x2048, .f32⟩
  | .local _ .vmem, ⟨0, _⟩ => ⟨S1x2048, .f32⟩
  | .local _ .vmem, ⟨1, _⟩ => ⟨S1x2048, .f32⟩
  | .local _ .vmem, ⟨2, _⟩ => ⟨S350x4096, .f32⟩
  | .local _ .vmem, ⟨3, _⟩ => ⟨S1x350, .f32⟩
  | .local _ .vmem, ⟨4, _⟩ => ⟨S350x2048, .f32⟩
  | .local _ .vmem, ⟨5, _⟩ => ⟨S1x350, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x4096, .f32⟩
  | .local _ .vmem, ⟨10, _⟩ => ⟨S256x4096, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x2048, .f32⟩
  | .local _ .vmem, ⟨16, _⟩ => ⟨S1x2048, .f32⟩
  | .local _ .vmem, ⟨17, _⟩ => ⟨S1x128, .f32⟩
  | .local _ .vmem, ⟨18, _⟩ => ⟨S1x128, .f32⟩
  | .local _ .vmem, ⟨19, _⟩ => ⟨S3x128x2048, .f32⟩
  | .local _ .vmem, ⟨20, _⟩ => ⟨S3x128x2048, .f32⟩
  | .local _ .vmem, ⟨21, _⟩ => ⟨S3x128x2048, .f32⟩
  | .local _ .vmem, ⟨22, _⟩ => ⟨S3x128x2048, .f32⟩
  | .local _ .vmem, ⟨23, _⟩ => ⟨S3x1x128, .f32⟩
  | .local _ .vmem, ⟨24, _⟩ => ⟨S3x1x128, .f32⟩
  | .local _ .vmem, ⟨25, _⟩ => ⟨S3x1x128, .f32⟩
  | .local _ .vmem, ⟨26, _⟩ => ⟨S3x1x128, .f32⟩
  | .local _ .vmem, ⟨27, _⟩ => ⟨S1x128, .f32⟩
  | .local _ .vmem, ⟨28, _⟩ => ⟨S1x128, .f32⟩
  | _, _ => ⟨S1x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S350x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x350 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S350x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x350 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3x128x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S3x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S3x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S1x1x2048_S1x2048 : S1x1x2048.ShapeCasts S1x2048
  shapeCasts_S350_S1x350 : S350.ShapeCasts S1x350
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  concatenates_S1x2048_S1x2048_S1x4096_d1 : Shape.Concatenates [S1x2048, S1x2048] S1x4096 1
  bitsLt_bf16_f32 : FTy.bits .bf16 < FTy.bits .f32
  inb_S350x4096_S350x4096_0_0 : ∀ a, (![0, 0] : Fin 2 → Nat) a + S350x4096.size a ≤ S350x4096.size a
  h_S350x4096 : 0 < S350x4096.numel
  inb_S1x350_S1x350_0_0 : ∀ a, (![0, 0] : Fin 2 → Nat) a + S1x350.size a ≤ S1x350.size a
  h_S1x350 : 0 < S1x350.numel
  shapeCasts_S1x350_S1x350 : S1x350.ShapeCasts S1x350
  reduces_S1x350_S1 : S1x350.Reduces [1] S1
  shapeCasts_S1_S1x1 : S1.ShapeCasts S1x1
  broadcasts_S1x1_S1x350 : S1x1.Broadcasts S1x350
  inb_S350x2048_S350x2048_0_0 : ∀ a, (![0, 0] : Fin 2 → Nat) a + S350x2048.size a ≤ S350x2048.size a
  h_S350x2048 : 0 < S350x2048.numel
  shapeCasts_S2048_S1x2048 : S2048.ShapeCasts S1x2048
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S6144x2048_S3x2048x2048 : S6144x2048.ShapeCasts S3x2048x2048
  shapeCasts_S6144_S3x1x2048 : S6144.ShapeCasts S3x1x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S3x128x2048_S3x128x2048_0_0_0 : ∀ a, (![0, 0, 0] : Fin 3 → Nat) a + S3x128x2048.size a ≤ S3x128x2048.size a
  h_S3x128x2048 : 0 < S3x128x2048.numel
  shapeCasts_S3x128x2048_S3x128x2048 : S3x128x2048.ShapeCasts S3x128x2048
  inb_S3x1x128_S3x1x128_0_0_0 : ∀ a, (![0, 0, 0] : Fin 3 → Nat) a + S3x1x128.size a ≤ S3x1x128.size a
  h_S3x1x128 : 0 < S3x1x128.numel
  shapeCasts_S3x1x128_S3x1x128 : S3x1x128.ShapeCasts S3x1x128
  slices_S3x128x2048_o0_0_0_S1x128x2048 : S3x128x2048.Slices ![0, 0, 0] S1x128x2048
  shapeCasts_S1x128x2048_S128x2048 : S1x128x2048.ShapeCasts S128x2048
  slices_S3x1x128_o0_0_0_S1x1x128 : S3x1x128.Slices ![0, 0, 0] S1x1x128
  shapeCasts_S1x1x128_S1x128 : S1x1x128.ShapeCasts S1x128
  slices_S3x128x2048_o1_0_0_S1x128x2048 : S3x128x2048.Slices ![1, 0, 0] S1x128x2048
  slices_S3x1x128_o1_0_0_S1x1x128 : S3x1x128.Slices ![1, 0, 0] S1x1x128
  slices_S3x128x2048_o2_0_0_S1x128x2048 : S3x128x2048.Slices ![2, 0, 0] S1x128x2048
  slices_S3x1x128_o2_0_0_S1x1x128 : S3x1x128.Slices ![2, 0, 0] S1x1x128
  shapeCasts_S1x2048_S1x1x2048 : S1x2048.ShapeCasts S1x1x2048
  dot_S1x4096_S350x4096_S1x350_1_1_0_0_n_n_wf : DotDims.WF S1x4096 S350x4096 S1x350 [1] [1] [0] [0] [] []
  dot_S1x350_S350x2048_S1x2048_1_0_0_1_n_n_wf : DotDims.WF S1x350 S350x2048 S1x2048 [1] [0] [0] [1] [] []
  dot_S1x4096_S256x4096_S1x256_1_1_0_0_n_n_wf : DotDims.WF S1x4096 S256x4096 S1x256 [1] [1] [0] [0] [] []
  dot_S1x2048_S128x2048_S1x128_1_1_0_0_n_n_wf : DotDims.WF S1x2048 S128x2048 S1x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S350x4096.size a ≤ S350x4096.size a
  hwx0_2 : ∀ i : grid0.Coords, EltTy.bits .f32 = 32 ∨ (Rect.block (s := S350x4096) S350x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x350.size a ≤ S1x350.size a
  hwx0_3 : ∀ i : grid0.Coords, EltTy.bits .f32 = 32 ∨ (Rect.block (s := S1x350) S1x350.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S350x2048.size a ≤ S350x2048.size a
  hwx0_4 : ∀ i : grid0.Coords, EltTy.bits .f32 = 32 ∨ (Rect.block (s := S350x2048) S350x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x350.size a ≤ S1x350.size a
  hwx0_5 : ∀ i : grid0.Coords, EltTy.bits .f32 = 32 ∨ (Rect.block (s := S1x350) S1x350.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S2048x4096.size a
  hwx1_2 : ∀ i : grid1.Coords, EltTy.bits .f32 = 32 ∨ (Rect.block (s := S2048x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x2048.size a
  hwx1_3 : ∀ i : grid1.Coords, EltTy.bits .f32 = 32 ∨ (Rect.block (s := S1x2048) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x2048.size a
  hwx1_4 : ∀ i : grid1.Coords, EltTy.bits .f32 = 32 ∨ (Rect.block (s := S1x2048) S1x256.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x2048.size a
  hwx2_2 : ∀ i : grid2.Coords, EltTy.bits .f32 = 32 ∨ (Rect.block (s := S1x2048) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3x128x2048.size a ≤ S3x2048x2048.size a
  hwx2_3 : ∀ i : grid2.Coords, EltTy.bits .f32 = 32 ∨ (Rect.block (s := S3x2048x2048) S3x128x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3x128x2048.size a ≤ S3x2048x2048.size a
  hwx2_4 : ∀ i : grid2.Coords, EltTy.bits .f32 = 32 ∨ (Rect.block (s := S3x2048x2048) S3x128x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3x1x128.size a ≤ S3x1x2048.size a
  hwx2_5 : ∀ i : grid2.Coords, EltTy.bits .f32 = 32 ∨ (Rect.block (s := S3x1x2048) S3x1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3x1x128.size a ≤ S3x1x2048.size a
  hwx2_6 : ∀ i : grid2.Coords, EltTy.bits .f32 = 32 ∨ (Rect.block (s := S3x1x2048) S3x1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x2048.size a
  hwx2_7 : ∀ i : grid2.Coords, EltTy.bits .f32 = 32 ∨ (Rect.block (s := S1x2048) S1x128.size (cc2_transform_7 i) (hinb2_7 i)).WholeWords (EltTy.packing .f32)

variable [Facts₀]

def dot_S1x4096_S350x4096_S1x350_1_1_0_0_n_n : DotDims S1x4096 S350x4096 S1x350 where
  lhsContracting := [1]
  rhsContracting := [1]
  lhsNonContracting := [0]
  rhsNonContracting := [0]
  lhsBatch := []
  rhsBatch := []
  wf := dot_S1x4096_S350x4096_S1x350_1_1_0_0_n_n_wf
def dot_S1x350_S350x2048_S1x2048_1_0_0_1_n_n : DotDims S1x350 S350x2048 S1x2048 where
  lhsContracting := [1]
  rhsContracting := [0]
  lhsNonContracting := [0]
  rhsNonContracting := [1]
  lhsBatch := []
  rhsBatch := []
  wf := dot_S1x350_S350x2048_S1x2048_1_0_0_1_n_n_wf
def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf
def dot_S1x2048_S128x2048_S1x128_1_1_0_0_n_n : DotDims S1x2048 S128x2048 S1x128 where
  lhsContracting := [1]
  rhsContracting := [1]
  lhsNonContracting := [0]
  rhsNonContracting := [0]
  lhsBatch := []
  rhsBatch := []
  wf := dot_S1x2048_S128x2048_S1x128_1_1_0_0_n_n_wf

abbrev win0_0 : Pipeline.Window sig grid0 :=
  Pipeline.Window.ofSpec (Memref.whole main_v0) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S350x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x350.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S350x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x350.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x2048.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v5) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S3x128x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7) S3x128x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v8) S3x1x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v9) S3x1x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v10) S1x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S1x1x2048 : Shape := ⟨3, ![1, 1, 2048]⟩
abbrev S350x2048 : Shape := ⟨2, ![350, 2048]⟩
abbrev S350x4096 : Shape := ⟨2, ![350, 4096]⟩
abbrev S350 : Shape := ⟨1, ![350]⟩
abbrev S2048x4096 : Shape := ⟨2, ![2048, 4096]⟩
abbrev S2048 : Shape := ⟨1, ![2048]⟩
abbrev S6144x2048 : Shape := ⟨2, ![6144, 2048]⟩
abbrev S6144 : Shape := ⟨1, ![6144]⟩
abbrev S1x2048 : Shape := ⟨2, ![1, 2048]⟩
abbrev S1x4096 : Shape := ⟨2, ![1, 4096]⟩
abbrev S4096x350 : Shape := ⟨2, ![4096, 350]⟩
abbrev S1x350 : Shape := ⟨2, ![1, 350]⟩
abbrev S_ : Shape := ⟨0, ![]⟩
abbrev S1 : Shape := ⟨1, ![1]⟩
abbrev S1x1 : Shape := ⟨2, ![1, 1]⟩
abbrev S4096x2048 : Shape := ⟨2, ![4096, 2048]⟩
abbrev S2048x6144 : Shape := ⟨2, ![2048, 6144]⟩
abbrev S1x6144 : Shape := ⟨2, ![1, 6144]⟩

abbrev nBuf : Space → Nat
  | .hbm => 84
  | .vmem => 0
  | .smem => 0
  | _ => 0

abbrev bufTy : (tb : Table) → Fin (tcTables nBuf tb) → BufTy
  | .hbm, ⟨0, _⟩ => ⟨S1x1x2048, .f32⟩
  | .hbm, ⟨1, _⟩ => ⟨S1x1x2048, .f32⟩
  | .hbm, ⟨2, _⟩ => ⟨S350x2048, .f32⟩
  | .hbm, ⟨3, _⟩ => ⟨S350x4096, .f32⟩
  | .hbm, ⟨4, _⟩ => ⟨S350, .f32⟩
  | .hbm, ⟨5, _⟩ => ⟨S2048x4096, .f32⟩
  | .hbm, ⟨6, _⟩ => ⟨S2048, .f32⟩
  | .hbm, ⟨7, _⟩ => ⟨S6144x2048, .f32⟩
  | .hbm, ⟨8, _⟩ => ⟨S6144x2048, .f32⟩
  | .hbm, ⟨9, _⟩ => ⟨S6144, .f32⟩
  | .hbm, ⟨10, _⟩ => ⟨S6144, .f32⟩
  | .hbm, ⟨11, _⟩ => ⟨S1x2048, .f32⟩
  | .hbm, ⟨12, _⟩ => ⟨S1x2048, .f32⟩
  | .hbm, ⟨13, _⟩ => ⟨S1x4096, .f32⟩
  | .hbm, ⟨14, _⟩ => ⟨S4096x350, .f32⟩
  | .hbm, ⟨15, _⟩ => ⟨S1x350, .f32⟩
  | .hbm, ⟨16, _⟩ => ⟨S1x350, .f32⟩
  | .hbm, ⟨17, _⟩ => ⟨S1x350, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1x1, .f32⟩
  | .hbm, ⟨24, _⟩ => ⟨S1x350, .f32⟩
  | .hbm, ⟨25, _⟩ => ⟨S1x350, .f32⟩
  | .hbm, ⟨26, _⟩ => ⟨S1x350, .f32⟩
  | .hbm, ⟨27, _⟩ => ⟨S_, .f32⟩
  | .hbm, ⟨28, _⟩ => ⟨S1, .f32⟩
  | .hbm, ⟨29, _⟩ => ⟨S1x1, .f32⟩
  | .hbm, ⟨30, _⟩ => ⟨S1x350, .f32⟩
  | .hbm, ⟨31, _⟩ => ⟨S1x350, .f32⟩
  | .hbm, ⟨32, _⟩ => ⟨S1x2048, .f32⟩
  | .hbm, ⟨33, _⟩ => ⟨S1x4096, .f32⟩
  | .hbm, ⟨34, _⟩ => ⟨S4096x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S2048x6144, .f32⟩
  | .hbm, ⟨42, _⟩ => ⟨S1x6144, .f32⟩
  | .hbm, ⟨43, _⟩ => ⟨S1x6144, .f32⟩
  | .hbm, ⟨44, _⟩ => ⟨S1x6144, .f32⟩
  | .hbm, ⟨45, _⟩ => ⟨S2048x6144, .f32⟩
  | .hbm, ⟨46, _⟩ => ⟨S1x6144, .f32⟩
  | .hbm, ⟨47, _⟩ => ⟨S1x6144, .f32⟩
  | .hbm, ⟨48, _⟩ => ⟨S1x6144, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S_, .f32⟩
  | .hbm, ⟨59, _⟩ => ⟨S1x2048, .f32⟩
  | .hbm, ⟨60, _⟩ => ⟨S1x2048, .f32⟩
  | .hbm, ⟨61, _⟩ => ⟨S_, .f32⟩
  | .hbm, ⟨62, _⟩ => ⟨S1x2048, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S_, .f32⟩
  | .hbm, ⟨68, _⟩ => ⟨S1x2048, .f32⟩
  | .hbm, ⟨69, _⟩ => ⟨S1x2048, .f32⟩
  | .hbm, ⟨70, _⟩ => ⟨S_, .f32⟩
  | .hbm, ⟨71, _⟩ => ⟨S1x2048, .f32⟩
  | .hbm, ⟨72, _⟩ => ⟨S1x2048, .f32⟩
  | .hbm, ⟨73, _⟩ => ⟨S1x2048, .f32⟩
  | .hbm, ⟨74, _⟩ => ⟨S1x2048, .f32⟩
  | .hbm, ⟨75, _⟩ => ⟨S1x2048, .f32⟩
  | .hbm, ⟨76, _⟩ => ⟨S_, .f32⟩
  | .hbm, ⟨77, _⟩ => ⟨S1x2048, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S1x2048, .f32⟩
  | .hbm, ⟨82, _⟩ => ⟨S1x1x2048, .f32⟩
  | .hbm, ⟨83, _⟩ => ⟨S1x1x2048, .f32⟩
  | _, _ => ⟨S1x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_cst_5 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  shapeCasts_S1x1x2048_S1x2048 : S1x1x2048.ShapeCasts S1x2048
  concatenates_S1x2048_S1x2048_S1x4096_d1 : Shape.Concatenates [S1x2048, S1x2048] S1x4096 1
  transposes_S350x4096_S4096x350_1_0 : S350x4096.Transposes [1, 0] S4096x350
  bcast_S350_S1x350_1 : S350.BroadcastsInDim S1x350 (![1] : Fin 1 → Fin S1x350.rank)
  reducesTo_S1x350_S1_d1 : S1x350.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x350_0_1 : S1x1.BroadcastsInDim S1x350 (![0, 1] : Fin 2 → Fin S1x350.rank)
  transposes_S2048x4096_S4096x2048_1_0 : S2048x4096.Transposes [1, 0] S4096x2048
  bcast_S2048_S1x2048_1 : S2048.BroadcastsInDim S1x2048 (![1] : Fin 1 → Fin S1x2048.rank)
  bcast_S_S1x2048 : S_.BroadcastsInDim S1x2048 (![] : Fin 0 → Fin S1x2048.rank)
  transposes_S6144x2048_S2048x6144_1_0 : S6144x2048.Transposes [1, 0] S2048x6144
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S1x2048_S1x1x2048_1_2 : S1x2048.BroadcastsInDim S1x1x2048 (![1, 2] : Fin 2 → Fin S1x1x2048.rank)
  dot_S1x4096_S4096x350_S1x350_1_0_0_1_n_n_wf : DotDims.WF S1x4096 S4096x350 S1x350 [1] [0] [0] [1] [] []
  dot_S1x350_S350x2048_S1x2048_1_0_0_1_n_n_wf : DotDims.WF S1x350 S350x2048 S1x2048 [1] [0] [0] [1] [] []
  dot_S1x4096_S4096x2048_S1x2048_1_0_0_1_n_n_wf : DotDims.WF S1x4096 S4096x2048 S1x2048 [1] [0] [0] [1] [] []
  dot_S1x2048_S2048x6144_S1x6144_1_0_0_1_n_n_wf : DotDims.WF S1x2048 S2048x6144 S1x6144 [1] [0] [0] [1] [] []

variable [Facts₀]

def dot_S1x4096_S4096x350_S1x350_1_0_0_1_n_n : DotDims S1x4096 S4096x350 S1x350 where
  lhsContracting := [1]
  rhsContracting := [0]
  lhsNonContracting := [0]
  rhsNonContracting := [1]
  lhsBatch := []
  rhsBatch := []
  wf := dot_S1x4096_S4096x350_S1x350_1_0_0_1_n_n_wf
def dot_S1x350_S350x2048_S1x2048_1_0_0_1_n_n : DotDims S1x350 S350x2048 S1x2048 where
  lhsContracting := [1]
  rhsContracting := [0]
  lhsNonContracting := [0]
  rhsNonContracting := [1]
  lhsBatch := []
  rhsBatch := []
  wf := dot_S1x350_S350x2048_S1x2048_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf

class Facts : Prop extends Facts₀ where

variable [Facts]
-- ==== Proof.K.Data0.lean ====
/-
  The attention region (first kernel call): what each window's block is at a grid point, what the body
  leaves in the two output windows' buffers (the attention weights and the context row), and the
  pipeline's proof data over them, at any contents V the region is entered from.
-/
import proofs.«123148_j15350213116625_1_alg».proof.Proof.Gen.Kernel.Launch
import proofs.«123148_j15350213116625_1_alg».proof.Proof.Gen.Kernel.Skeleton
import proofs.«123148_j15350213116625_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rq0 : Rect S1x2048 := Rect.unit (s := S1x2048) ![0, 0] S1x2048.size inb_S1x2048_S1x2048_0_0
abbrev rw0 : Rect S350x4096 := Rect.unit (s := S350x4096) ![0, 0] S350x4096.size inb_S350x4096_S350x4096_0_0
abbrev rb0 : Rect S1x350 := Rect.unit (s := S1x350) ![0, 0] S1x350.size inb_S1x350_S1x350_0_0
abbrev re0 : Rect S350x2048 := Rect.unit (s := S350x2048) ![0, 0] S350x2048.size inb_S350x2048_S350x2048_0_0

/-- The attention weights' buffer after the body: one whole-buffer store of the softmax row. -/
def out0_5 (x0 x1 : Vec F S1x2048 .f32) (x2 : Vec F S350x4096 .f32) (x3 : Vec F S1x350 .f32) : Vec F S1x350 .f32 :=
  View.canon [⟨rb0, k0_pay1 (View.ld x0 rq0) (View.ld x1 rq0) (View.ld x2 rw0) (View.ld x3 rb0)⟩]

/-- The context row's buffer after the body: one whole-buffer store of weights times encoder outputs. -/
def out0_6 (x0 x1 : Vec F S1x2048 .f32) (x2 : Vec F S350x4096 .f32) (x3 : Vec F S1x350 .f32) (x4 : Vec F S350x2048 .f32) : Vec F S1x2048 .f32 :=
  View.canon [⟨rq0, k0_pay2 (View.ld x0 rq0) (View.ld x1 rq0) (View.ld x2 rw0) (View.ld x3 rb0) (View.ld x4 re0)⟩]

theorem cover0_5 (p0 : Vec F S1x350 .f32) (y : S1x350.Idx) :
    ∃ pc ∈ ([⟨rb0, p0⟩] : List (View.Piece (Elt F) S1x350 .f32)), y ∈ pc.1.set :=
  View.cover_of_tiled [⟨rb0, p0⟩] S1x350.size (by rfl) y

theorem cover0_6 (p0 : Vec F S1x2048 .f32) (y : S1x2048.Idx) :
    ∃ pc ∈ ([⟨rq0, p0⟩] : List (View.Piece (Elt F) S1x2048 .f32)), y ∈ pc.1.set :=
  View.cover_of_tiled [⟨rq0, p0⟩] S1x2048.size (by rfl) y

/-- The proof data of the attention pipeline on core c: arrays as the region finds them; after the body each
    input's buffer at its block and each output's at what the body stores; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

end Cert.Kernel.Hand

end
-- ==== Proof.K.Data1.lean ====
/-
  The combine region (second kernel call, eight grid points): each window's block at a point, what the body
  leaves in the output window's buffer (a 256-wide piece of the rectified combination), and the pipeline's
  proof data, at any contents V the region is entered from.
-/
import proofs.«123148_j15350213116625_1_alg».proof.Proof.Gen.Kernel.Launch
import proofs.«123148_j15350213116625_1_alg».proof.Proof.Gen.Kernel.Skeleton
import proofs.«123148_j15350213116625_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rq1 : Rect S1x2048 := Rect.unit (s := S1x2048) ![0, 0] S1x2048.size inb_S1x2048_S1x2048_0_0
abbrev rw1 : Rect S256x4096 := Rect.unit (s := S256x4096) ![0, 0] S256x4096.size inb_S256x4096_S256x4096_0_0
abbrev rb1 : Rect S1x256 := Rect.unit (s := S1x256) ![0, 0] S1x256.size inb_S1x256_S1x256_0_0

/-- The output window's buffer after the body: one whole-buffer store of the rectified affine image. -/
def out1_4 (x0 x1 : Vec F S1x2048 .f32) (x2 : Vec F S256x4096 .f32) (x3 : Vec F S1x256 .f32) : Vec F S1x256 .f32 :=
  View.canon [⟨rb1, k1_pay1 (View.ld x0 rq1) (View.ld x1 rq1) (View.ld x2 rw1) (View.ld x3 rb1)⟩]

theorem cover1_4 (p0 : Vec F S1x256 .f32) (y : S1x256.Idx) :
    ∃ pc ∈ ([⟨rb1, p0⟩] : List (View.Piece (Elt F) S1x256 .f32)), y ∈ pc.1.set :=
  View.cover_of_tiled [⟨rb1, p0⟩] S1x256.size (by rfl) y

/-- The proof data of the combine pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

end Cert.Kernel.Hand

end
-- ==== Proof.K.Data2.lean ====
/-
  The recurrent-unit region (third kernel call, sixteen grid points): each window's block at a point, what the
  body leaves in the output window's buffer (a 128-wide piece of the new hidden state), and the pipeline's
  proof data, at any contents V the region is entered from. The hidden state reaches the kernel through two
  windows on ONE array (the whole row, and the row's piece at the point): each holds half of the array's share.
-/
import proofs.«123148_j15350213116625_1_alg».proof.Proof.Gen.Kernel.Launch
import proofs.«123148_j15350213116625_1_alg».proof.Proof.Gen.Kernel.Skeleton
import proofs.«123148_j15350213116625_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rq2 : Rect S1x2048 := Rect.unit (s := S1x2048) ![0, 0] S1x2048.size inb_S1x2048_S1x2048_0_0
abbrev rh2 : Rect S1x128 := Rect.unit (s := S1x128) ![0, 0] S1x128.size inb_S1x128_S1x128_0_0
abbrev rw2 : Rect S3x128x2048 := Rect.unit (s := S3x128x2048) ![0, 0, 0] S3x128x2048.size inb_S3x128x2048_S3x128x2048_0_0_0
abbrev rb2 : Rect S3x1x128 := Rect.unit (s := S3x1x128) ![0, 0, 0] S3x1x128.size inb_S3x1x128_S3x1x128_0_0_0

/-- The output window's buffer after the body: one whole-buffer store of the new hidden state's piece, from the
    combined row x0, the hidden row x1, the hidden row's piece x2, the two weight blocks x3 x4 and the two bias
    blocks x5 x6. -/
def out2_7 (x0 x1 : Vec F S1x2048 .f32) (x2 : Vec F S1x128 .f32) (x3 x4 : Vec F S3x128x2048 .f32) (x5 x6 : Vec F S3x1x128 .f32) : Vec F S1x128 .f32 :=
  View.canon [⟨rh2, k2_pay1 (k2_pay3 (View.ld x1 rq2)) (k2_pay4 (View.ld x2 rh2)) (k2_pay6 (View.ld x4 rw2)) (k2_pay8 (View.ld x6 rb2))
    (k2_pay9 (View.ld x0 rq2) (View.ld x3 rw2) (View.ld x5 rb2)) (k2_pay10 (View.ld x0 rq2) (View.ld x3 rw2) (View.ld x5 rb2))
    (k2_pay11 (View.ld x0 rq2) (View.ld x3 rw2) (View.ld x5 rb2)) (k2_pay12 (View.ld x4 rw2))⟩]

theorem cover2_7 (p0 : Vec F S1x128 .f32) (y : S1x128.Idx) :
    ∃ pc ∈ ([⟨rh2, p0⟩] : List (View.Piece (Elt F) S1x128 .f32)), y ∈ pc.1.set :=
  View.cover_of_tiled [⟨rh2, p0⟩] S1x128.size (by rfl) y

/-- The share each window holds of its array: the two windows on the hidden row's array hold a half each. -/
def q2 : Fin cfg2.W → PosShare TreeShare
  | ⟨1, _⟩ => fullShare.left
  | ⟨2, _⟩ => fullShare.right
  | _ => fullShare

/-- The proof data of the recurrent-unit pipeline on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

end Cert.Kernel.Hand

end
-- ==== Proof.K.Fold.lean ====
/-
  The unscoped buffers' contents at every boundary of the program, as a fold from the launch memory: a host
  stretch applies its operations; a region leaves its output arrays at what its write-backs make of them and
  every other buffer as it found it.
-/
import proofs.«123148_j15350213116625_1_alg».proof.Proof.K.Data0
import proofs.«123148_j15350213116625_1_alg».proof.Proof.K.Data1
import proofs.«123148_j15350213116625_1_alg».proof.Proof.K.Data2
import proofs.«123148_j15350213116625_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m (c, b)
/-- After the first host stretch (the attention region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the attention region's exit: the weights' and the context's arrays at what the region leaves. -/
def W2 (c : Dev nD) : Valuation τ sig (Elt F) :=
  Function.update (Function.update (W1 m c) main_v3_0 ((dat0 (V1 m) c).arrAt 5 cfg0.N)) main_v3_1 ((dat0 (V1 m) c).arrAt 6 cfg0.N)
abbrev V2 : (c : Dev nD) → (b : Ref sig .tc) → Buf (Elt F) ((c : Thread nD τ).loc b) := fun c b => W2 m c b
/-- After the second host stretch (the combine region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the combine region's exit. -/
def W4 (c : Dev nD) : Valuation τ sig (Elt F) :=
  Function.update (W3 m c) main_v5 ((dat1 (V3 m) c).arrAt 4 cfg1.N)
abbrev V4 : (c : Dev nD) → (b : Ref sig .tc) → Buf (Elt F) ((c : Thread nD τ).loc b) := fun c b => W4 m c b
/-- After the third host stretch (the recurrent-unit region's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the recurrent-unit region's exit. -/
def W6 (c : Dev nD) : Valuation τ sig (Elt F) :=
  Function.update (W5 m c) main_v10 ((dat2 (V5 m) c).arrAt 7 cfg2.N)
abbrev V6 : (c : Dev nD) → (b : Ref sig .tc) → Buf (Elt F) ((c : Thread nD τ).loc b) := fun c b => W6 m c b
/-- After the last host stretch: the end. -/
abbrev W7 : Dev nD → Valuation τ sig (Elt F) := fun c => StableHlo.after hostOps3 (W6 m c)

theorem W2_v3_0 (c : Dev nD) : W2 m c (Proc.devRef .tc main_v3_0) = (dat0 (V1 m) c).arrAt 5 cfg0.N := by
  unfold W2
  rw [Function.update_of_ne (StableHlo.devRef_ne_of_ne (by decide) : (Proc.devRef .tc main_v3_0 : DevRef τ sig) ≠ Proc.devRef .tc main_v3_1)]
  exact Function.update_self ..
theorem W2_v3_1 (c : Dev nD) : W2 m c (Proc.devRef .tc main_v3_1) = (dat0 (V1 m) c).arrAt 6 cfg0.N := by
  unfold W2; exact Function.update_self ..
theorem W2_of_ne (c : Dev nD) (b : Ref sig .tc) (h0 : b ≠ main_v3_0) (h1 : b ≠ main_v3_1) :
    W2 m c (Proc.devRef .tc b) = W1 m c (Proc.devRef .tc b) := by
  unfold W2
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]
theorem W4_v5 (c : Dev nD) : W4 m c (Proc.devRef .tc main_v5) = (dat1 (V3 m) c).arrAt 4 cfg1.N := by
  unfold W4; exact Function.update_self ..
theorem W4_of_ne (c : Dev nD) (b : Ref sig .tc) (h0 : b ≠ main_v5) :
    W4 m c (Proc.devRef .tc b) = W3 m c (Proc.devRef .tc b) := by
  unfold W4
  rw [Function.update_of_ne (StableHlo.devRef_ne_of_ne h0 : (Proc.devRef .tc b : DevRef τ sig) ≠ Proc.devRef .tc main_v5)]
theorem W6_v10 (c : Dev nD) : W6 m c (Proc.devRef .tc main_v10) = (dat2 (V5 m) c).arrAt 7 cfg2.N := by
  unfold W6; exact Function.update_self ..
theorem W6_of_ne (c : Dev nD) (b : Ref sig .tc) (h0 : b ≠ main_v10) :
    W6 m c (Proc.devRef .tc b) = W5 m c (Proc.devRef .tc b) := by
  unfold W6
  rw [Function.update_of_ne (StableHlo.devRef_ne_of_ne h0 : (Proc.devRef .tc b : DevRef τ sig) ≠ Proc.devRef .tc main_v10)]

/-- What a host stretch does not write it leaves. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

/-! ## Each region leaves its input arrays as entered and its output arrays at what the write-backs make -/

theorem hF0 (c : Dev nD) : ∀ w : Fin cfg0.W, (dat0 (V1 m) c).arrAt w cfg0.N = V2 m c (Pipeline.arrRef spec0 w)
  | ⟨0, _⟩ => (((dat0 (V1 m) c).arrAt_in 0 rfl _).trans (A_eq0 (V1 m) c 0)).trans (W2_of_ne m c _ (by decide) (by decide)).symm
  | ⟨1, _⟩ => (((dat0 (V1 m) c).arrAt_in 1 rfl _).trans (A_eq0 (V1 m) c 1)).trans (W2_of_ne m c _ (by decide) (by decide)).symm
  | ⟨2, _⟩ => (((dat0 (V1 m) c).arrAt_in 2 rfl _).trans (A_eq0 (V1 m) c 2)).trans (W2_of_ne m c _ (by decide) (by decide)).symm
  | ⟨3, _⟩ => (((dat0 (V1 m) c).arrAt_in 3 rfl _).trans (A_eq0 (V1 m) c 3)).trans (W2_of_ne m c _ (by decide) (by decide)).symm
  | ⟨4, _⟩ => (((dat0 (V1 m) c).arrAt_in 4 rfl _).trans (A_eq0 (V1 m) c 4)).trans (W2_of_ne m c _ (by decide) (by decide)).symm
  | ⟨5, _⟩ => (W2_v3_0 m c).symm
  | ⟨6, _⟩ => (W2_v3_1 m c).symm
theorem hrest0 (c : Dev nD) : ∀ b, b ∉ Finset.univ.image (Pipeline.arrRef spec0) → V2 m c b = V1 m c b :=
  fun b hb => W2_of_ne m c b (fun e => hb (Finset.mem_image.mpr ⟨5, Finset.mem_univ _, e.symm⟩))
    (fun e => hb (Finset.mem_image.mpr ⟨6, Finset.mem_univ _, e.symm⟩))

theorem hF1 (c : Dev nD) : ∀ w : Fin cfg1.W, (dat1 (V3 m) c).arrAt w cfg1.N = V4 m c (Pipeline.arrRef spec1 w)
  | ⟨0, _⟩ => (((dat1 (V3 m) c).arrAt_in 0 rfl _).trans (A_eq1 (V3 m) c 0)).trans (W4_of_ne m c _ (by decide)).symm
  | ⟨1, _⟩ => (((dat1 (V3 m) c).arrAt_in 1 rfl _).trans (A_eq1 (V3 m) c 1)).trans (W4_of_ne m c _ (by decide)).symm
  | ⟨2, _⟩ => (((dat1 (V3 m) c).arrAt_in 2 rfl _).trans (A_eq1 (V3 m) c 2)).trans (W4_of_ne m c _ (by decide)).symm
  | ⟨3, _⟩ => (((dat1 (V3 m) c).arrAt_in 3 rfl _).trans (A_eq1 (V3 m) c 3)).trans (W4_of_ne m c _ (by decide)).symm
  | ⟨4, _⟩ => (W4_v5 m c).symm
theorem hrest1 (c : Dev nD) : ∀ b, b ∉ Finset.univ.image (Pipeline.arrRef spec1) → V4 m c b = V3 m c b :=
  fun b hb => W4_of_ne m c b (fun e => hb (Finset.mem_image.mpr ⟨4, Finset.mem_univ _, e.symm⟩))

theorem hF2 (c : Dev nD) : ∀ w : Fin cfg2.W, (dat2 (V5 m) c).arrAt w cfg2.N = V6 m c (Pipeline.arrRef spec2 w)
  | ⟨0, _⟩ => (((dat2 (V5 m) c).arrAt_in 0 rfl _).trans (A_eq2 (V5 m) c 0)).trans (W6_of_ne m c _ (by decide)).symm
  | ⟨1, _⟩ => (((dat2 (V5 m) c).arrAt_in 1 rfl _).trans (A_eq2 (V5 m) c 1)).trans (W6_of_ne m c _ (by decide)).symm
  | ⟨2, _⟩ => (((dat2 (V5 m) c).arrAt_in 2 rfl _).trans (A_eq2 (V5 m) c 2)).trans (W6_of_ne m c _ (by decide)).symm
  | ⟨3, _⟩ => (((dat2 (V5 m) c).arrAt_in 3 rfl _).trans (A_eq2 (V5 m) c 3)).trans (W6_of_ne m c _ (by decide)).symm
  | ⟨4, _⟩ => (((dat2 (V5 m) c).arrAt_in 4 rfl _).trans (A_eq2 (V5 m) c 4)).trans (W6_of_ne m c _ (by decide)).symm
  | ⟨5, _⟩ => (((dat2 (V5 m) c).arrAt_in 5 rfl _).trans (A_eq2 (V5 m) c 5)).trans (W6_of_ne m c _ (by decide)).symm
  | ⟨6, _⟩ => (((dat2 (V5 m) c).arrAt_in 6 rfl _).trans (A_eq2 (V5 m) c 6)).trans (W6_of_ne m c _ (by decide)).symm
  | ⟨7, _⟩ => (W6_v10 m c).symm
theorem hrest2 (c : Dev nD) : ∀ b, b ∉ Finset.univ.image (Pipeline.arrRef spec2) → V6 m c b = V5 m c b :=
  fun b hb => W6_of_ne m c b (fun e => hb (Finset.mem_image.mpr ⟨7, Finset.mem_univ _, e.symm⟩))

end Cert.Kernel.Hand

end
-- ==== Proof.K.Body0.lean ====
/-
  The attention kernel's body meets the pipeline's obligation: run on whole staging buffers holding the inputs' blocks, it stores the softmax row and the context row and leaves the inputs as they were.
-/
import proofs.«123148_j15350213116625_1_alg».proof.Proof.K.Data0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers

Every input window is read-only for the body (what the body leaves there is the window's block), uncut and
never idle; so its current staging buffer holds the block of its array at the point, whether the schedule
fetched it at that point or kept it from the point before (then the block index has not moved). -/

/-- Input window 0 (the first 1x2048 row): its current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1 (the second 1x2048 row): its current staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2 (the 350x4096 matrix): its current staging buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3 (the 1x350 bias row): its current staging buffer holds its block at every point. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- Input window 4 (the 350x2048 matrix): its current staging buffer holds its block at every point. -/
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The body's triple -/

set_option maxHeartbeats 4000000 in
/-- The body on whole staging memrefs: the five inputs' at read contents x0 … x4, the two outputs' at anything. It
    loads the four inputs of the score row, loads the weights' buffer (a value nothing reads), stores the softmax row
    over the whole weights' buffer, loads the encoder matrix and the context's buffer (again unread), and stores the
    context row over the whole context's buffer. It ends with the inputs' buffers as they were and each output's buffer
    read back as its single whole-buffer store (the store's rectangle covers the buffer). -/
theorem sound_kernel0 (c : Dev nD) (E : Set ℕ) (i : grid0.Coords) (arg1 : Memref sig .tc .vmem S1x2048 .f32) (harg1 : arg1.IsWhole) (arg2 : Memref sig .tc .vmem S1x2048 .f32) (harg2 : arg2.IsWhole) (arg3 : Memref sig .tc .vmem S350x4096 .f32) (harg3 : arg3.IsWhole) (arg4 : Memref sig .tc .vmem S1x350 .f32) (harg4 : arg4.IsWhole) (arg5 : Memref sig .tc .vmem S350x2048 .f32) (harg5 : arg5.IsWhole) (arg6 : Memref sig .tc .vmem S1x350 .f32) (harg6 : arg6.IsWhole) (arg7 : Memref sig .tc .vmem S1x2048 .f32) (harg7 : arg7.IsWhole)
    (x0 x1 : Vec F S1x2048 .f32) (x2 : Vec F S350x4096 .f32) (x3 : Vec F S1x350 .f32) (x4 : Vec F S350x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3) ∗ owns (c : Thread nD τ) arg7 fullShare (out0_6 x0 x1 x2 x3 x4)) -∗ K ⟨⟩))
      ⊢ wp frame (wpE (defs₀ (F := F)) Variants.none c none) E (cc0__attn_kernel i arg1 harg1 arg2 harg2 arg3 harg3 arg4 harg4 arg5 harg5 arg6 harg6 arg7 harg7) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The body obligation at a point -/

/-- What the body is called with at point t: the pipeline's invariant, the core's tally, and each window's current
    staging buffer at what the schedule left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the invariant and the tally at the next point, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the five inputs' buffers hold their blocks, the two outputs' buffers hold something, so the
    body's triple applies at the blocks; the invariant and the tally do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation at every grid point: from each window's current staging buffer at what the
    schedule left there, the body runs to each input buffer unchanged and each output buffer at what it stores. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.K.Body1.lean ====
/-
  The combine kernel's body meets the pipeline's obligation at each of the eight grid points.
-/
import proofs.«123148_j15350213116625_1_alg».proof.Proof.K.Data1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input window's buffer holds when the body is called

An input window's block is left in place by the body, so its current buffer holds the block of the point at
hand whether or not the block was copied in at that very point: where it was not, the window's block index has
not moved since the last copy. The query rows and the state rows (windows 0 and 1) are one block for the whole
grid, copied in at the first point; the weight tile and the bias piece (windows 2 and 3) move with the point. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple

The body reads the four input buffers whole, reads the output buffer once (a value it never uses), and stores
one whole-buffer value into the output buffer: the rectified affine image of the four values read. So the
inputs stay as they were, and the output buffer, whatever it held, ends at the single piece out1_4 names. -/

set_option maxHeartbeats 1000000 in
theorem sound_kernel1 (c : Dev nD) (E : Set ℕ) (i : grid1.Coords)
    (arg1 : Memref sig .tc .vmem S1x2048 .f32) (harg1 : arg1.IsWhole)
    (arg2 : Memref sig .tc .vmem S1x2048 .f32) (harg2 : arg2.IsWhole)
    (arg3 : Memref sig .tc .vmem S256x4096 .f32) (harg3 : arg3.IsWhole)
    (arg4 : Memref sig .tc .vmem S1x256 .f32) (harg4 : arg4.IsWhole)
    (arg5 : Memref sig .tc .vmem S1x256 .f32) (harg5 : arg5.IsWhole)
    (x0 x1 : Vec F S1x2048 .f32) (x2 : Vec F S256x4096 .f32) (x3 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__comb_kernel i arg1 harg1 arg2 harg2 arg3 harg3 arg4 harg4 arg5 harg5) K := by
  simp only [cc1__comb_kernel_eq_skeleton]; unfold cc1__comb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point t: the invariant, what is owed, and each window's current buffer at
    what the schedule left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same invariant and debt, and each window's buffer at what the proof data say the body
    leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the triple applies with the blocks as the
    values read; the invariant and the debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation at every grid point: from each window's current staging buffer at what the
    schedule left there, the body runs to each input buffer unchanged and each output buffer at what it stores. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  The recurrent-unit kernel's body meets the pipeline's obligation at each of the sixteen grid points.
-/
import proofs.«123148_j15350213116625_1_alg».proof.Proof.K.Data2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body

An input window is never written by the body, is uncut and never idle; so its current staging buffer holds the
window's block at every point: at a point where the schedule fetches it, the fetch put it there; at a point where
it does not (the two whole-row windows after the first point), the block index has not moved since the last fetch
and the body left the buffer alone. -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

theorem before2_6 (c : Dev nD) (t : Fin cfg2.N) (d) : (dat2 V c).before 6 t d = iblk2 V c 6 t :=
  ((dat2 V c).before_in_eq_fetched 6 rfl (fun _ => rfl) (fun _ _ _ => rfl)
      (fun t => by rw [after2_6]; unfold Dat.blockOf iblk2; rw [A_eq2]; try rfl) t d).trans
    (by unfold Dat.fetched Dat.blockOf iblk2; rw [A_eq2]; try rfl)

/-! ## The body's triple -/

set_option maxHeartbeats 1000000 in
/-- The kernel body on whole staging memrefs, the seven inputs' at read contents and the output's at anything, runs
    to the continuation holding the inputs' as they were and the output's at `out2_7` of the inputs'. The body
    reads each input buffer whole once, reads the output buffer once (a value it never uses), and stores the new
    hidden state's piece over the whole output buffer; that one store covers the buffer, so what is left there
    is the stored value whatever was there before. -/
theorem sound_kernel2 (c : Dev nD) (E : Set ℕ) (i : grid2.Coords) (arg0 : Memref sig .tc .vmem S1x2048 .f32) (harg0 : arg0.IsWhole) (arg1 : Memref sig .tc .vmem S1x2048 .f32) (harg1 : arg1.IsWhole) (arg2 : Memref sig .tc .vmem S1x128 .f32) (harg2 : arg2.IsWhole) (arg3 : Memref sig .tc .vmem S3x128x2048 .f32) (harg3 : arg3.IsWhole) (arg4 : Memref sig .tc .vmem S3x128x2048 .f32) (harg4 : arg4.IsWhole) (arg5 : Memref sig .tc .vmem S3x1x128 .f32) (harg5 : arg5.IsWhole) (arg6 : Memref sig .tc .vmem S3x1x128 .f32) (harg6 : arg6.IsWhole) (arg7 : Memref sig .tc .vmem S1x128 .f32) (harg7 : arg7.IsWhole)
    (x0 x1 : Vec F S1x2048 .f32) (x2 : Vec F S1x128 .f32) (x3 x4 : Vec F S3x128x2048 .f32) (x5 x6 : Vec F S3x1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__gru_kernel i arg0 harg0 arg1 harg1 arg2 harg2 arg3 harg3 arg4 harg4 arg5 harg5 arg6 harg6 arg7 harg7) K := by
  simp only [cc2__gru_kernel_eq_skeleton]; unfold cc2__gru_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (cover2_7 _)

/-! ## The body obligation, at a generic point -/

/-- What the body is called with at point t: the invariant, the core's debts, and each window's current staging
    buffer at what the schedule left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What the body returns: the same invariant and debts, and each window's buffer at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: each input's buffer holds its block, so the body's triple applies at the blocks; the
    invariant and the core's debts pass through unread (the body neither waits nor signals). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation at every grid point: from each window's current staging buffer at what the
    schedule left there, the body runs to each input buffer unchanged and each output buffer at what it stores. -/
theorem body_obligation2 (c : Dev nD) : BodyObligation (dat2 (F := F) V c) (defs₀ (F := F)) Variants.none () Set.univ := by
  intro t
  rw [bigSep_W2, bigSep_W2]
  exact sound_body2 V c t

end Cert.Kernel.Hand

end
-- ==== Proof.K.Shared2.lean ====
/-
  The third region's arrays and the distinct buffers behind them. Two of its input windows read ONE array (the
  hidden row): the buffer behind that array, whole at the full share, is the two windows' holdings at a half
  share each, at the same contents; every other window's array is a buffer of its own at the full share.
-/
import proofs.«123148_j15350213116625_1_alg».proof.Proof.K.Data2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The seven distinct arrays behind the eight windows. -/
private theorem img2 : (Finset.univ.image (Pipeline.arrRef spec2) : Finset (Ref sig .tc))
    = [main_v5, main_v1, main_v6, main_v7, main_v8, main_v9, main_v10].toFinset := by decide

/-- They are pairwise distinct. -/
private theorem nodup2 : ([main_v5, main_v1, main_v6, main_v7, main_v8, main_v9, main_v10] : List (Ref sig .tc)).Nodup := by decide

/-- Only the last window is written. -/
private theorem isOut2 : ∀ w : Fin 8, (cfg2.win w).isOut = decide (w = 7) := by decide

/-- The share a window holds of its array: full for the written window, the data's own for a read one. -/
private theorem share2 (c : Dev nD) (dat : Dat τ (Elt F) Unit ℕ (UR sig nD τ) ℕ cfg2 c) (hq : dat.q = q2) (w : Fin cfg2.W) :
    dat.share w = if w = 7 then fullShare else q2 w := by
  unfold Dat.share
  rw [isOut2 w, hq]
  by_cases h : w = 7 <;> simp [h]

/-- A window's holding: its array is a whole buffer, so the element set is everything, and the contents are Vc's. -/
private theorem winPt (c : Dev nD) (dat : Dat τ (Elt F) Unit ℕ (UR sig nD τ) ℕ cfg2 c)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) (w : Fin cfg2.W) (q : PosShare TreeShare) (hs : dat.share w = q) :
    ((cfg2.win w).arr.view.loc (c : Thread nD τ) ↦[(cfg2.win w).arr.view.set]{dat.share w} Fw w : sProp 𝕄)
      = ((c : Thread nD τ).loc (Pipeline.arrRef spec2 w) ↦{q} Vc (Pipeline.arrRef spec2 w)) := by
  rw [(arr_whole2 w).set_eq_univ, hF w, hs]

/-- The windows' arrays as a chain over the buffers' names: the hidden row's buffer appears twice, at a half share each. -/
private theorem arrays2_chain (c : Dev nD) (dat : Dat τ (Elt F) Unit ℕ (UR sig nD τ) ℕ cfg2 c) (hq : dat.q = q2)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    (dat.arrays Fw : sProp 𝕄) = iprop(
      (((c : Thread nD τ).loc main_v5) ↦{fullShare} Vc main_v5) ∗
      (((c : Thread nD τ).loc main_v1) ↦{fullShare.left} Vc main_v1) ∗
      (((c : Thread nD τ).loc main_v1) ↦{fullShare.right} Vc main_v1) ∗
      (((c : Thread nD τ).loc main_v6) ↦{fullShare} Vc main_v6) ∗
      (((c : Thread nD τ).loc main_v7) ↦{fullShare} Vc main_v7) ∗
      (((c : Thread nD τ).loc main_v8) ↦{fullShare} Vc main_v8) ∗
      (((c : Thread nD τ).loc main_v9) ↦{fullShare} Vc main_v9) ∗
      (((c : Thread nD τ).loc main_v10) ↦{fullShare} Vc main_v10)) := by
  have s0 : dat.share 0 = fullShare := (share2 c dat hq 0).trans rfl
  have s1 : dat.share 1 = fullShare.left := (share2 c dat hq 1).trans rfl
  have s2 : dat.share 2 = fullShare.right := (share2 c dat hq 2).trans rfl
  have s3 : dat.share 3 = fullShare := (share2 c dat hq 3).trans rfl
  have s4 : dat.share 4 = fullShare := (share2 c dat hq 4).trans rfl
  have s5 : dat.share 5 = fullShare := (share2 c dat hq 5).trans rfl
  have s6 : dat.share 6 = fullShare := (share2 c dat hq 6).trans rfl
  have s7 : dat.share 7 = fullShare := (share2 c dat hq 7).trans rfl
  unfold Dat.arrays
  rewrite [Gen.bigSep_W2]
  rewrite [winPt c dat Vc Fw hF 0 _ s0, winPt c dat Vc Fw hF 1 _ s1, winPt c dat Vc Fw hF 2 _ s2, winPt c dat Vc Fw hF 3 _ s3,
    winPt c dat Vc Fw hF 4 _ s4, winPt c dat Vc Fw hF 5 _ s5, winPt c dat Vc Fw hF 6 _ s6, winPt c dat Vc Fw hF 7 _ s7]
  exact rfl

/-- The distinct buffers behind the windows' arrays, one by one. -/
private theorem arrBufs2_chain (c : Dev nD) (Vc : (b : Ref sig .tc) → Buf (Elt F) ((c : Thread nD τ).loc b)) :
    (Pipeline.arrBufs (Ix := Unit) (Name := ℕ) (U := UR sig nD τ) (Lvl := ℕ) spec2 c Vc : sProp 𝕄) = iprop(
      (((c : Thread nD τ).loc main_v5) ↦{fullShare} Vc main_v5) ∗
      (((c : Thread nD τ).loc main_v1) ↦{fullShare} Vc main_v1) ∗
      (((c : Thread nD τ).loc main_v6) ↦{fullShare} Vc main_v6) ∗
      (((c : Thread nD τ).loc main_v7) ↦{fullShare} Vc main_v7) ∗
      (((c : Thread nD τ).loc main_v8) ↦{fullShare} Vc main_v8) ∗
      (((c : Thread nD τ).loc main_v9) ↦{fullShare} Vc main_v9) ∗
      (((c : Thread nD τ).loc main_v10) ↦{fullShare} Vc main_v10)) := by
  unfold Pipeline.arrBufs
  rewrite [bigSep_eq_bigSepL_of_eq _ img2 nodup2]
  exact rfl

/-- Entry: the distinct buffers behind the windows' arrays, whole at contents Vc, are the windows' arrays at
    contents Fw that read Vc at each window's array. -/
theorem arrays2_of_arrBufs (c : Dev nD) (dat : Dat τ (Elt F) Unit ℕ (UR sig nD τ) ℕ cfg2 c) (hq : dat.q = q2)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    (Pipeline.arrBufs (Ix := Unit) (Name := ℕ) (U := UR sig nD τ) (Lvl := ℕ) spec2 c Vc : sProp 𝕄) ⊢ dat.arrays Fw := by
  rw [arrBufs2_chain c Vc, arrays2_chain c dat hq Vc Fw hF]
  iintro ⟨H5, H1, H6, H7, H8, H9, H10⟩
  -- the hidden row's buffer splits into its two halves at the same contents
  ihave H1 := (pointsTo_share (PosShare.mem_left_op_right fullShare)).1 $$ H1
  icases H1 with ⟨H1l, H1r⟩
  isplitl [H5]; · iexact H5
  isplitl [H1l]; · iexact H1l
  isplitl [H1r]; · iexact H1r
  isplitl [H6]; · iexact H6
  isplitl [H7]; · iexact H7
  isplitl [H8]; · iexact H8
  isplitl [H9]; · iexact H9
  iexact H10

/-- Exit: the windows' arrays at contents Fw that read Vc at each window's array are the distinct buffers
    behind them, whole at Vc. -/
theorem arrBufs_of_arrays2 (c : Dev nD) (dat : Dat τ (Elt F) Unit ℕ (UR sig nD τ) ℕ cfg2 c) (hq : dat.q = q2)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    dat.arrays Fw ⊢ (Pipeline.arrBufs (Ix := Unit) (Name := ℕ) (U := UR sig nD τ) (Lvl := ℕ) spec2 c Vc : sProp 𝕄) := by
  rw [arrBufs2_chain c Vc, arrays2_chain c dat hq Vc Fw hF]
  iintro ⟨H5, H1l, H1r, H6, H7, H8, H9, H10⟩
  -- the two halves of the hidden row's buffer, at the same contents, join to the full share
  ihave H1 := (pointsTo_share (PosShare.mem_left_op_right fullShare)).2 $$ [H1l H1r]
  · isplitl [H1l]; · iexact H1l
    iexact H1r
  isplitl [H5]; · iexact H5
  isplitl [H1]; · iexact H1
  isplitl [H6]; · iexact H6
  isplitl [H7]; · iexact H7
  isplitl [H8]; · iexact H8
  isplitl [H9]; · iexact H9
  iexact H10

end Cert.Kernel.Hand

end
-- ==== Proof.K.Run.lean ====
/-
  The whole program's run at any float instance, from each region's body obligation and the dealing of the
  third region's shared array among its windows: one record per region over the thread state "every unscoped
  buffer at the boundary's contents", and the launch over the seven segments. Every weakly fair execution ends
  with every unscoped buffer at the last boundary's contents.
-/
import proofs.«123148_j15350213116625_1_alg».proof.Proof.K.Fold
import proofs.«123148_j15350213116625_1_alg».proof.Proof.K.Body0
import proofs.«123148_j15350213116625_1_alg».proof.Proof.K.Body1
import proofs.«123148_j15350213116625_1_alg».proof.Proof.K.Body2
import proofs.«123148_j15350213116625_1_alg».proof.Proof.K.Shared2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)
/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The regions as segments -/

section Regions

set_option backward.isDefEq.respectTransparency.types false in
/-- Region 0 over the thread state: entered from every unscoped buffer at the boundary before it, left at the one
    after it. Its arrays are split out of the unscoped buffers at entry and put back at the exit contents; the
    generator register goes into the region's invariant and comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers at entry and put back at the exit contents; the
    generator register goes into the region's invariant and comes back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- A core's unscoped buffers at contents V are the distinct buffers behind region 2's arrays and the buffers that
    bypass the region. -/
theorem ub_split2 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec2 c V
          ∗ Pipeline.unscopedRest (Ix := Unit) (Name := ℕ) (U := UR sig nD τ) (Lvl := ℕ) spec2 c V) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest Pipeline.arrBufs
  rw [bigSep_sdiff_split hA]
  rfl

theorem q_eq2 (V : (c : Dev nD) → (b : Ref sig .tc) → Buf (Elt F) ((c : Thread nD τ).loc b)) (c : Dev nD) : (dat2 V c).q = q2 := by
  dsimp only [dat2]

/-- Entry of region 2: the unscoped buffers at the boundary's contents are the region's arrays, dealt among its
    windows, and the buffers that bypass it. -/
theorem split2 (c : Dev nD) :
    (unscopedBufs (Ix := Unit) (Name := ℕ) (U := UR sig nD τ) (Lvl := ℕ) c (V5 m c) : sProp 𝕄)
      ⊢ iprop((dat2 (V5 m) c).arrays (dat2 (V5 m) c).A ∗ Pipeline.unscopedRest (Ix := Unit) (Name := ℕ) (U := UR sig nD τ) (Lvl := ℕ) spec2 c (V5 m c)) := by
  have h1 := arrays2_of_arrBufs c (dat2 (V5 m) c) (q_eq2 (V5 m) c) (V5 m c) (dat2 (V5 m) c).A (A_eq2 (V5 m) c)
  rw [ub_split2 c (V5 m c)]
  exact sep_mono h1 .rfl

/-- Exit of region 2: its arrays as the write-backs leave them and the bypassing buffers are the unscoped buffers
    at the next boundary's contents. -/
theorem join2 (c : Dev nD) :
    iprop((dat2 (V5 m) c).arrays ((dat2 (V5 m) c).arrAt · cfg2.N) ∗ Pipeline.unscopedRest (Ix := Unit) (Name := ℕ) (U := UR sig nD τ) (Lvl := ℕ) spec2 c (V5 m c))
      ⊢ (unscopedBufs (Ix := Unit) (Name := ℕ) (U := UR sig nD τ) (Lvl := ℕ) c (V6 m c) : sProp 𝕄) := by
  have h1 := arrBufs_of_arrays2 c (dat2 (V5 m) c) (q_eq2 (V5 m) c) (V6 m c) ((dat2 (V5 m) c).arrAt · cfg2.N) (hF2 m c)
  have e2 : (Pipeline.unscopedRest (Ix := Unit) (Name := ℕ) (U := UR sig nD τ) (Lvl := ℕ) spec2 c (V5 m c) : sProp 𝕄)
      = Pipeline.unscopedRest (Ix := Unit) (Name := ℕ) (U := UR sig nD τ) (Lvl := ℕ) spec2 c (V6 m c) := by
    unfold Pipeline.unscopedRest
    exact bigSep_congr fun b hb => by rw [hrest2 m c b (Finset.mem_sdiff.mp hb).2]
  rw [ub_split2 c (V6 m c), e2]
  exact sep_mono h1 .rfl

set_option backward.isDefEq.respectTransparency.types false in
/-- Region 2 over the thread state. Two of its windows read one array: the distinct buffers behind the arrays are
    split out of the unscoped buffers and dealt among the windows at entry, and gathered back at the exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := split2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := join2 m c
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

/-- The program's seven segments in order: a host segment per stretch from its boundary's contents, a region per
    kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Regions

end Cert.Kernel.Hand

end
-- ==== Proof.K.Readback.lean ====
/-
  What the boundaries' contents are at the buffers the regions and the results read: a reshaped argument is the
  argument reshaped, whatever regions ran in between; a region's output array reaches the later boundaries as the
  region left it; an argument reaches the end as launched.
-/
import proofs.«123148_j15350213116625_1_alg».proof.Proof.K.Fold
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The attention region's entry -/
theorem V1_v0 (c : Dev nD) : V1 m c main_v0 = shapeCast _ (m ((c : Thread nD τ).loc main_arg0)) shapeCasts_S1x1x2048_S1x2048 := by
  show StableHlo.after hostOps0 _ (Proc.devRef .tc main_v0) = _
  after_results
  rfl
theorem V1_v1 (c : Dev nD) : V1 m c main_v1 = shapeCast _ (m ((c : Thread nD τ).loc main_arg1)) shapeCasts_S1x1x2048_S1x2048 := by
  show StableHlo.after hostOps0 _ (Proc.devRef .tc main_v1) = _
  after_results
  rfl
theorem V1_v2 (c : Dev nD) : V1 m c main_v2 = shapeCast _ (m ((c : Thread nD τ).loc main_arg4)) shapeCasts_S350_S1x350 := by
  show StableHlo.after hostOps0 _ (Proc.devRef .tc main_v2) = _
  after_results
  rfl
theorem V1_arg3 (c : Dev nD) : V1 m c main_arg3 = m ((c : Thread nD τ).loc main_arg3) :=
  (W1_of m c main_arg3 (by decide)).trans rfl
theorem V1_arg2 (c : Dev nD) : V1 m c main_arg2 = m ((c : Thread nD τ).loc main_arg2) :=
  (W1_of m c main_arg2 (by decide)).trans rfl

/-! ## The combine region's entry -/
theorem V3_v0 (c : Dev nD) : V3 m c main_v0 = shapeCast _ (m ((c : Thread nD τ).loc main_arg0)) shapeCasts_S1x1x2048_S1x2048 :=
  (W3_of m c main_v0 (by decide)).trans <| (W2_of_ne m c main_v0 (by decide) (by decide)).trans <| V1_v0 m c
theorem V3_v3_1 (c : Dev nD) : V3 m c main_v3_1 = (dat0 (V1 m) c).arrAt 6 cfg0.N :=
  (W3_of m c main_v3_1 (by decide)).trans (W2_v3_1 m c)
theorem V3_arg5 (c : Dev nD) : V3 m c main_arg5 = m ((c : Thread nD τ).loc main_arg5) :=
  (W3_of m c main_arg5 (by decide)).trans <| (W2_of_ne m c main_arg5 (by decide) (by decide)).trans <| (W1_of m c main_arg5 (by decide)).trans rfl
theorem V3_v4 (c : Dev nD) : V3 m c main_v4 = shapeCast _ (m ((c : Thread nD τ).loc main_arg6)) shapeCasts_S2048_S1x2048 := by
  show StableHlo.after hostOps1 _ (Proc.devRef .tc main_v4) = _
  after_results
  rw [W2_of_ne m c main_arg6 (by decide) (by decide), W1_of m c main_arg6 (by decide)]
  rfl

/-! ## The recurrent-unit region's entry -/
theorem V5_v5 (c : Dev nD) : V5 m c main_v5 = (dat1 (V3 m) c).arrAt 4 cfg1.N :=
  (W5_of m c main_v5 (by decide)).trans (W4_v5 m c)
theorem V5_v1 (c : Dev nD) : V5 m c main_v1 = shapeCast _ (m ((c : Thread nD τ).loc main_arg1)) shapeCasts_S1x1x2048_S1x2048 :=
  (W5_of m c main_v1 (by decide)).trans <| (W4_of_ne m c main_v1 (by decide)).trans <| (W3_of m c main_v1 (by decide)).trans <| (W2_of_ne m c main_v1 (by decide) (by decide)).trans <| V1_v1 m c
theorem V5_v6 (c : Dev nD) : V5 m c main_v6 = shapeCast _ (m ((c : Thread nD τ).loc main_arg7)) shapeCasts_S6144x2048_S3x2048x2048 := by
  show StableHlo.after hostOps2 _ (Proc.devRef .tc main_v6) = _
  after_results
  rw [W4_of_ne m c main_arg7 (by decide), W3_of m c main_arg7 (by decide), W2_of_ne m c main_arg7 (by decide) (by decide), W1_of m c main_arg7 (by decide)]
  rfl
theorem V5_v7 (c : Dev nD) : V5 m c main_v7 = shapeCast _ (m ((c : Thread nD τ).loc main_arg8)) shapeCasts_S6144x2048_S3x2048x2048 := by
  show StableHlo.after hostOps2 _ (Proc.devRef .tc main_v7) = _
  after_results
  rw [W4_of_ne m c main_arg8 (by decide), W3_of m c main_arg8 (by decide), W2_of_ne m c main_arg8 (by decide) (by decide), W1_of m c main_arg8 (by decide)]
  rfl
theorem V5_v8 (c : Dev nD) : V5 m c main_v8 = shapeCast _ (m ((c : Thread nD τ).loc main_arg9)) shapeCasts_S6144_S3x1x2048 := by
  show StableHlo.after hostOps2 _ (Proc.devRef .tc main_v8) = _
  after_results
  rw [W4_of_ne m c main_arg9 (by decide), W3_of m c main_arg9 (by decide), W2_of_ne m c main_arg9 (by decide) (by decide), W1_of m c main_arg9 (by decide)]
  rfl
theorem V5_v9 (c : Dev nD) : V5 m c main_v9 = shapeCast _ (m ((c : Thread nD τ).loc main_arg10)) shapeCasts_S6144_S3x1x2048 := by
  show StableHlo.after hostOps2 _ (Proc.devRef .tc main_v9) = _
  after_results
  rw [W4_of_ne m c main_arg10 (by decide), W3_of m c main_arg10 (by decide), W2_of_ne m c main_arg10 (by decide) (by decide), W1_of m c main_arg10 (by decide)]
  rfl

/-! ## The end -/
theorem W7_v11 (c : Dev nD) : W7 m c (Proc.devRef .tc main_v11) = shapeCast _ ((dat2 (V5 m) c).arrAt 7 cfg2.N) shapeCasts_S1x2048_S1x1x2048 := by
  show StableHlo.after hostOps3 _ (Proc.devRef .tc main_v11) = _
  after_results
  rw [W6_v10 m c]
  rfl
theorem W7_v12 (c : Dev nD) : W7 m c (Proc.devRef .tc main_v12) = shapeCast _ ((dat2 (V5 m) c).arrAt 7 cfg2.N) shapeCasts_S1x2048_S1x1x2048 := by
  show StableHlo.after hostOps3 _ (Proc.devRef .tc main_v12) = _
  after_results
  rw [W6_v10 m c]
  rfl
theorem W7_v3_0 (c : Dev nD) : W7 m c (Proc.devRef .tc main_v3_0) = (dat0 (V1 m) c).arrAt 5 cfg0.N :=
  (W7_of m c main_v3_0 (by decide)).trans <| (W6_of_ne m c main_v3_0 (by decide)).trans <| (W5_of m c main_v3_0 (by decide)).trans <| (W4_of_ne m c main_v3_0 (by decide)).trans <| (W3_of m c main_v3_0 (by decide)).trans <| W2_v3_0 m c
theorem W7_arg0 (c : Dev nD) : W7 m c (Proc.devRef .tc main_arg0) = m ((c : Thread nD τ).loc main_arg0) :=
  (W7_of m c main_arg0 (by decide)).trans <| (W6_of_ne m c main_arg0 (by decide)).trans <| (W5_of m c main_arg0 (by decide)).trans <| (W4_of_ne m c main_arg0 (by decide)).trans <| (W3_of m c main_arg0 (by decide)).trans <| (W2_of_ne m c main_arg0 (by decide) (by decide)).trans <| (W1_of m c main_arg0 (by decide)).trans rfl
theorem W7_arg1 (c : Dev nD) : W7 m c (Proc.devRef .tc main_arg1) = m ((c : Thread nD τ).loc main_arg1) :=
  (W7_of m c main_arg1 (by decide)).trans <| (W6_of_ne m c main_arg1 (by decide)).trans <| (W5_of m c main_arg1 (by decide)).trans <| (W4_of_ne m c main_arg1 (by decide)).trans <| (W3_of m c main_arg1 (by decide)).trans <| (W2_of_ne m c main_arg1 (by decide) (by decide)).trans <| (W1_of m c main_arg1 (by decide)).trans rfl
theorem W7_arg2 (c : Dev nD) : W7 m c (Proc.devRef .tc main_arg2) = m ((c : Thread nD τ).loc main_arg2) :=
  (W7_of m c main_arg2 (by decide)).trans <| (W6_of_ne m c main_arg2 (by decide)).trans <| (W5_of m c main_arg2 (by decide)).trans <| (W4_of_ne m c main_arg2 (by decide)).trans <| (W3_of m c main_arg2 (by decide)).trans <| (W2_of_ne m c main_arg2 (by decide) (by decide)).trans <| (W1_of m c main_arg2 (by decide)).trans rfl
theorem W7_arg3 (c : Dev nD) : W7 m c (Proc.devRef .tc main_arg3) = m ((c : Thread nD τ).loc main_arg3) :=
  (W7_of m c main_arg3 (by decide)).trans <| (W6_of_ne m c main_arg3 (by decide)).trans <| (W5_of m c main_arg3 (by decide)).trans <| (W4_of_ne m c main_arg3 (by decide)).trans <| (W3_of m c main_arg3 (by decide)).trans <| (W2_of_ne m c main_arg3 (by decide) (by decide)).trans <| (W1_of m c main_arg3 (by decide)).trans rfl
theorem W7_arg4 (c : Dev nD) : W7 m c (Proc.devRef .tc main_arg4) = m ((c : Thread nD τ).loc main_arg4) :=
  (W7_of m c main_arg4 (by decide)).trans <| (W6_of_ne m c main_arg4 (by decide)).trans <| (W5_of m c main_arg4 (by decide)).trans <| (W4_of_ne m c main_arg4 (by decide)).trans <| (W3_of m c main_arg4 (by decide)).trans <| (W2_of_ne m c main_arg4 (by decide) (by decide)).trans <| (W1_of m c main_arg4 (by decide)).trans rfl
theorem W7_arg5 (c : Dev nD) : W7 m c (Proc.devRef .tc main_arg5) = m ((c : Thread nD τ).loc main_arg5) :=
  (W7_of m c main_arg5 (by decide)).trans <| (W6_of_ne m c main_arg5 (by decide)).trans <| (W5_of m c main_arg5 (by decide)).trans <| (W4_of_ne m c main_arg5 (by decide)).trans <| (W3_of m c main_arg5 (by decide)).trans <| (W2_of_ne m c main_arg5 (by decide) (by decide)).trans <| (W1_of m c main_arg5 (by decide)).trans rfl
theorem W7_arg6 (c : Dev nD) : W7 m c (Proc.devRef .tc main_arg6) = m ((c : Thread nD τ).loc main_arg6) :=
  (W7_of m c main_arg6 (by decide)).trans <| (W6_of_ne m c main_arg6 (by decide)).trans <| (W5_of m c main_arg6 (by decide)).trans <| (W4_of_ne m c main_arg6 (by decide)).trans <| (W3_of m c main_arg6 (by decide)).trans <| (W2_of_ne m c main_arg6 (by decide) (by decide)).trans <| (W1_of m c main_arg6 (by decide)).trans rfl
theorem W7_arg7 (c : Dev nD) : W7 m c (Proc.devRef .tc main_arg7) = m ((c : Thread nD τ).loc main_arg7) :=
  (W7_of m c main_arg7 (by decide)).trans <| (W6_of_ne m c main_arg7 (by decide)).trans <| (W5_of m c main_arg7 (by decide)).trans <| (W4_of_ne m c main_arg7 (by decide)).trans <| (W3_of m c main_arg7 (by decide)).trans <| (W2_of_ne m c main_arg7 (by decide) (by decide)).trans <| (W1_of m c main_arg7 (by decide)).trans rfl
theorem W7_arg8 (c : Dev nD) : W7 m c (Proc.devRef .tc main_arg8) = m ((c : Thread nD τ).loc main_arg8) :=
  (W7_of m c main_arg8 (by decide)).trans <| (W6_of_ne m c main_arg8 (by decide)).trans <| (W5_of m c main_arg8 (by decide)).trans <| (W4_of_ne m c main_arg8 (by decide)).trans <| (W3_of m c main_arg8 (by decide)).trans <| (W2_of_ne m c main_arg8 (by decide) (by decide)).trans <| (W1_of m c main_arg8 (by decide)).trans rfl
theorem W7_arg9 (c : Dev nD) : W7 m c (Proc.devRef .tc main_arg9) = m ((c : Thread nD τ).loc main_arg9) :=
  (W7_of m c main_arg9 (by decide)).trans <| (W6_of_ne m c main_arg9 (by decide)).trans <| (W5_of m c main_arg9 (by decide)).trans <| (W4_of_ne m c main_arg9 (by decide)).trans <| (W3_of m c main_arg9 (by decide)).trans <| (W2_of_ne m c main_arg9 (by decide) (by decide)).trans <| (W1_of m c main_arg9 (by decide)).trans rfl
theorem W7_arg10 (c : Dev nD) : W7 m c (Proc.devRef .tc main_arg10) = m ((c : Thread nD τ).loc main_arg10) :=
  (W7_of m c main_arg10 (by decide)).trans <| (W6_of_ne m c main_arg10 (by decide)).trans <| (W5_of m c main_arg10 (by decide)).trans <| (W4_of_ne m c main_arg10 (by decide)).trans <| (W3_of m c main_arg10 (by decide)).trans <| (W2_of_ne m c main_arg10 (by decide) (by decide)).trans <| (W1_of m c main_arg10 (by decide)).trans rfl

end Cert.Kernel.Hand

end
-- ==== Proof.KI.Data0.lean ====
/-
  The attention region (first kernel call): what each window's block is at a grid point, what the body
  leaves in the two output windows' buffers (the attention weights and the context row), and the
  pipeline's proof data over them, at any contents V the region is entered from.
-/
import proofs.«123148_j15350213116625_1_alg».proof.Proof.Gen.KernelIdeal.Launch
import proofs.«123148_j15350213116625_1_alg».proof.Proof.Gen.KernelIdeal.Skeleton
import proofs.«123148_j15350213116625_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rq0 : Rect S1x2048 := Rect.unit (s := S1x2048) ![0, 0] S1x2048.size inb_S1x2048_S1x2048_0_0
abbrev rw0 : Rect S350x4096 := Rect.unit (s := S350x4096) ![0, 0] S350x4096.size inb_S350x4096_S350x4096_0_0
abbrev rb0 : Rect S1x350 := Rect.unit (s := S1x350) ![0, 0] S1x350.size inb_S1x350_S1x350_0_0
abbrev re0 : Rect S350x2048 := Rect.unit (s := S350x2048) ![0, 0] S350x2048.size inb_S350x2048_S350x2048_0_0

/-- The attention weights' buffer after the body: one whole-buffer store of the softmax row. -/
def out0_5 (x0 x1 : Vec F S1x2048 .f32) (x2 : Vec F S350x4096 .f32) (x3 : Vec F S1x350 .f32) : Vec F S1x350 .f32 :=
  View.canon [⟨rb0, k0_pay1 (View.ld x0 rq0) (View.ld x1 rq0) (View.ld x2 rw0) (View.ld x3 rb0)⟩]

/-- The context row's buffer after the body: one whole-buffer store of weights times encoder outputs. -/
def out0_6 (x0 x1 : Vec F S1x2048 .f32) (x2 : Vec F S350x4096 .f32) (x3 : Vec F S1x350 .f32) (x4 : Vec F S350x2048 .f32) : Vec F S1x2048 .f32 :=
  View.canon [⟨rq0, k0_pay2 (View.ld x0 rq0) (View.ld x1 rq0) (View.ld x2 rw0) (View.ld x3 rb0) (View.ld x4 re0)⟩]

theorem cover0_5 (p0 : Vec F S1x350 .f32) (y : S1x350.Idx) :
    ∃ pc ∈ ([⟨rb0, p0⟩] : List (View.Piece (Elt F) S1x350 .f32)), y ∈ pc.1.set :=
  View.cover_of_tiled [⟨rb0, p0⟩] S1x350.size (by rfl) y

theorem cover0_6 (p0 : Vec F S1x2048 .f32) (y : S1x2048.Idx) :
    ∃ pc ∈ ([⟨rq0, p0⟩] : List (View.Piece (Elt F) S1x2048 .f32)), y ∈ pc.1.set :=
  View.cover_of_tiled [⟨rq0, p0⟩] S1x2048.size (by rfl) y

/-- The proof data of the attention pipeline on core c: arrays as the region finds them; after the body each
    input's buffer at its block and each output's at what the body stores; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

end Cert.KernelIdeal.Hand

end
-- ==== Proof.KI.Data1.lean ====
/-
  The combine region (second kernel call, eight grid points): each window's block at a point, what the body
  leaves in the output window's buffer (a 256-wide piece of the rectified combination), and the pipeline's
  proof data, at any contents V the region is entered from.
-/
import proofs.«123148_j15350213116625_1_alg».proof.Proof.Gen.KernelIdeal.Launch
import proofs.«123148_j15350213116625_1_alg».proof.Proof.Gen.KernelIdeal.Skeleton
import proofs.«123148_j15350213116625_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rq1 : Rect S1x2048 := Rect.unit (s := S1x2048) ![0, 0] S1x2048.size inb_S1x2048_S1x2048_0_0
abbrev rw1 : Rect S256x4096 := Rect.unit (s := S256x4096) ![0, 0] S256x4096.size inb_S256x4096_S256x4096_0_0
abbrev rb1 : Rect S1x256 := Rect.unit (s := S1x256) ![0, 0] S1x256.size inb_S1x256_S1x256_0_0

/-- The output window's buffer after the body: one whole-buffer store of the rectified affine image. -/
def out1_4 (x0 x1 : Vec F S1x2048 .f32) (x2 : Vec F S256x4096 .f32) (x3 : Vec F S1x256 .f32) : Vec F S1x256 .f32 :=
  View.canon [⟨rb1, k1_pay1 (View.ld x0 rq1) (View.ld x1 rq1) (View.ld x2 rw1) (View.ld x3 rb1)⟩]

theorem cover1_4 (p0 : Vec F S1x256 .f32) (y : S1x256.Idx) :
    ∃ pc ∈ ([⟨rb1, p0⟩] : List (View.Piece (Elt F) S1x256 .f32)), y ∈ pc.1.set :=
  View.cover_of_tiled [⟨rb1, p0⟩] S1x256.size (by rfl) y

/-- The proof data of the combine pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

end Cert.KernelIdeal.Hand

end
-- ==== Proof.KI.Data2.lean ====
/-
  The recurrent-unit region (third kernel call, sixteen grid points): each window's block at a point, what the
  body leaves in the output window's buffer (a 128-wide piece of the new hidden state), and the pipeline's
  proof data, at any contents V the region is entered from. The hidden state reaches the kernel through two
  windows on ONE array (the whole row, and the row's piece at the point): each holds half of the array's share.
-/
import proofs.«123148_j15350213116625_1_alg».proof.Proof.Gen.KernelIdeal.Launch
import proofs.«123148_j15350213116625_1_alg».proof.Proof.Gen.KernelIdeal.Skeleton
import proofs.«123148_j15350213116625_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rq2 : Rect S1x2048 := Rect.unit (s := S1x2048) ![0, 0] S1x2048.size inb_S1x2048_S1x2048_0_0
abbrev rh2 : Rect S1x128 := Rect.unit (s := S1x128) ![0, 0] S1x128.size inb_S1x128_S1x128_0_0
abbrev rw2 : Rect S3x128x2048 := Rect.unit (s := S3x128x2048) ![0, 0, 0] S3x128x2048.size inb_S3x128x2048_S3x128x2048_0_0_0
abbrev rb2 : Rect S3x1x128 := Rect.unit (s := S3x1x128) ![0, 0, 0] S3x1x128.size inb_S3x1x128_S3x1x128_0_0_0

/-- The output window's buffer after the body: one whole-buffer store of the new hidden state's piece, from the
    combined row x0, the hidden row x1, the hidden row's piece x2, the two weight blocks x3 x4 and the two bias
    blocks x5 x6. -/
def out2_7 (x0 x1 : Vec F S1x2048 .f32) (x2 : Vec F S1x128 .f32) (x3 x4 : Vec F S3x128x2048 .f32) (x5 x6 : Vec F S3x1x128 .f32) : Vec F S1x128 .f32 :=
  View.canon [⟨rh2, k2_pay1 (k2_pay3 (View.ld x1 rq2)) (k2_pay4 (View.ld x2 rh2)) (k2_pay6 (View.ld x4 rw2)) (k2_pay8 (View.ld x6 rb2))
    (k2_pay9 (View.ld x0 rq2) (View.ld x3 rw2) (View.ld x5 rb2)) (k2_pay10 (View.ld x0 rq2) (View.ld x3 rw2) (View.ld x5 rb2))
    (k2_pay11 (View.ld x0 rq2) (View.ld x3 rw2) (View.ld x5 rb2)) (k2_pay12 (View.ld x4 rw2))⟩]

theorem cover2_7 (p0 : Vec F S1x128 .f32) (y : S1x128.Idx) :
    ∃ pc ∈ ([⟨rh2, p0⟩] : List (View.Piece (Elt F) S1x128 .f32)), y ∈ pc.1.set :=
  View.cover_of_tiled [⟨rh2, p0⟩] S1x128.size (by rfl) y

/-- The share each window holds of its array: the two windows on the hidden row's array hold a half each. -/
def q2 : Fin cfg2.W → PosShare TreeShare
  | ⟨1, _⟩ => fullShare.left
  | ⟨2, _⟩ => fullShare.right
  | _ => fullShare

/-- The proof data of the recurrent-unit pipeline on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q := q2
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

end Cert.KernelIdeal.Hand

end
-- ==== Proof.KI.Fold.lean ====
/-
  The unscoped buffers' contents at every boundary of the program, as a fold from the launch memory: a host
  stretch applies its operations; a region leaves its output arrays at what its write-backs make of them and
  every other buffer as it found it.
-/
import proofs.«123148_j15350213116625_1_alg».proof.Proof.KI.Data0
import proofs.«123148_j15350213116625_1_alg».proof.Proof.KI.Data1
import proofs.«123148_j15350213116625_1_alg».proof.Proof.KI.Data2
import proofs.«123148_j15350213116625_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m (c, b)
/-- After the first host stretch (the attention region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the attention region's exit: the weights' and the context's arrays at what the region leaves. -/
def W2 (c : Dev nD) : Valuation τ sig (Elt F) :=
  Function.update (Function.update (W1 m c) main_v3_0 ((dat0 (V1 m) c).arrAt 5 cfg0.N)) main_v3_1 ((dat0 (V1 m) c).arrAt 6 cfg0.N)
abbrev V2 : (c : Dev nD) → (b : Ref sig .tc) → Buf (Elt F) ((c : Thread nD τ).loc b) := fun c b => W2 m c b
/-- After the second host stretch (the combine region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the combine region's exit. -/
def W4 (c : Dev nD) : Valuation τ sig (Elt F) :=
  Function.update (W3 m c) main_v5 ((dat1 (V3 m) c).arrAt 4 cfg1.N)
abbrev V4 : (c : Dev nD) → (b : Ref sig .tc) → Buf (Elt F) ((c : Thread nD τ).loc b) := fun c b => W4 m c b
/-- After the third host stretch (the recurrent-unit region's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the recurrent-unit region's exit. -/
def W6 (c : Dev nD) : Valuation τ sig (Elt F) :=
  Function.update (W5 m c) main_v10 ((dat2 (V5 m) c).arrAt 7 cfg2.N)
abbrev V6 : (c : Dev nD) → (b : Ref sig .tc) → Buf (Elt F) ((c : Thread nD τ).loc b) := fun c b => W6 m c b
/-- After the last host stretch: the end. -/
abbrev W7 : Dev nD → Valuation τ sig (Elt F) := fun c => StableHlo.after hostOps3 (W6 m c)

theorem W2_v3_0 (c : Dev nD) : W2 m c (Proc.devRef .tc main_v3_0) = (dat0 (V1 m) c).arrAt 5 cfg0.N := by
  unfold W2
  rw [Function.update_of_ne (StableHlo.devRef_ne_of_ne (by decide) : (Proc.devRef .tc main_v3_0 : DevRef τ sig) ≠ Proc.devRef .tc main_v3_1)]
  exact Function.update_self ..
theorem W2_v3_1 (c : Dev nD) : W2 m c (Proc.devRef .tc main_v3_1) = (dat0 (V1 m) c).arrAt 6 cfg0.N := by
  unfold W2; exact Function.update_self ..
theorem W2_of_ne (c : Dev nD) (b : Ref sig .tc) (h0 : b ≠ main_v3_0) (h1 : b ≠ main_v3_1) :
    W2 m c (Proc.devRef .tc b) = W1 m c (Proc.devRef .tc b) := by
  unfold W2
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]
theorem W4_v5 (c : Dev nD) : W4 m c (Proc.devRef .tc main_v5) = (dat1 (V3 m) c).arrAt 4 cfg1.N := by
  unfold W4; exact Function.update_self ..
theorem W4_of_ne (c : Dev nD) (b : Ref sig .tc) (h0 : b ≠ main_v5) :
    W4 m c (Proc.devRef .tc b) = W3 m c (Proc.devRef .tc b) := by
  unfold W4
  rw [Function.update_of_ne (StableHlo.devRef_ne_of_ne h0 : (Proc.devRef .tc b : DevRef τ sig) ≠ Proc.devRef .tc main_v5)]
theorem W6_v10 (c : Dev nD) : W6 m c (Proc.devRef .tc main_v10) = (dat2 (V5 m) c).arrAt 7 cfg2.N := by
  unfold W6; exact Function.update_self ..
theorem W6_of_ne (c : Dev nD) (b : Ref sig .tc) (h0 : b ≠ main_v10) :
    W6 m c (Proc.devRef .tc b) = W5 m c (Proc.devRef .tc b) := by
  unfold W6
  rw [Function.update_of_ne (StableHlo.devRef_ne_of_ne h0 : (Proc.devRef .tc b : DevRef τ sig) ≠ Proc.devRef .tc main_v10)]

/-- What a host stretch does not write it leaves. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

/-! ## Each region leaves its input arrays as entered and its output arrays at what the write-backs make -/

theorem hF0 (c : Dev nD) : ∀ w : Fin cfg0.W, (dat0 (V1 m) c).arrAt w cfg0.N = V2 m c (Pipeline.arrRef spec0 w)
  | ⟨0, _⟩ => (((dat0 (V1 m) c).arrAt_in 0 rfl _).trans (A_eq0 (V1 m) c 0)).trans (W2_of_ne m c _ (by decide) (by decide)).symm
  | ⟨1, _⟩ => (((dat0 (V1 m) c).arrAt_in 1 rfl _).trans (A_eq0 (V1 m) c 1)).trans (W2_of_ne m c _ (by decide) (by decide)).symm
  | ⟨2, _⟩ => (((dat0 (V1 m) c).arrAt_in 2 rfl _).trans (A_eq0 (V1 m) c 2)).trans (W2_of_ne m c _ (by decide) (by decide)).symm
  | ⟨3, _⟩ => (((dat0 (V1 m) c).arrAt_in 3 rfl _).trans (A_eq0 (V1 m) c 3)).trans (W2_of_ne m c _ (by decide) (by decide)).symm
  | ⟨4, _⟩ => (((dat0 (V1 m) c).arrAt_in 4 rfl _).trans (A_eq0 (V1 m) c 4)).trans (W2_of_ne m c _ (by decide) (by decide)).symm
  | ⟨5, _⟩ => (W2_v3_0 m c).symm
  | ⟨6, _⟩ => (W2_v3_1 m c).symm
theorem hrest0 (c : Dev nD) : ∀ b, b ∉ Finset.univ.image (Pipeline.arrRef spec0) → V2 m c b = V1 m c b :=
  fun b hb => W2_of_ne m c b (fun e => hb (Finset.mem_image.mpr ⟨5, Finset.mem_univ _, e.symm⟩))
    (fun e => hb (Finset.mem_image.mpr ⟨6, Finset.mem_univ _, e.symm⟩))

theorem hF1 (c : Dev nD) : ∀ w : Fin cfg1.W, (dat1 (V3 m) c).arrAt w cfg1.N = V4 m c (Pipeline.arrRef spec1 w)
  | ⟨0, _⟩ => (((dat1 (V3 m) c).arrAt_in 0 rfl _).trans (A_eq1 (V3 m) c 0)).trans (W4_of_ne m c _ (by decide)).symm
  | ⟨1, _⟩ => (((dat1 (V3 m) c).arrAt_in 1 rfl _).trans (A_eq1 (V3 m) c 1)).trans (W4_of_ne m c _ (by decide)).symm
  | ⟨2, _⟩ => (((dat1 (V3 m) c).arrAt_in 2 rfl _).trans (A_eq1 (V3 m) c 2)).trans (W4_of_ne m c _ (by decide)).symm
  | ⟨3, _⟩ => (((dat1 (V3 m) c).arrAt_in 3 rfl _).trans (A_eq1 (V3 m) c 3)).trans (W4_of_ne m c _ (by decide)).symm
  | ⟨4, _⟩ => (W4_v5 m c).symm
theorem hrest1 (c : Dev nD) : ∀ b, b ∉ Finset.univ.image (Pipeline.arrRef spec1) → V4 m c b = V3 m c b :=
  fun b hb => W4_of_ne m c b (fun e => hb (Finset.mem_image.mpr ⟨4, Finset.mem_univ _, e.symm⟩))

theorem hF2 (c : Dev nD) : ∀ w : Fin cfg2.W, (dat2 (V5 m) c).arrAt w cfg2.N = V6 m c (Pipeline.arrRef spec2 w)
  | ⟨0, _⟩ => (((dat2 (V5 m) c).arrAt_in 0 rfl _).trans (A_eq2 (V5 m) c 0)).trans (W6_of_ne m c _ (by decide)).symm
  | ⟨1, _⟩ => (((dat2 (V5 m) c).arrAt_in 1 rfl _).trans (A_eq2 (V5 m) c 1)).trans (W6_of_ne m c _ (by decide)).symm
  | ⟨2, _⟩ => (((dat2 (V5 m) c).arrAt_in 2 rfl _).trans (A_eq2 (V5 m) c 2)).trans (W6_of_ne m c _ (by decide)).symm
  | ⟨3, _⟩ => (((dat2 (V5 m) c).arrAt_in 3 rfl _).trans (A_eq2 (V5 m) c 3)).trans (W6_of_ne m c _ (by decide)).symm
  | ⟨4, _⟩ => (((dat2 (V5 m) c).arrAt_in 4 rfl _).trans (A_eq2 (V5 m) c 4)).trans (W6_of_ne m c _ (by decide)).symm
  | ⟨5, _⟩ => (((dat2 (V5 m) c).arrAt_in 5 rfl _).trans (A_eq2 (V5 m) c 5)).trans (W6_of_ne m c _ (by decide)).symm
  | ⟨6, _⟩ => (((dat2 (V5 m) c).arrAt_in 6 rfl _).trans (A_eq2 (V5 m) c 6)).trans (W6_of_ne m c _ (by decide)).symm
  | ⟨7, _⟩ => (W6_v10 m c).symm
theorem hrest2 (c : Dev nD) : ∀ b, b ∉ Finset.univ.image (Pipeline.arrRef spec2) → V6 m c b = V5 m c b :=
  fun b hb => W6_of_ne m c b (fun e => hb (Finset.mem_image.mpr ⟨7, Finset.mem_univ _, e.symm⟩))

end Cert.KernelIdeal.Hand

end
-- ==== Proof.KI.Body0.lean ====
/-
  The attention kernel's body meets the pipeline's obligation: run on whole staging buffers holding the inputs' blocks, it stores the softmax row and the context row and leaves the inputs as they were.
-/
import proofs.«123148_j15350213116625_1_alg».proof.Proof.KI.Data0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers

Every input window is read-only for the body (what the body leaves there is the window's block), uncut and
never idle; so its current staging buffer holds the block of its array at the point, whether the schedule
fetched it at that point or kept it from the point before (then the block index has not moved). -/

/-- Input window 0 (the first 1x2048 row): its current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1 (the second 1x2048 row): its current staging buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2 (the 350x4096 matrix): its current staging buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3 (the 1x350 bias row): its current staging buffer holds its block at every point. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- Input window 4 (the 350x2048 matrix): its current staging buffer holds its block at every point. -/
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The body's triple -/

set_option maxHeartbeats 4000000 in
/-- The body on whole staging memrefs: the five inputs' at read contents x0 … x4, the two outputs' at anything. It
    loads the four inputs of the score row, loads the weights' buffer (a value nothing reads), stores the softmax row
    over the whole weights' buffer, loads the encoder matrix and the context's buffer (again unread), and stores the
    context row over the whole context's buffer. It ends with the inputs' buffers as they were and each output's buffer
    read back as its single whole-buffer store (the store's rectangle covers the buffer). -/
theorem sound_kernel0 (c : Dev nD) (E : Set ℕ) (i : grid0.Coords) (arg1 : Memref sig .tc .vmem S1x2048 .f32) (harg1 : arg1.IsWhole) (arg2 : Memref sig .tc .vmem S1x2048 .f32) (harg2 : arg2.IsWhole) (arg3 : Memref sig .tc .vmem S350x4096 .f32) (harg3 : arg3.IsWhole) (arg4 : Memref sig .tc .vmem S1x350 .f32) (harg4 : arg4.IsWhole) (arg5 : Memref sig .tc .vmem S350x2048 .f32) (harg5 : arg5.IsWhole) (arg6 : Memref sig .tc .vmem S1x350 .f32) (harg6 : arg6.IsWhole) (arg7 : Memref sig .tc .vmem S1x2048 .f32) (harg7 : arg7.IsWhole)
    (x0 x1 : Vec F S1x2048 .f32) (x2 : Vec F S350x4096 .f32) (x3 : Vec F S1x350 .f32) (x4 : Vec F S350x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3) ∗ owns (c : Thread nD τ) arg7 fullShare (out0_6 x0 x1 x2 x3 x4)) -∗ K ⟨⟩))
      ⊢ wp frame (wpE (defs₀ (F := F)) Variants.none c none) E (cc0__attn_kernel i arg1 harg1 arg2 harg2 arg3 harg3 arg4 harg4 arg5 harg5 arg6 harg6 arg7 harg7) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The body obligation at a point -/

/-- What the body is called with at point t: the pipeline's invariant, the core's tally, and each window's current
    staging buffer at what the schedule left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the invariant and the tally at the next point, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the five inputs' buffers hold their blocks, the two outputs' buffers hold something, so the
    body's triple applies at the blocks; the invariant and the tally do not depend on the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation at every grid point: from each window's current staging buffer at what the
    schedule left there, the body runs to each input buffer unchanged and each output buffer at what it stores. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Body1.lean ====
/-
  The combine kernel's body meets the pipeline's obligation at each of the eight grid points.
-/
import proofs.«123148_j15350213116625_1_alg».proof.Proof.KI.Data1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input window's buffer holds when the body is called

An input window's block is left in place by the body, so its current buffer holds the block of the point at
hand whether or not the block was copied in at that very point: where it was not, the window's block index has
not moved since the last copy. The query rows and the state rows (windows 0 and 1) are one block for the whole
grid, copied in at the first point; the weight tile and the bias piece (windows 2 and 3) move with the point. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple

The body reads the four input buffers whole, reads the output buffer once (a value it never uses), and stores
one whole-buffer value into the output buffer: the rectified affine image of the four values read. So the
inputs stay as they were, and the output buffer, whatever it held, ends at the single piece out1_4 names. -/

set_option maxHeartbeats 1000000 in
theorem sound_kernel1 (c : Dev nD) (E : Set ℕ) (i : grid1.Coords)
    (arg1 : Memref sig .tc .vmem S1x2048 .f32) (harg1 : arg1.IsWhole)
    (arg2 : Memref sig .tc .vmem S1x2048 .f32) (harg2 : arg2.IsWhole)
    (arg3 : Memref sig .tc .vmem S256x4096 .f32) (harg3 : arg3.IsWhole)
    (arg4 : Memref sig .tc .vmem S1x256 .f32) (harg4 : arg4.IsWhole)
    (arg5 : Memref sig .tc .vmem S1x256 .f32) (harg5 : arg5.IsWhole)
    (x0 x1 : Vec F S1x2048 .f32) (x2 : Vec F S256x4096 .f32) (x3 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__comb_kernel i arg1 harg1 arg2 harg2 arg3 harg3 arg4 harg4 arg5 harg5) K := by
  simp only [cc1__comb_kernel_eq_skeleton]; unfold cc1__comb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point t: the invariant, what is owed, and each window's current buffer at
    what the schedule left there. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns: the same invariant and debt, and each window's buffer at what the proof data say the body
    leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the triple applies with the blocks as the
    values read; the invariant and the debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation at every grid point: from each window's current staging buffer at what the
    schedule left there, the body runs to each input buffer unchanged and each output buffer at what it stores. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  The recurrent-unit kernel's body meets the pipeline's obligation at each of the sixteen grid points.
-/
import proofs.«123148_j15350213116625_1_alg».proof.Proof.KI.Data2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers before the body

An input window is never written by the body, is uncut and never idle; so its current staging buffer holds the
window's block at every point: at a point where the schedule fetches it, the fetch put it there; at a point where
it does not (the two whole-row windows after the first point), the block index has not moved since the last fetch
and the body left the buffer alone. -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

theorem before2_6 (c : Dev nD) (t : Fin cfg2.N) (d) : (dat2 V c).before 6 t d = iblk2 V c 6 t :=
  ((dat2 V c).before_in_eq_fetched 6 rfl (fun _ => rfl) (fun _ _ _ => rfl)
      (fun t => by rw [after2_6]; unfold Dat.blockOf iblk2; rw [A_eq2]; try rfl) t d).trans
    (by unfold Dat.fetched Dat.blockOf iblk2; rw [A_eq2]; try rfl)

/-! ## The body's triple -/

set_option maxHeartbeats 1000000 in
/-- The kernel body on whole staging memrefs, the seven inputs' at read contents and the output's at anything, runs
    to the continuation holding the inputs' as they were and the output's at `out2_7` of the inputs'. The body
    reads each input buffer whole once, reads the output buffer once (a value it never uses), and stores the new
    hidden state's piece over the whole output buffer; that one store covers the buffer, so what is left there
    is the stored value whatever was there before. -/
theorem sound_kernel2 (c : Dev nD) (E : Set ℕ) (i : grid2.Coords) (arg0 : Memref sig .tc .vmem S1x2048 .f32) (harg0 : arg0.IsWhole) (arg1 : Memref sig .tc .vmem S1x2048 .f32) (harg1 : arg1.IsWhole) (arg2 : Memref sig .tc .vmem S1x128 .f32) (harg2 : arg2.IsWhole) (arg3 : Memref sig .tc .vmem S3x128x2048 .f32) (harg3 : arg3.IsWhole) (arg4 : Memref sig .tc .vmem S3x128x2048 .f32) (harg4 : arg4.IsWhole) (arg5 : Memref sig .tc .vmem S3x1x128 .f32) (harg5 : arg5.IsWhole) (arg6 : Memref sig .tc .vmem S3x1x128 .f32) (harg6 : arg6.IsWhole) (arg7 : Memref sig .tc .vmem S1x128 .f32) (harg7 : arg7.IsWhole)
    (x0 x1 : Vec F S1x2048 .f32) (x2 : Vec F S1x128 .f32) (x3 x4 : Vec F S3x128x2048 .f32) (x5 x6 : Vec F S3x1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__gru_kernel i arg0 harg0 arg1 harg1 arg2 harg2 arg3 harg3 arg4 harg4 arg5 harg5 arg6 harg6 arg7 harg7) K := by
  simp only [cc2__gru_kernel_eq_skeleton]; unfold cc2__gru_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (cover2_7 _)

/-! ## The body obligation, at a generic point -/

/-- What the body is called with at point t: the invariant, the core's debts, and each window's current staging
    buffer at what the schedule left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What the body returns: the same invariant and debts, and each window's buffer at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: each input's buffer holds its block, so the body's triple applies at the blocks; the
    invariant and the core's debts pass through unread (the body neither waits nor signals). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation at every grid point: from each window's current staging buffer at what the
    schedule left there, the body runs to each input buffer unchanged and each output buffer at what it stores. -/
theorem body_obligation2 (c : Dev nD) : BodyObligation (dat2 (F := F) V c) (defs₀ (F := F)) Variants.none () Set.univ := by
  intro t
  rw [bigSep_W2, bigSep_W2]
  exact sound_body2 V c t

end Cert.KernelIdeal.Hand

end
-- ==== Proof.KI.Shared2.lean ====
/-
  The third region's arrays and the distinct buffers behind them. Two of its input windows read ONE array (the
  hidden row): the buffer behind that array, whole at the full share, is the two windows' holdings at a half
  share each, at the same contents; every other window's array is a buffer of its own at the full share.
-/
import proofs.«123148_j15350213116625_1_alg».proof.Proof.KI.Data2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The seven distinct arrays behind the eight windows. -/
private theorem img2 : (Finset.univ.image (Pipeline.arrRef spec2) : Finset (Ref sig .tc))
    = [main_v5, main_v1, main_v6, main_v7, main_v8, main_v9, main_v10].toFinset := by decide

/-- They are pairwise distinct. -/
private theorem nodup2 : ([main_v5, main_v1, main_v6, main_v7, main_v8, main_v9, main_v10] : List (Ref sig .tc)).Nodup := by decide

/-- Only the last window is written. -/
private theorem isOut2 : ∀ w : Fin 8, (cfg2.win w).isOut = decide (w = 7) := by decide

/-- The share a window holds of its array: full for the written window, the data's own for a read one. -/
private theorem share2 (c : Dev nD) (dat : Dat τ (Elt F) Unit ℕ (UR sig nD τ) ℕ cfg2 c) (hq : dat.q = q2) (w : Fin cfg2.W) :
    dat.share w = if w = 7 then fullShare else q2 w := by
  unfold Dat.share
  rw [isOut2 w, hq]
  by_cases h : w = 7 <;> simp [h]

/-- A window's holding: its array is a whole buffer, so the element set is everything, and the contents are Vc's. -/
private theorem winPt (c : Dev nD) (dat : Dat τ (Elt F) Unit ℕ (UR sig nD τ) ℕ cfg2 c)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) (w : Fin cfg2.W) (q : PosShare TreeShare) (hs : dat.share w = q) :
    ((cfg2.win w).arr.view.loc (c : Thread nD τ) ↦[(cfg2.win w).arr.view.set]{dat.share w} Fw w : sProp 𝕄)
      = ((c : Thread nD τ).loc (Pipeline.arrRef spec2 w) ↦{q} Vc (Pipeline.arrRef spec2 w)) := by
  rw [(arr_whole2 w).set_eq_univ, hF w, hs]

/-- The windows' arrays as a chain over the buffers' names: the hidden row's buffer appears twice, at a half share each. -/
private theorem arrays2_chain (c : Dev nD) (dat : Dat τ (Elt F) Unit ℕ (UR sig nD τ) ℕ cfg2 c) (hq : dat.q = q2)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    (dat.arrays Fw : sProp 𝕄) = iprop(
      (((c : Thread nD τ).loc main_v5) ↦{fullShare} Vc main_v5) ∗
      (((c : Thread nD τ).loc main_v1) ↦{fullShare.left} Vc main_v1) ∗
      (((c : Thread nD τ).loc main_v1) ↦{fullShare.right} Vc main_v1) ∗
      (((c : Thread nD τ).loc main_v6) ↦{fullShare} Vc main_v6) ∗
      (((c : Thread nD τ).loc main_v7) ↦{fullShare} Vc main_v7) ∗
      (((c : Thread nD τ).loc main_v8) ↦{fullShare} Vc main_v8) ∗
      (((c : Thread nD τ).loc main_v9) ↦{fullShare} Vc main_v9) ∗
      (((c : Thread nD τ).loc main_v10) ↦{fullShare} Vc main_v10)) := by
  have s0 : dat.share 0 = fullShare := (share2 c dat hq 0).trans rfl
  have s1 : dat.share 1 = fullShare.left := (share2 c dat hq 1).trans rfl
  have s2 : dat.share 2 = fullShare.right := (share2 c dat hq 2).trans rfl
  have s3 : dat.share 3 = fullShare := (share2 c dat hq 3).trans rfl
  have s4 : dat.share 4 = fullShare := (share2 c dat hq 4).trans rfl
  have s5 : dat.share 5 = fullShare := (share2 c dat hq 5).trans rfl
  have s6 : dat.share 6 = fullShare := (share2 c dat hq 6).trans rfl
  have s7 : dat.share 7 = fullShare := (share2 c dat hq 7).trans rfl
  unfold Dat.arrays
  rewrite [Gen.bigSep_W2]
  rewrite [winPt c dat Vc Fw hF 0 _ s0, winPt c dat Vc Fw hF 1 _ s1, winPt c dat Vc Fw hF 2 _ s2, winPt c dat Vc Fw hF 3 _ s3,
    winPt c dat Vc Fw hF 4 _ s4, winPt c dat Vc Fw hF 5 _ s5, winPt c dat Vc Fw hF 6 _ s6, winPt c dat Vc Fw hF 7 _ s7]
  exact rfl

/-- The distinct buffers behind the windows' arrays, one by one. -/
private theorem arrBufs2_chain (c : Dev nD) (Vc : (b : Ref sig .tc) → Buf (Elt F) ((c : Thread nD τ).loc b)) :
    (Pipeline.arrBufs (Ix := Unit) (Name := ℕ) (U := UR sig nD τ) (Lvl := ℕ) spec2 c Vc : sProp 𝕄) = iprop(
      (((c : Thread nD τ).loc main_v5) ↦{fullShare} Vc main_v5) ∗
      (((c : Thread nD τ).loc main_v1) ↦{fullShare} Vc main_v1) ∗
      (((c : Thread nD τ).loc main_v6) ↦{fullShare} Vc main_v6) ∗
      (((c : Thread nD τ).loc main_v7) ↦{fullShare} Vc main_v7) ∗
      (((c : Thread nD τ).loc main_v8) ↦{fullShare} Vc main_v8) ∗
      (((c : Thread nD τ).loc main_v9) ↦{fullShare} Vc main_v9) ∗
      (((c : Thread nD τ).loc main_v10) ↦{fullShare} Vc main_v10)) := by
  unfold Pipeline.arrBufs
  rewrite [bigSep_eq_bigSepL_of_eq _ img2 nodup2]
  exact rfl

/-- Entry: the distinct buffers behind the windows' arrays, whole at contents Vc, are the windows' arrays at
    contents Fw that read Vc at each window's array. -/
theorem arrays2_of_arrBufs (c : Dev nD) (dat : Dat τ (Elt F) Unit ℕ (UR sig nD τ) ℕ cfg2 c) (hq : dat.q = q2)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    (Pipeline.arrBufs (Ix := Unit) (Name := ℕ) (U := UR sig nD τ) (Lvl := ℕ) spec2 c Vc : sProp 𝕄) ⊢ dat.arrays Fw := by
  rw [arrBufs2_chain c Vc, arrays2_chain c dat hq Vc Fw hF]
  iintro ⟨H5, H1, H6, H7, H8, H9, H10⟩
  -- the hidden row's buffer splits into its two halves at the same contents
  ihave H1 := (pointsTo_share (PosShare.mem_left_op_right fullShare)).1 $$ H1
  icases H1 with ⟨H1l, H1r⟩
  isplitl [H5]; · iexact H5
  isplitl [H1l]; · iexact H1l
  isplitl [H1r]; · iexact H1r
  isplitl [H6]; · iexact H6
  isplitl [H7]; · iexact H7
  isplitl [H8]; · iexact H8
  isplitl [H9]; · iexact H9
  iexact H10

/-- Exit: the windows' arrays at contents Fw that read Vc at each window's array are the distinct buffers
    behind them, whole at Vc. -/
theorem arrBufs_of_arrays2 (c : Dev nD) (dat : Dat τ (Elt F) Unit ℕ (UR sig nD τ) ℕ cfg2 c) (hq : dat.q = q2)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    dat.arrays Fw ⊢ (Pipeline.arrBufs (Ix := Unit) (Name := ℕ) (U := UR sig nD τ) (Lvl := ℕ) spec2 c Vc : sProp 𝕄) := by
  rw [arrBufs2_chain c Vc, arrays2_chain c dat hq Vc Fw hF]
  iintro ⟨H5, H1l, H1r, H6, H7, H8, H9, H10⟩
  -- the two halves of the hidden row's buffer, at the same contents, join to the full share
  ihave H1 := (pointsTo_share (PosShare.mem_left_op_right fullShare)).2 $$ [H1l H1r]
  · isplitl [H1l]; · iexact H1l
    iexact H1r
  isplitl [H5]; · iexact H5
  isplitl [H1]; · iexact H1
  isplitl [H6]; · iexact H6
  isplitl [H7]; · iexact H7
  isplitl [H8]; · iexact H8
  isplitl [H9]; · iexact H9
  iexact H10

end Cert.KernelIdeal.Hand

end
-- ==== Proof.KI.Run.lean ====
/-
  The whole program's run at any float instance, from each region's body obligation and the dealing of the
  third region's shared array among its windows: one record per region over the thread state "every unscoped
  buffer at the boundary's contents", and the launch over the seven segments. Every weakly fair execution ends
  with every unscoped buffer at the last boundary's contents.
-/
import proofs.«123148_j15350213116625_1_alg».proof.Proof.KI.Fold
import proofs.«123148_j15350213116625_1_alg».proof.Proof.KI.Body0
import proofs.«123148_j15350213116625_1_alg».proof.Proof.KI.Body1
import proofs.«123148_j15350213116625_1_alg».proof.Proof.KI.Body2
import proofs.«123148_j15350213116625_1_alg».proof.Proof.KI.Shared2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg RegionSeg Seg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)
/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The regions as segments -/

section Regions

set_option backward.isDefEq.respectTransparency.types false in
/-- Region 0 over the thread state: entered from every unscoped buffer at the boundary before it, left at the one
    after it. Its arrays are split out of the unscoped buffers at entry and put back at the exit contents; the
    generator register goes into the region's invariant and comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers at entry and put back at the exit contents; the
    generator register goes into the region's invariant and comes back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- A core's unscoped buffers at contents V are the distinct buffers behind region 2's arrays and the buffers that
    bypass the region. -/
theorem ub_split2 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec2 c V
          ∗ Pipeline.unscopedRest (Ix := Unit) (Name := ℕ) (U := UR sig nD τ) (Lvl := ℕ) spec2 c V) := by
  classical
  have hA : Finset.univ.image (Pipeline.arrRef spec2) ⊆ Finset.univ.filter fun b : Ref sig .tc => ¬ b.isScoped := fun b hb => by
    obtain ⟨w, -, rfl⟩ := Finset.mem_image.mp hb
    exact Finset.mem_filter.mpr ⟨Finset.mem_univ _, by simp [winFacts₀2.arr_unscoped w]⟩
  unfold unscopedBufs Pipeline.unscopedRest Pipeline.arrBufs
  rw [bigSep_sdiff_split hA]
  rfl

theorem q_eq2 (V : (c : Dev nD) → (b : Ref sig .tc) → Buf (Elt F) ((c : Thread nD τ).loc b)) (c : Dev nD) : (dat2 V c).q = q2 := by
  dsimp only [dat2]

/-- Entry of region 2: the unscoped buffers at the boundary's contents are the region's arrays, dealt among its
    windows, and the buffers that bypass it. -/
theorem split2 (c : Dev nD) :
    (unscopedBufs (Ix := Unit) (Name := ℕ) (U := UR sig nD τ) (Lvl := ℕ) c (V5 m c) : sProp 𝕄)
      ⊢ iprop((dat2 (V5 m) c).arrays (dat2 (V5 m) c).A ∗ Pipeline.unscopedRest (Ix := Unit) (Name := ℕ) (U := UR sig nD τ) (Lvl := ℕ) spec2 c (V5 m c)) := by
  have h1 := arrays2_of_arrBufs c (dat2 (V5 m) c) (q_eq2 (V5 m) c) (V5 m c) (dat2 (V5 m) c).A (A_eq2 (V5 m) c)
  rw [ub_split2 c (V5 m c)]
  exact sep_mono h1 .rfl

/-- Exit of region 2: its arrays as the write-backs leave them and the bypassing buffers are the unscoped buffers
    at the next boundary's contents. -/
theorem join2 (c : Dev nD) :
    iprop((dat2 (V5 m) c).arrays ((dat2 (V5 m) c).arrAt · cfg2.N) ∗ Pipeline.unscopedRest (Ix := Unit) (Name := ℕ) (U := UR sig nD τ) (Lvl := ℕ) spec2 c (V5 m c))
      ⊢ (unscopedBufs (Ix := Unit) (Name := ℕ) (U := UR sig nD τ) (Lvl := ℕ) c (V6 m c) : sProp 𝕄) := by
  have h1 := arrBufs_of_arrays2 c (dat2 (V5 m) c) (q_eq2 (V5 m) c) (V6 m c) ((dat2 (V5 m) c).arrAt · cfg2.N) (hF2 m c)
  have e2 : (Pipeline.unscopedRest (Ix := Unit) (Name := ℕ) (U := UR sig nD τ) (Lvl := ℕ) spec2 c (V5 m c) : sProp 𝕄)
      = Pipeline.unscopedRest (Ix := Unit) (Name := ℕ) (U := UR sig nD τ) (Lvl := ℕ) spec2 c (V6 m c) := by
    unfold Pipeline.unscopedRest
    exact bigSep_congr fun b hb => by rw [hrest2 m c b (Finset.mem_sdiff.mp hb).2]
  rw [ub_split2 c (V6 m c), e2]
  exact sep_mono h1 .rfl

set_option backward.isDefEq.respectTransparency.types false in
/-- Region 2 over the thread state. Two of its windows read one array: the distinct buffers behind the arrays are
    split out of the unscoped buffers and dealt among the windows at entry, and gathered back at the exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := split2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := join2 m c
    rw [Pipeline.unscopedBufs_held] at hjoin
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

/-- The program's seven segments in order: a host segment per stretch from its boundary's contents, a region per
    kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Regions

end Cert.KernelIdeal.Hand

end
-- ==== Proof.KI.Readback.lean ====
/-
  What the boundaries' contents are at the buffers the regions and the results read: a reshaped argument is the
  argument reshaped, whatever regions ran in between; a region's output array reaches the later boundaries as the
  region left it; an argument reaches the end as launched.
-/
import proofs.«123148_j15350213116625_1_alg».proof.Proof.KI.Fold
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The attention region's entry -/
theorem V1_v0 (c : Dev nD) : V1 m c main_v0 = shapeCast _ (m ((c : Thread nD τ).loc main_arg0)) shapeCasts_S1x1x2048_S1x2048 := by
  show StableHlo.after hostOps0 _ (Proc.devRef .tc main_v0) = _
  after_results
  rfl
theorem V1_v1 (c : Dev nD) : V1 m c main_v1 = shapeCast _ (m ((c : Thread nD τ).loc main_arg1)) shapeCasts_S1x1x2048_S1x2048 := by
  show StableHlo.after hostOps0 _ (Proc.devRef .tc main_v1) = _
  after_results
  rfl
theorem V1_v2 (c : Dev nD) : V1 m c main_v2 = shapeCast _ (m ((c : Thread nD τ).loc main_arg4)) shapeCasts_S350_S1x350 := by
  show StableHlo.after hostOps0 _ (Proc.devRef .tc main_v2) = _
  after_results
  rfl
theorem V1_arg3 (c : Dev nD) : V1 m c main_arg3 = m ((c : Thread nD τ).loc main_arg3) :=
  (W1_of m c main_arg3 (by decide)).trans rfl
theorem V1_arg2 (c : Dev nD) : V1 m c main_arg2 = m ((c : Thread nD τ).loc main_arg2) :=
  (W1_of m c main_arg2 (by decide)).trans rfl

/-! ## The combine region's entry -/
theorem V3_v0 (c : Dev nD) : V3 m c main_v0 = shapeCast _ (m ((c : Thread nD τ).loc main_arg0)) shapeCasts_S1x1x2048_S1x2048 :=
  (W3_of m c main_v0 (by decide)).trans <| (W2_of_ne m c main_v0 (by decide) (by decide)).trans <| V1_v0 m c
theorem V3_v3_1 (c : Dev nD) : V3 m c main_v3_1 = (dat0 (V1 m) c).arrAt 6 cfg0.N :=
  (W3_of m c main_v3_1 (by decide)).trans (W2_v3_1 m c)
theorem V3_arg5 (c : Dev nD) : V3 m c main_arg5 = m ((c : Thread nD τ).loc main_arg5) :=
  (W3_of m c main_arg5 (by decide)).trans <| (W2_of_ne m c main_arg5 (by decide) (by decide)).trans <| (W1_of m c main_arg5 (by decide)).trans rfl
theorem V3_v4 (c : Dev nD) : V3 m c main_v4 = shapeCast _ (m ((c : Thread nD τ).loc main_arg6)) shapeCasts_S2048_S1x2048 := by
  show StableHlo.after hostOps1 _ (Proc.devRef .tc main_v4) = _
  after_results
  rw [W2_of_ne m c main_arg6 (by decide) (by decide), W1_of m c main_arg6 (by decide)]
  rfl

/-! ## The recurrent-unit region's entry -/
theorem V5_v5 (c : Dev nD) : V5 m c main_v5 = (dat1 (V3 m) c).arrAt 4 cfg1.N :=
  (W5_of m c main_v5 (by decide)).trans (W4_v5 m c)
theorem V5_v1 (c : Dev nD) : V5 m c main_v1 = shapeCast _ (m ((c : Thread nD τ).loc main_arg1)) shapeCasts_S1x1x2048_S1x2048 :=
  (W5_of m c main_v1 (by decide)).trans <| (W4_of_ne m c main_v1 (by decide)).trans <| (W3_of m c main_v1 (by decide)).trans <| (W2_of_ne m c main_v1 (by decide) (by decide)).trans <| V1_v1 m c
theorem V5_v6 (c : Dev nD) : V5 m c main_v6 = shapeCast _ (m ((c : Thread nD τ).loc main_arg7)) shapeCasts_S6144x2048_S3x2048x2048 := by
  show StableHlo.after hostOps2 _ (Proc.devRef .tc main_v6) = _
  after_results
  rw [W4_of_ne m c main_arg7 (by decide), W3_of m c main_arg7 (by decide), W2_of_ne m c main_arg7 (by decide) (by decide), W1_of m c main_arg7 (by decide)]
  rfl
theorem V5_v7 (c : Dev nD) : V5 m c main_v7 = shapeCast _ (m ((c : Thread nD τ).loc main_arg8)) shapeCasts_S6144x2048_S3x2048x2048 := by
  show StableHlo.after hostOps2 _ (Proc.devRef .tc main_v7) = _
  after_results
  rw [W4_of_ne m c main_arg8 (by decide), W3_of m c main_arg8 (by decide), W2_of_ne m c main_arg8 (by decide) (by decide), W1_of m c main_arg8 (by decide)]
  rfl
theorem V5_v8 (c : Dev nD) : V5 m c main_v8 = shapeCast _ (m ((c : Thread nD τ).loc main_arg9)) shapeCasts_S6144_S3x1x2048 := by
  show StableHlo.after hostOps2 _ (Proc.devRef .tc main_v8) = _
  after_results
  rw [W4_of_ne m c main_arg9 (by decide), W3_of m c main_arg9 (by decide), W2_of_ne m c main_arg9 (by decide) (by decide), W1_of m c main_arg9 (by decide)]
  rfl
theorem V5_v9 (c : Dev nD) : V5 m c main_v9 = shapeCast _ (m ((c : Thread nD τ).loc main_arg10)) shapeCasts_S6144_S3x1x2048 := by
  show StableHlo.after hostOps2 _ (Proc.devRef .tc main_v9) = _
  after_results
  rw [W4_of_ne m c main_arg10 (by decide), W3_of m c main_arg10 (by decide), W2_of_ne m c main_arg10 (by decide) (by decide), W1_of m c main_arg10 (by decide)]
  rfl

/-! ## The end -/
theorem W7_v11 (c : Dev nD) : W7 m c (Proc.devRef .tc main_v11) = shapeCast _ ((dat2 (V5 m) c).arrAt 7 cfg2.N) shapeCasts_S1x2048_S1x1x2048 := by
  show StableHlo.after hostOps3 _ (Proc.devRef .tc main_v11) = _
  after_results
  rw [W6_v10 m c]
  rfl
theorem W7_v12 (c : Dev nD) : W7 m c (Proc.devRef .tc main_v12) = shapeCast _ ((dat2 (V5 m) c).arrAt 7 cfg2.N) shapeCasts_S1x2048_S1x1x2048 := by
  show StableHlo.after hostOps3 _ (Proc.devRef .tc main_v12) = _
  after_results
  rw [W6_v10 m c]
  rfl
theorem W7_v3_0 (c : Dev nD) : W7 m c (Proc.devRef .tc main_v3_0) = (dat0 (V1 m) c).arrAt 5 cfg0.N :=
  (W7_of m c main_v3_0 (by decide)).trans <| (W6_of_ne m c main_v3_0 (by decide)).trans <| (W5_of m c main_v3_0 (by decide)).trans <| (W4_of_ne m c main_v3_0 (by decide)).trans <| (W3_of m c main_v3_0 (by decide)).trans <| W2_v3_0 m c
theorem W7_arg0 (c : Dev nD) : W7 m c (Proc.devRef .tc main_arg0) = m ((c : Thread nD τ).loc main_arg0) :=
  (W7_of m c main_arg0 (by decide)).trans <| (W6_of_ne m c main_arg0 (by decide)).trans <| (W5_of m c main_arg0 (by decide)).trans <| (W4_of_ne m c main_arg0 (by decide)).trans <| (W3_of m c main_arg0 (by decide)).trans <| (W2_of_ne m c main_arg0 (by decide) (by decide)).trans <| (W1_of m c main_arg0 (by decide)).trans rfl
theorem W7_arg1 (c : Dev nD) : W7 m c (Proc.devRef .tc main_arg1) = m ((c : Thread nD τ).loc main_arg1) :=
  (W7_of m c main_arg1 (by decide)).trans <| (W6_of_ne m c main_arg1 (by decide)).trans <| (W5_of m c main_arg1 (by decide)).trans <| (W4_of_ne m c main_arg1 (by decide)).trans <| (W3_of m c main_arg1 (by decide)).trans <| (W2_of_ne m c main_arg1 (by decide) (by decide)).trans <| (W1_of m c main_arg1 (by decide)).trans rfl
theorem W7_arg2 (c : Dev nD) : W7 m c (Proc.devRef .tc main_arg2) = m ((c : Thread nD τ).loc main_arg2) :=
  (W7_of m c main_arg2 (by decide)).trans <| (W6_of_ne m c main_arg2 (by decide)).trans <| (W5_of m c main_arg2 (by decide)).trans <| (W4_of_ne m c main_arg2 (by decide)).trans <| (W3_of m c main_arg2 (by decide)).trans <| (W2_of_ne m c main_arg2 (by decide) (by decide)).trans <| (W1_of m c main_arg2 (by decide)).trans rfl
theorem W7_arg3 (c : Dev nD) : W7 m c (Proc.devRef .tc main_arg3) = m ((c : Thread nD τ).loc main_arg3) :=
  (W7_of m c main_arg3 (by decide)).trans <| (W6_of_ne m c main_arg3 (by decide)).trans <| (W5_of m c main_arg3 (by decide)).trans <| (W4_of_ne m c main_arg3 (by decide)).trans <| (W3_of m c main_arg3 (by decide)).trans <| (W2_of_ne m c main_arg3 (by decide) (by decide)).trans <| (W1_of m c main_arg3 (by decide)).trans rfl
theorem W7_arg4 (c : Dev nD) : W7 m c (Proc.devRef .tc main_arg4) = m ((c : Thread nD τ).loc main_arg4) :=
  (W7_of m c main_arg4 (by decide)).trans <| (W6_of_ne m c main_arg4 (by decide)).trans <| (W5_of m c main_arg4 (by decide)).trans <| (W4_of_ne m c main_arg4 (by decide)).trans <| (W3_of m c main_arg4 (by decide)).trans <| (W2_of_ne m c main_arg4 (by decide) (by decide)).trans <| (W1_of m c main_arg4 (by decide)).trans rfl
theorem W7_arg5 (c : Dev nD) : W7 m c (Proc.devRef .tc main_arg5) = m ((c : Thread nD τ).loc main_arg5) :=
  (W7_of m c main_arg5 (by decide)).trans <| (W6_of_ne m c main_arg5 (by decide)).trans <| (W5_of m c main_arg5 (by decide)).trans <| (W4_of_ne m c main_arg5 (by decide)).trans <| (W3_of m c main_arg5 (by decide)).trans <| (W2_of_ne m c main_arg5 (by decide) (by decide)).trans <| (W1_of m c main_arg5 (by decide)).trans rfl
theorem W7_arg6 (c : Dev nD) : W7 m c (Proc.devRef .tc main_arg6) = m ((c : Thread nD τ).loc main_arg6) :=
  (W7_of m c main_arg6 (by decide)).trans <| (W6_of_ne m c main_arg6 (by decide)).trans <| (W5_of m c main_arg6 (by decide)).trans <| (W4_of_ne m c main_arg6 (by decide)).trans <| (W3_of m c main_arg6 (by decide)).trans <| (W2_of_ne m c main_arg6 (by decide) (by decide)).trans <| (W1_of m c main_arg6 (by decide)).trans rfl
theorem W7_arg7 (c : Dev nD) : W7 m c (Proc.devRef .tc main_arg7) = m ((c : Thread nD τ).loc main_arg7) :=
  (W7_of m c main_arg7 (by decide)).trans <| (W6_of_ne m c main_arg7 (by decide)).trans <| (W5_of m c main_arg7 (by decide)).trans <| (W4_of_ne m c main_arg7 (by decide)).trans <| (W3_of m c main_arg7 (by decide)).trans <| (W2_of_ne m c main_arg7 (by decide) (by decide)).trans <| (W1_of m c main_arg7 (by decide)).trans rfl
theorem W7_arg8 (c : Dev nD) : W7 m c (Proc.devRef .tc main_arg8) = m ((c : Thread nD τ).loc main_arg8) :=
  (W7_of m c main_arg8 (by decide)).trans <| (W6_of_ne m c main_arg8 (by decide)).trans <| (W5_of m c main_arg8 (by decide)).trans <| (W4_of_ne m c main_arg8 (by decide)).trans <| (W3_of m c main_arg8 (by decide)).trans <| (W2_of_ne m c main_arg8 (by decide) (by decide)).trans <| (W1_of m c main_arg8 (by decide)).trans rfl
theorem W7_arg9 (c : Dev nD) : W7 m c (Proc.devRef .tc main_arg9) = m ((c : Thread nD τ).loc main_arg9) :=
  (W7_of m c main_arg9 (by decide)).trans <| (W6_of_ne m c main_arg9 (by decide)).trans <| (W5_of m c main_arg9 (by decide)).trans <| (W4_of_ne m c main_arg9 (by decide)).trans <| (W3_of m c main_arg9 (by decide)).trans <| (W2_of_ne m c main_arg9 (by decide) (by decide)).trans <| (W1_of m c main_arg9 (by decide)).trans rfl
theorem W7_arg10 (c : Dev nD) : W7 m c (Proc.devRef .tc main_arg10) = m ((c : Thread nD τ).loc main_arg10) :=
  (W7_of m c main_arg10 (by decide)).trans <| (W6_of_ne m c main_arg10 (by decide)).trans <| (W5_of m c main_arg10 (by decide)).trans <| (W4_of_ne m c main_arg10 (by decide)).trans <| (W3_of m c main_arg10 (by decide)).trans <| (W2_of_ne m c main_arg10 (by decide) (by decide)).trans <| (W1_of m c main_arg10 (by decide)).trans rfl

end Cert.KernelIdeal.Hand

end
-- ==== Proof.Ref.Fns.lean ====
/-
  The reference's stages as functions of the intermediate values they consume: the attention logits and
  their softmax, the context row, the rectified combination, the two gate pre-activations and the new hidden
  state.
-/
import proofs.«123148_j15350213116625_1_alg».proof.Proof.Gen.ReferenceIdeal

noncomputable section

namespace Cert.ReferenceIdeal.Fns

open Cert.ReferenceIdeal Cert.ReferenceIdeal.Gen Idealize.ShloMosaic Idealize.ShloMosaic.TcCoe Idealize.SL.Sem Idealize.ShloMosaic.StableHlo

variable {F : FTy → Type} [FloatOps F]

/-- The attention logits: [x, h] against the rows of W, plus the bias. -/
def logitsRef (x h : FVec F S1x2048 .f32) (W : FVec F S350x4096 .f32) (b : FVec F S350 .f32) : FVec F S1x350 .f32 :=
  addf (Host.dotGeneral dot_S1x4096_S4096x350_S1x350_1_0_0_1_n_n none
      (concatenate S1x4096 1 [⟨S1x2048, x⟩, ⟨S1x2048, h⟩] concatenates_S1x2048_S1x2048_S1x4096_d1)
      (transpose S4096x350 [1, 0] W transposes_S350x4096_S4096x350_1_0))
    (broadcastInDim S1x350 ![1] bcast_S350_S1x350_1 b)

/-- The row's maximum, spread back along the row. -/
def rowMaxRef (L : FVec F S1x350 .f32) : FVec F S1x350 .f32 :=
  broadcastInDim S1x350 ![0, 1] bcast_S1x1_S1x350_0_1 (broadcastInDim S1x1 ![0] bcast_S1_S1x1_0
    (maximumf (broadcastInDim S1 ![] bcast_S_S1 (constant S_ .f32 0xFF800000#32))
      (Host.reduce FloatOps.maximumf L (constant S_ .f32 0xFF800000#32) reducesTo_S1x350_S1_d1 h_S_)))

/-- The shifted exponentials. -/
def expRef (L : FVec F S1x350 .f32) : FVec F S1x350 .f32 := Host.exp (subf L (rowMaxRef L))

/-- The row's sum, spread back along the row. -/
def rowSumRef (E : FVec F S1x350 .f32) : FVec F S1x350 .f32 :=
  broadcastInDim S1x350 ![0, 1] bcast_S1x1_S1x350_0_1 (broadcastInDim S1x1 ![0] bcast_S1_S1x1_0
    (Host.reduceAdd E (constant S_ .f32 0x00000000#32) reducesTo_S1x350_S1_d1 h_S_))

/-- The softmax of a row of logits. -/
def softmaxRef (L : FVec F S1x350 .f32) : FVec F S1x350 .f32 := Host.divf (expRef L) (rowSumRef (expRef L))

/-- The attention weights. -/
def awRef (x h : FVec F S1x2048 .f32) (W : FVec F S350x4096 .f32) (b : FVec F S350 .f32) : FVec F S1x350 .f32 :=
  softmaxRef (logitsRef x h W b)

/-- The context row: the weights against the encoder outputs. -/
def ctxRef (aw : FVec F S1x350 .f32) (enc : FVec F S350x2048 .f32) : FVec F S1x2048 .f32 :=
  Host.dotGeneral dot_S1x350_S350x2048_S1x2048_1_0_0_1_n_n none aw enc

/-- The rectified combination of [x, ctx]. -/
def gRef (x ctx : FVec F S1x2048 .f32) (W : FVec F S2048x4096 .f32) (b : FVec F S2048 .f32) : FVec F S1x2048 .f32 :=
  maximumf (addf (Host.dotGeneral dot_S1x4096_S4096x2048_S1x2048_1_0_0_1_n_n none
        (concatenate S1x4096 1 [⟨S1x2048, x⟩, ⟨S1x2048, ctx⟩] concatenates_S1x2048_S1x2048_S1x4096_d1)
        (transpose S4096x2048 [1, 0] W transposes_S2048x4096_S4096x2048_1_0))
      (broadcastInDim S1x2048 ![1] bcast_S2048_S1x2048_1 b))
    (broadcastInDim S1x2048 ![] bcast_S_S1x2048 (constant S_ .f32 0x00000000#32))

/-- The three gates' pre-activations side by side: a row against the 6144 rows of w, plus the bias. -/
def gatesRef (v : FVec F S1x2048 .f32) (w : FVec F S6144x2048 .f32) (b : FVec F S6144 .f32) : FVec F S1x6144 .f32 :=
  addf (Host.dotGeneral dot_S1x2048_S2048x6144_S1x6144_1_0_0_1_n_n none v
      (transpose S2048x6144 [1, 0] w transposes_S6144x2048_S2048x6144_1_0))
    (broadcastInDim S1x6144 ![1] bcast_S6144_S1x6144_1 b)

/-- The row of ones. -/
def onesRef : FVec F S1x2048 .f32 := broadcastInDim S1x2048 ![] bcast_S_S1x2048 (constant S_ .f32 0x3F800000#32)

/-- The logistic function as the reference spells it: 1 / (1 + exp (-v)). -/
def sigRef (v : FVec F S1x2048 .f32) : FVec F S1x2048 .f32 :=
  Host.divf onesRef (addf onesRef (Host.exp (Host.negf v)))

/-- The new hidden state from the combined row g, the hidden row h, the two weight matrices and biases. -/
def hnewRef (g h : FVec F S1x2048 .f32) (wih whh : FVec F S6144x2048 .f32) (bih bhh : FVec F S6144 .f32) : FVec F S1x2048 .f32 :=
  addf
    (mulf (subf onesRef (sigRef (addf (extractStridedSlice S1x2048 ![0, 2048] (gatesRef g wih bih) slices_S1x6144_S1x2048_0_2048)
                                       (extractStridedSlice S1x2048 ![0, 2048] (gatesRef h whh bhh) slices_S1x6144_S1x2048_0_2048))))
      (Host.tanh (addf (extractStridedSlice S1x2048 ![0, 4096] (gatesRef g wih bih) slices_S1x6144_S1x2048_0_4096)
        (mulf (sigRef (addf (extractStridedSlice S1x2048 ![0, 0] (gatesRef g wih bih) slices_S1x6144_S1x2048_0_0)
                             (extractStridedSlice S1x2048 ![0, 0] (gatesRef h whh bhh) slices_S1x6144_S1x2048_0_0)))
          (extractStridedSlice S1x2048 ![0, 4096] (gatesRef h whh bhh) slices_S1x6144_S1x2048_0_4096)))))
    (mulf (sigRef (addf (extractStridedSlice S1x2048 ![0, 2048] (gatesRef g wih bih) slices_S1x6144_S1x2048_0_2048)
                         (extractStridedSlice S1x2048 ![0, 2048] (gatesRef h whh bhh) slices_S1x6144_S1x2048_0_2048)))
      h)

/-- The returned [1,1,2048] arrays: the hidden row with a unit axis in front. -/
def outRef (v : FVec F S1x2048 .f32) : FVec F S1x1x2048 .f32 :=
  broadcastInDim S1x1x2048 ![1, 2] bcast_S1x2048_S1x1x2048_1_2 v

end Cert.ReferenceIdeal.Fns

end
-- ==== Proof.LibDotForms.lean ====
/-
  Two transposed matrix products read at an entry.

  `A · Bᵀ` — an M×K array times the transpose of an N×K array: both operands are contracted along their second axis,
  and the result entry (p, q) is `∑ i : Fin K, lhs (p, i) * rhs (q, i)`.
  `Aᵀ · B` — the transpose of a K×M array times a K×N array: both operands are contracted along their first axis,
  and the result entry (p, q) is `∑ i : Fin K, lhs (i, p) * rhs (i, q)`.
  Each statement is for ANY record with those dimension numbers and no batch axes, at every size, for a kernel's
  product into a zero accumulator and for a host `dot_general` alike.
-/
import Idealize.ShloMosaic.Lib.ValueIdx
import Idealize.ShloMosaic.PureOps.Ideal.Laws

noncomputable section

open scoped BigOperators

namespace DotForms

open Idealize.ShloMosaic Idealize.ShloMosaic.ValueIdx

variable {M K N : Nat}

/-- `A · Bᵀ`: contract axis 1 of the left operand with axis 1 of the right one; the operands' axes 0 are the result's. -/
structure IsABt (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

/-- `Aᵀ · B`: contract axis 0 of the left operand with axis 0 of the right one; the operands' axes 1 are the result's. -/
structure IsAtB (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section ABt

variable {d : DotDims ⟨2, ![M, K]⟩ ⟨2, ![N, K]⟩ ⟨2, ![M, N]⟩}

/-- `A · Bᵀ`: the left operand's row coordinate is the result's row. -/
theorem abt_lhs_row (h : IsABt d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `A · Bᵀ`: the right operand's row coordinate is the result's column. -/
theorem abt_rhs_row (h : IsABt d) (j : (⟨2, ![M, N]⟩ : Shape).Idx) (k : d.contr.Idx) :
    (d.rhsIdx j k 0 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem abt_contr_rank (h : IsABt d) : d.contr.rank = 1 := by
  rw [d.rank_contr, h.lc]; rfl

theorem abt_contr_size (h : IsABt d) : d.contr.size ⟨0, by rw [abt_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `A · Bᵀ`, the sum: over the one contracted axis (each operand's second), entry by entry. -/
theorem abt_sum_eq (h : IsABt d) (lhs : (⟨2, ![M, K]⟩ : Shape).Idx → EReal) (rhs : (⟨2, ![N, K]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 q i) := by
  rw [← Equiv.sum_comp (contrEquiv1 d K (abt_contr_rank h) (abt_contr_size h)).symm]
  refine Finset.sum_congr rfl fun i _ => ?_
  have hk := contrEquiv1_symm_val d K (abt_contr_rank h) (abt_contr_size h) i
  have el : d.lhsIdx (ix2 p q) ((contrEquiv1 d K (abt_contr_rank h) (abt_contr_size h)).symm i) = ix2 p i := by
    funext a; refine Fin.ext ?_
    match a with
    | ⟨0, _⟩ => exact abt_lhs_row h _ _
    | ⟨1, _⟩ => exact (d.lhsIdx_val_of_single h.lc _ _).trans hk
  have er : d.rhsIdx (ix2 p q) ((contrEquiv1 d K (abt_contr_rank h) (abt_contr_size h)).symm i) = ix2 q i := by
    funext a; refine Fin.ext ?_
    match a with
    | ⟨0, _⟩ => exact abt_rhs_row h _ _
    | ⟨1, _⟩ => exact (d.rhsIdx_val_of_single h.rc _ _).trans hk
  rw [el, er]

end ABt

section AtB

variable {d : DotDims ⟨2, ![K, M]⟩ ⟨2, ![K, N]⟩ ⟨2, ![M, N]⟩}

/-- `Aᵀ · B`: the left operand's column coordinate is the result's row. -/
theorem atb_lhs_col (h : IsAtB d) (j : (⟨2, ![M, N]⟩ : Shape).Idx) (k : d.contr.Idx) :
    (d.lhsIdx j k 1 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- `Aᵀ · B`: the right operand's column coordinate is the result's column. -/
theorem atb_rhs_col (h : IsAtB d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem atb_contr_rank (h : IsAtB d) : d.contr.rank = 1 := by
  rw [d.rank_contr, h.lc]; rfl

theorem atb_contr_size (h : IsAtB d) : d.contr.size ⟨0, by rw [atb_contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- `Aᵀ · B`, the sum: over the one contracted axis (each operand's first), entry by entry. -/
theorem atb_sum_eq (h : IsAtB d) (lhs : (⟨2, ![K, M]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 i p) * rhs (ix2 i q) := by
  rw [← Equiv.sum_comp (contrEquiv1 d K (atb_contr_rank h) (atb_contr_size h)).symm]
  refine Finset.sum_congr rfl fun i _ => ?_
  have hk := contrEquiv1_symm_val d K (atb_contr_rank h) (atb_contr_size h) i
  have el : d.lhsIdx (ix2 p q) ((contrEquiv1 d K (atb_contr_rank h) (atb_contr_size h)).symm i) = ix2 i p := by
    funext a; refine Fin.ext ?_
    match a with
    | ⟨0, _⟩ => exact (d.lhsIdx_val_of_single h.lc _ _).trans hk
    | ⟨1, _⟩ => exact atb_lhs_col h _ _
  have er : d.rhsIdx (ix2 p q) ((contrEquiv1 d K (atb_contr_rank h) (atb_contr_size h)).symm i) = ix2 i q := by
    funext a; refine Fin.ext ?_
    match a with
    | ⟨0, _⟩ => exact (d.rhsIdx_val_of_single h.rc _ _).trans hk
    | ⟨1, _⟩ => exact atb_rhs_col h _ _
  rw [el, er]

end AtB

/-- A kernel's `A · Bᵀ` into a zero accumulator, at the exact instance, read at an entry. -/
theorem abt_matmul_zero_apply {d : DotDims ⟨2, ![M, K]⟩ ⟨2, ![N, K]⟩ ⟨2, ![M, N]⟩} (h : IsABt d) {φ₁ φ₂ : FTy}
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ i : Fin K, lhs (ix2 p i) * rhs (ix2 q i) := by
  exact (Ideal.matmul_constant_zero_apply d prec lhs rhs (ix2 p q)).trans (abt_sum_eq h lhs rhs p q)

/-- A kernel's `Aᵀ · B` into a zero accumulator, at the exact instance, read at an entry. -/
theorem atb_matmul_zero_apply {d : DotDims ⟨2, ![K, M]⟩ ⟨2, ![K, N]⟩ ⟨2, ![M, N]⟩} (h : IsAtB d) {φ₁ φ₂ : FTy}
    (prec : Option ContractPrecision) (lhs : FVec Ideal ⟨2, ![K, M]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 i p) * rhs (ix2 i q) := by
  exact (Ideal.matmul_constant_zero_apply d prec lhs rhs (ix2 p q)).trans (atb_sum_eq h lhs rhs p q)

/-- The host's `A · Bᵀ` as a `dot_general`, at the exact instance, read at an entry: the same sum. -/
theorem abt_dotGeneral_apply {d : DotDims ⟨2, ![M, K]⟩ ⟨2, ![N, K]⟩ ⟨2, ![M, N]⟩} (h : IsABt d) {φ₁ φ₂ : FTy}
    (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ i : Fin K, lhs (ix2 p i) * rhs (ix2 q i) :=
  (Ideal.dotGeneral_apply d prec sched lhs rhs (ix2 p q)).trans (abt_sum_eq h lhs rhs p q)

/-- The host's `Aᵀ · B` as a `dot_general`, at the exact instance, read at an entry: the same sum. -/
theorem atb_dotGeneral_apply {d : DotDims ⟨2, ![K, M]⟩ ⟨2, ![K, N]⟩ ⟨2, ![M, N]⟩} (h : IsAtB d) {φ₁ φ₂ : FTy}
    (prec : Option ContractPrecision) (sched : HostSchedule)
    (lhs : FVec Ideal ⟨2, ![K, M]⟩ φ₁) (rhs : FVec Ideal ⟨2, ![K, N]⟩ φ₂) (p : Fin M) (q : Fin N) :
    FloatOps.dotGeneral d prec sched lhs rhs (ix2 p q) = ∑ i : Fin K, lhs (ix2 i p) * rhs (ix2 i q) :=
  (Ideal.dotGeneral_apply d prec sched lhs rhs (ix2 p q)).trans (atb_sum_eq h lhs rhs p q)

end DotForms

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibRowMin.lean ====
/-
  A minimum along the rows of a two-dimensional array, read at a row.

  Reducing an [m, n] array over its second axis with the minimum leaves an [m] array; at row p it is the minimum
  of the starting value and of the row's n entries, in whatever order they are combined.  The same reading holds
  for a kernel's vector reduction and for a host reduction with a minimum body.  Stated for any extents.
-/
import Idealize.ShloMosaic.Lib.ValueIdx
import Idealize.ShloMosaic.PureOps.Ideal.Laws

noncomputable section

namespace RowMin

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A kernel's minimum over the second axis, at row p: the minimum of the starting word's value and the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.minimumf.neutral φ hφ) (p : Fin m) :
    multiReduction .minimumf [1] (⟨1, ![m]⟩ : Shape) src acc h hφ hacc (ix1 p)
      = (Finset.univ : Finset (Fin n)).fold min (Ideal.ofBits φ acc) (fun k => src (ix2 p k)) := by
  rw [multiReduction_minimumf_eq_fold]
  refine (h.fold_filter_drop_single _ _ src (ix1 p)).trans ?_
  show (Finset.univ : Finset (Fin n)).fold min (Ideal.ofBits φ acc) (src ∘ h.lift (ix1 p)) = _
  exact Finset.fold_congr fun k _ => congrArg src (lift_ix2 h p k)

/-- A host reduction with a minimum body over the second axis, at row p: the same minimum, from the initial value. -/
theorem hostReduce_apply {φ : FTy} {u : Shape} (x : (⟨2, ![m, n]⟩ : Shape).Idx → Ideal φ) (init : u.Idx → Ideal φ)
    (h' : (⟨2, ![m, n]⟩ : Shape).ReducesTo [1] (⟨1, ![m]⟩ : Shape))
    (h : (⟨2, ![m, n]⟩ : Shape).Reduces [1] (⟨1, ![m]⟩ : Shape)) (hu : 0 < u.numel) (p : Fin m) :
    Host.reduce (FloatOps.minimumf (F := Ideal) (φ := φ)) x init h' hu (ix1 p)
      = (Finset.univ : Finset (Fin n)).fold min (init (Shape.Idx.first hu)) (fun k => x (ix2 p k)) := by
  rw [Host.reduce_eq_fold_single (FloatOps.minimumf (F := Ideal) (φ := φ)) x init h' h hu (ix1 p)]
  show (Finset.univ : Finset (Fin n)).fold min (init (Shape.Idx.first hu)) (x ∘ h.lift (ix1 p)) = _
  exact Finset.fold_congr fun k _ => congrArg x (lift_ix2 h p k)

end RowMin

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.KI.Val0.lean ====
/-
  The attention region's two results at the exact instance: the weights' array after the region is the
  reference's softmax of the logits, and the context array is the reference's product of those weights with the
  encoder outputs, as functions of the arrays the region is entered from.

  The region has one grid point and every window's block is its whole array, so each output array after the
  region is what that point writes back: the body's payload of the whole input arrays.  The payloads are then
  compared with the reference stage by stage: the logits entry by entry (a row of [x, h] against a row of W is
  the same sum over 4096 columns as that row against a column of W transposed), the row maximum and the row sum
  as folds over the row's 350 entries, and the exponential and the quotient as the same functions on both sides.
-/
import proofs.«123148_j15350213116625_1_alg».proof.Proof.KI.Data0
import proofs.«123148_j15350213116625_1_alg».proof.Proof.Ref.Fns
import proofs.«123148_j15350213116625_1_alg».proof.Proof.LibDotForms
import proofs.«123148_j15350213116625_1_alg».proof.Proof.LibPlainDot
import proofs.«123148_j15350213116625_1_alg».proof.Proof.LibRowSum
import proofs.«123148_j15350213116625_1_alg».proof.Proof.LibRowMin
import proofs.«123148_j15350213116625_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

namespace AttnValue

section Blocks

variable {F : FTy → Type} [FloatOps F]
variable (V : (c : Dev nD) → (b : Ref sig .tc) → Buf (Elt F) ((c : Thread nD τ).loc b))

theorem off00 : (![0, 0] : Fin 2 → Nat) = fun _ => 0 := funext fun a => by fin_cases a <;> rfl

/-- Every window of the attention region sits at block index (0, 0) at every point: each block is its whole array. -/
theorem idx0_all : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The weights' buffer after the body is the softmax payload of the four loaded blocks. -/
theorem out0_5_eq (x0 x1 : Vec F S1x2048 .f32) (x2 : Vec F S350x4096 .f32) (x3 : Vec F S1x350 .f32) :
    out0_5 x0 x1 x2 x3 = k0_pay1 x0 x1 x2 x3 := by
  unfold out0_5
  rw [View.canon_unit_zero off00]
  simp only [View.ld_unit_zero (S := S1x2048) off00, View.ld_unit_zero (S := S350x4096) off00, View.ld_unit_zero (S := S1x350) off00]

/-- The context buffer after the body is the product payload of the five loaded blocks. -/
theorem out0_6_eq (x0 x1 : Vec F S1x2048 .f32) (x2 : Vec F S350x4096 .f32) (x3 : Vec F S1x350 .f32) (x4 : Vec F S350x2048 .f32) :
    out0_6 x0 x1 x2 x3 x4 = k0_pay2 x0 x1 x2 x3 x4 := by
  unfold out0_6
  rw [View.canon_unit_zero off00]
  simp only [View.ld_unit_zero (S := S1x2048) off00, View.ld_unit_zero (S := S350x4096) off00, View.ld_unit_zero (S := S1x350) off00,
    View.ld_unit_zero (S := S350x2048) off00]

/-! Each input block, read off its array at block index (0, 0) with the array's own extents, is the array. -/

theorem iblk0_0_eq (c : Dev nD) (t : Fin cfg0.N) : (iblk0 V c 0 t : Vec F S1x2048 .f32) = V c main_v0 := by
  funext j
  show V c main_v0 (((cfg0.win 0).blk t).view.emb j) = V c main_v0 j
  refine congrArg _ (funext fun a => Fin.ext ?_)
  obtain ⟨e0, e1, -⟩ := idx0_all t
  match a with
  | ⟨0, _⟩ => show win0_0.index t (0 : Fin 2) * 1 + 1 * (j 0).val = (j 0).val; omega
  | ⟨1, _⟩ => show win0_0.index t (1 : Fin 2) * 2048 + 1 * (j 1).val = (j 1).val; omega

theorem iblk0_1_eq (c : Dev nD) (t : Fin cfg0.N) : (iblk0 V c 1 t : Vec F S1x2048 .f32) = V c main_v1 := by
  funext j
  show V c main_v1 (((cfg0.win 1).blk t).view.emb j) = V c main_v1 j
  refine congrArg _ (funext fun a => Fin.ext ?_)
  obtain ⟨-, -, e0, e1, -⟩ := idx0_all t
  match a with
  | ⟨0, _⟩ => show win0_1.index t (0 : Fin 2) * 1 + 1 * (j 0).val = (j 0).val; omega
  | ⟨1, _⟩ => show win0_1.index t (1 : Fin 2) * 2048 + 1 * (j 1).val = (j 1).val; omega

theorem iblk0_2_eq (c : Dev nD) (t : Fin cfg0.N) : (iblk0 V c 2 t : Vec F S350x4096 .f32) = V c main_arg3 := by
  funext j
  show V c main_arg3 (((cfg0.win 2).blk t).view.emb j) = V c main_arg3 j
  refine congrArg _ (funext fun a => Fin.ext ?_)
  obtain ⟨-, -, -, -, e0, e1, -⟩ := idx0_all t
  match a with
  | ⟨0, _⟩ => show win0_2.index t (0 : Fin 2) * 350 + 1 * (j 0).val = (j 0).val; omega
  | ⟨1, _⟩ => show win0_2.index t (1 : Fin 2) * 4096 + 1 * (j 1).val = (j 1).val; omega

theorem iblk0_3_eq (c : Dev nD) (t : Fin cfg0.N) : (iblk0 V c 3 t : Vec F S1x350 .f32) = V c main_v2 := by
  funext j
  show V c main_v2 (((cfg0.win 3).blk t).view.emb j) = V c main_v2 j
  refine congrArg _ (funext fun a => Fin.ext ?_)
  obtain ⟨-, -, -, -, -, -, e0, e1, -⟩ := idx0_all t
  match a with
  | ⟨0, _⟩ => show win0_3.index t (0 : Fin 2) * 1 + 1 * (j 0).val = (j 0).val; omega
  | ⟨1, _⟩ => show win0_3.index t (1 : Fin 2) * 350 + 1 * (j 1).val = (j 1).val; omega

theorem iblk0_4_eq (c : Dev nD) (t : Fin cfg0.N) : (iblk0 V c 4 t : Vec F S350x2048 .f32) = V c main_arg2 := by
  funext j
  show V c main_arg2 (((cfg0.win 4).blk t).view.emb j) = V c main_arg2 j
  refine congrArg _ (funext fun a => Fin.ext ?_)
  obtain ⟨-, -, -, -, -, -, -, -, e0, e1, -⟩ := idx0_all t
  match a with
  | ⟨0, _⟩ => show win0_4.index t (0 : Fin 2) * 350 + 1 * (j 0).val = (j 0).val; omega
  | ⟨1, _⟩ => show win0_4.index t (1 : Fin 2) * 2048 + 1 * (j 1).val = (j 1).val; omega

/-- The payloads respect equality of their arguments. -/
theorem pay1_congr {x0 x0' x1 x1' : Vec F S1x2048 .f32} {x2 x2' : Vec F S350x4096 .f32} {x3 x3' : Vec F S1x350 .f32}
    (h0 : x0 = x0') (h1 : x1 = x1') (h2 : x2 = x2') (h3 : x3 = x3') :
    k0_pay1 x0 x1 x2 x3 = k0_pay1 x0' x1' x2' x3' := by subst h0 h1 h2 h3; rfl

theorem pay2_congr {x0 x0' x1 x1' : Vec F S1x2048 .f32} {x2 x2' : Vec F S350x4096 .f32} {x3 x3' : Vec F S1x350 .f32}
    {x4 x4' : Vec F S350x2048 .f32} (h0 : x0 = x0') (h1 : x1 = x1') (h2 : x2 = x2') (h3 : x3 = x3') (h4 : x4 = x4') :
    k0_pay2 x0 x1 x2 x3 x4 = k0_pay2 x0' x1' x2' x3' x4' := by subst h0 h1 h2 h3 h4; rfl

/-- The weights' array as a function of the arrays the region is entered from. -/
abbrev G5 (c : Dev nD) : Vec F S1x350 .f32 := k0_pay1 (V c main_v0) (V c main_v1) (V c main_arg3) (V c main_v2)
/-- The context array as a function of the arrays the region is entered from. -/
abbrev G6 (c : Dev nD) : Vec F S1x2048 .f32 := k0_pay2 (V c main_v0) (V c main_v1) (V c main_arg3) (V c main_v2) (V c main_arg2)

/-- What the one point writes back to the weights' array, read through its whole-array block. -/
theorem flushed0_5_eq (c : Dev nD) (t : Fin cfg0.N) :
    (dat0 V c).flushed 5 t = ((cfg0.win 5).blk t).view.read (Elt F) (G5 V c) := by
  show (cfg0.win 5).cut (grid0.coords t) ((dat0 V c).after 5 t) = _
  rw [after0_5, out0_5_eq]
  funext j
  show k0_pay1 (iblk0 V c 0 t) (iblk0 V c 1 t) (iblk0 V c 2 t) (iblk0 V c 3 t) j = G5 V c (((cfg0.win 5).blk t).view.emb j)
  have ej : ((cfg0.win 5).blk t).view.emb j = j := by
    funext a; apply Fin.ext
    obtain ⟨-, -, -, -, -, -, -, -, -, -, e0, e1, -⟩ := idx0_all t
    match a with
    | ⟨0, _⟩ => show win0_5.index t (0 : Fin 2) * 1 + 1 * (j 0).val = (j 0).val; omega
    | ⟨1, _⟩ => show win0_5.index t (1 : Fin 2) * 350 + 1 * (j 1).val = (j 1).val; omega
  rw [ej]
  exact congrFun (pay1_congr (iblk0_0_eq V c t) (iblk0_1_eq V c t) (iblk0_2_eq V c t) (iblk0_3_eq V c t)) j

theorem flushed0_6_eq (c : Dev nD) (t : Fin cfg0.N) :
    (dat0 V c).flushed 6 t = ((cfg0.win 6).blk t).view.read (Elt F) (G6 V c) := by
  show (cfg0.win 6).cut (grid0.coords t) ((dat0 V c).after 6 t) = _
  rw [after0_6, out0_6_eq]
  funext j
  show k0_pay2 (iblk0 V c 0 t) (iblk0 V c 1 t) (iblk0 V c 2 t) (iblk0 V c 3 t) (iblk0 V c 4 t) j = G6 V c (((cfg0.win 6).blk t).view.emb j)
  have ej : ((cfg0.win 6).blk t).view.emb j = j := by
    funext a; apply Fin.ext
    obtain ⟨-, -, -, -, -, -, -, -, -, -, -, -, e0, e1⟩ := idx0_all t
    match a with
    | ⟨0, _⟩ => show win0_6.index t (0 : Fin 2) * 1 + 1 * (j 0).val = (j 0).val; omega
    | ⟨1, _⟩ => show win0_6.index t (1 : Fin 2) * 2048 + 1 * (j 1).val = (j 1).val; omega
  rw [ej]
  exact congrFun (pay2_congr (iblk0_0_eq V c t) (iblk0_1_eq V c t) (iblk0_2_eq V c t) (iblk0_3_eq V c t) (iblk0_4_eq V c t)) j

/-- An index of the weights' array is in point t's block iff each coordinate is in the block's range on its axis. -/
theorem mem_blk5 (t : Fin cfg0.N) (i : S1x350.Idx) :
    i ∈ ((cfg0.win 5).blk t).view.set ↔ ∀ a : Fin 2, win0_5.index t a * S1x350.size a ≤ (i a).val ∧ (i a).val < win0_5.index t a * S1x350.size a + S1x350.size a := by
  show i ∈ ((View.whole main_v3_0).slice (win0_5.rect t)).set ↔ _
  rw [View.set_slice_whole, Rect.mem_set_unit]
  exact Iff.rfl

theorem mem_blk6 (t : Fin cfg0.N) (i : S1x2048.Idx) :
    i ∈ ((cfg0.win 6).blk t).view.set ↔ ∀ a : Fin 2, win0_6.index t a * S1x2048.size a ≤ (i a).val ∧ (i a).val < win0_6.index t a * S1x2048.size a + S1x2048.size a := by
  show i ∈ ((View.whole main_v3_1).slice (win0_6.rect t)).set ↔ _
  rw [View.set_slice_whole, Rect.mem_set_unit]
  exact Iff.rfl

/-- The one point's block covers the whole weights' array. -/
theorem covered5 (i : S1x350.Idx) : ∃ t : Fin cfg0.N, (cfg0.win 5).flush t = true ∧ i ∈ ((cfg0.win 5).blk t).view.set := by
  refine ⟨t0_0, flush0_5 t0_0, ?_⟩
  rw [mem_blk5]
  obtain ⟨-, -, -, -, -, -, -, -, -, -, e0, e1, -⟩ := idx0_all t0_0
  have h0 : (i 0).val < 1 := (i 0).isLt
  have h1 : (i 1).val < 350 := (i 1).isLt
  intro a
  match a with
  | ⟨0, _⟩ => show win0_5.index t0_0 (0 : Fin 2) * 1 ≤ (i 0).val ∧ (i 0).val < win0_5.index t0_0 (0 : Fin 2) * 1 + 1; omega
  | ⟨1, _⟩ => show win0_5.index t0_0 (1 : Fin 2) * 350 ≤ (i 1).val ∧ (i 1).val < win0_5.index t0_0 (1 : Fin 2) * 350 + 350; omega

theorem covered6 (i : S1x2048.Idx) : ∃ t : Fin cfg0.N, (cfg0.win 6).flush t = true ∧ i ∈ ((cfg0.win 6).blk t).view.set := by
  refine ⟨t0_0, flush0_6 t0_0, ?_⟩
  rw [mem_blk6]
  obtain ⟨-, -, -, -, -, -, -, -, -, -, -, -, e0, e1⟩ := idx0_all t0_0
  have h0 : (i 0).val < 1 := (i 0).isLt
  have h1 : (i 1).val < 2048 := (i 1).isLt
  intro a
  match a with
  | ⟨0, _⟩ => show win0_6.index t0_0 (0 : Fin 2) * 1 ≤ (i 0).val ∧ (i 0).val < win0_6.index t0_0 (0 : Fin 2) * 1 + 1; omega
  | ⟨1, _⟩ => show win0_6.index t0_0 (1 : Fin 2) * 2048 ≤ (i 1).val ∧ (i 1).val < win0_6.index t0_0 (1 : Fin 2) * 2048 + 2048; omega

/-- The weights' array after the region: the softmax payload of the whole input arrays. -/
theorem arr5_eq (c : Dev nD) : (dat0 V c).arrAt 5 cfg0.N = G5 V c :=
  (dat0 V c).arrAt_eq_of_cover 5 (G5 V c) (fun t _ => flushed0_5_eq V c t) covered5

/-- The context array after the region: the product payload of the whole input arrays. -/
theorem arr6_eq (c : Dev nD) : (dat0 V c).arrAt 6 cfg0.N = G6 V c :=
  (dat0 V c).arrAt_eq_of_cover 6 (G6 V c) (fun t _ => flushed0_6_eq V c t) covered6

end Blocks

section Algebra

/-! ### A maximum along the rows of a two-dimensional array, read at a row -/

/-- A vector reduction with the maximum over the second axis, at row p: the maximum of the starting word's value and the row. -/
theorem rowMax_multiReduction {m n : Nat} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] (⟨1, ![m]⟩ : Shape) src acc h hφ hacc (ix1 p)
      = (Finset.univ : Finset (Fin n)).fold max (Ideal.ofBits φ acc) (fun k => src (ix2 p k)) := by
  refine (Ideal.multiReduction_maximumf_single src acc h hφ hacc (ix1 p)).trans ?_
  show (Finset.univ : Finset (Fin n)).fold max (Ideal.ofBits φ acc) (src ∘ h.lift (ix1 p)) = _
  exact Finset.fold_congr fun k _ => congrArg src (RowMin.lift_ix2 h p k)

/-- A host reduction with a maximum body over the second axis, at row p: the same maximum, from the initial value. -/
theorem rowMax_hostReduce {m n : Nat} {φ : FTy} {u : Shape} (x : (⟨2, ![m, n]⟩ : Shape).Idx → Ideal φ) (init : u.Idx → Ideal φ)
    (h' : (⟨2, ![m, n]⟩ : Shape).ReducesTo [1] (⟨1, ![m]⟩ : Shape))
    (h : (⟨2, ![m, n]⟩ : Shape).Reduces [1] (⟨1, ![m]⟩ : Shape)) (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu (ix1 p)]
  show (Finset.univ : Finset (Fin n)).fold max (init (Shape.Idx.first hu)) (x ∘ h.lift (ix1 p)) = _
  exact Finset.fold_congr fun k _ => congrArg x (RowMin.lift_ix2 h p k)

/-! ### The kernel's softmax chain as functions of the logits -/

/-- The kernel's row maximum, kept as a column and spread back along the row. -/
def rowMaxK (L : FVec Ideal S1x350 .f32) : FVec Ideal S1x350 .f32 :=
  broadcastTo S1x350 (shapeCast S1x1 (maximumf (broadcast S1 (Scalar.ofBits (F := Ideal) .f32 0xFF800000#32))
    (multiReduction .maximumf [1] S1 L 0xFF800000#32 reduces_S1x350_S1 (.inl rfl) rfl)) shapeCasts_S1_S1x1) broadcasts_S1x1_S1x350

/-- The kernel's shifted exponentials. -/
def expK (L : FVec Ideal S1x350 .f32) : FVec Ideal S1x350 .f32 := exp (subf L (rowMaxK L))

/-- The kernel's row sum, kept as a column and spread back along the row. -/
def rowSumK (E : FVec Ideal S1x350 .f32) : FVec Ideal S1x350 .f32 :=
  broadcastTo S1x350 (shapeCast S1x1 (multiReduction .add [1] S1 E 0x00000000#32 reduces_S1x350_S1 (.inl rfl) rfl) shapeCasts_S1_S1x1) broadcasts_S1x1_S1x350

/-- The kernel's softmax of a row of logits. -/
def softmaxK (L : FVec Ideal S1x350 .f32) : FVec Ideal S1x350 .f32 := divf (expK L) (rowSumK (expK L))

/-- The kernel's concatenated row [x, h]. -/
def catK (x h : FVec Ideal S1x2048 .f32) : FVec Ideal S1x4096 .f32 :=
  concatenate S1x4096 1 [⟨S1x2048, shapeCast S1x2048 x shapeCasts_S1x2048_S1x2048⟩, ⟨S1x2048, shapeCast S1x2048 h shapeCasts_S1x2048_S1x2048⟩] concatenates_S1x2048_S1x2048_S1x4096_d1

/-- The kernel's logits: [x, h] against the rows of W, plus the bias row. -/
def logitsK (x h : FVec Ideal S1x2048 .f32) (W : FVec Ideal S350x4096 .f32) (b2 : FVec Ideal S1x350 .f32) : FVec Ideal S1x350 .f32 :=
  addf (matmul dot_S1x4096_S350x4096_S1x350_1_1_0_0_n_n none (truncf .bf16 (catK x h) bitsLt_bf16_f32) (truncf .bf16 W bitsLt_bf16_f32)
    (constant S1x350 .f32 0x00000000#32)) (shapeCast S1x350 b2 shapeCasts_S1x350_S1x350)

/-- The weights' payload is the softmax chain applied to the logits. -/
theorem pay1_eq (x h : FVec Ideal S1x2048 .f32) (W : FVec Ideal S350x4096 .f32) (b2 : FVec Ideal S1x350 .f32) :
    k0_pay1 (F := Ideal) x h W b2 = softmaxK (logitsK x h W b2) := rfl

/-- The context payload is the weights' payload against the encoder outputs. -/
theorem pay2_eq (x h : FVec Ideal S1x2048 .f32) (W : FVec Ideal S350x4096 .f32) (b2 : FVec Ideal S1x350 .f32) (enc : FVec Ideal S350x2048 .f32) :
    k0_pay2 (F := Ideal) x h W b2 enc
      = matmul dot_S1x350_S350x2048_S1x2048_1_0_0_1_n_n none (truncf .bf16 (k0_pay1 (F := Ideal) x h W b2) bitsLt_bf16_f32)
          (truncf .bf16 enc bitsLt_bf16_f32) (constant S1x2048 .f32 0x00000000#32) := rfl

/-! ### The row maximum, both spellings, at an entry -/

theorem rowMaxK_apply (L : FVec Ideal S1x350 .f32) (p : Fin 1) (q : Fin 350) :
    rowMaxK L (ix2 p q) = max (Ideal.ofBits .f32 0xFF800000#32)
      ((Finset.univ : Finset (Fin 350)).fold max (Ideal.ofBits .f32 0xFF800000#32) (fun k => L (ix2 p k))) := by
  unfold rowMaxK
  refine (KeepdimsLayout.broadcastTo_a1_ab_apply _ broadcasts_S1x1_S1x350 p q).trans ?_
  refine (KeepdimsLayout.shapeCast_a_a1_apply _ shapeCasts_S1_S1x1 p 0).trans ?_
  show max _ _ = _
  exact congrArg (max _) (rowMax_multiReduction L _ reduces_S1x350_S1 _ _ p)

theorem rowMaxH_apply (L : FVec Ideal ⟨2, ![1, 350]⟩ .f32) (w : BitVec (FTy.bits .f32))
    (hb2 : (⟨2, ![1, 1]⟩ : Shape).BroadcastsInDim ⟨2, ![1, 350]⟩ ![0, 1])
    (hb1 : (⟨1, ![1]⟩ : Shape).BroadcastsInDim ⟨2, ![1, 1]⟩ ![0])
    (hb0 : (⟨0, ![]⟩ : Shape).BroadcastsInDim ⟨1, ![1]⟩ ![])
    (hr : (⟨2, ![1, 350]⟩ : Shape).ReducesTo [1] ⟨1, ![1]⟩) (hu : 0 < (⟨0, ![]⟩ : Shape).numel) (p : Fin 1) (q : Fin 350) :
    broadcastInDim (⟨2, ![1, 350]⟩ : Shape) ![0, 1] hb2 (broadcastInDim (⟨2, ![1, 1]⟩ : Shape) ![0] hb1
      (maximumf (broadcastInDim (⟨1, ![1]⟩ : Shape) ![] hb0 (constant (F := Ideal) ⟨0, ![]⟩ .f32 w))
        (Host.reduce (FloatOps.maximumf (F := Ideal) (φ := .f32)) L (constant (F := Ideal) ⟨0, ![]⟩ .f32 w) hr hu))) (ix2 p q)
    = max (Ideal.ofBits .f32 w) ((Finset.univ : Finset (Fin 350)).fold max (Ideal.ofBits .f32 w) (fun k => L (ix2 p k))) := by
  have hp : p.val = 0 := by have := p.isLt; omega
  refine (broadcastInDim_apply _ hb2 _ (ix2 p q) (ix2 p (0 : Fin 1)) (fun a => ?_)).trans ?_
  · match a with
    | ⟨0, _⟩ => show p.val = if (1 : Nat) = 1 then 0 else p.val; rw [if_pos rfl]; exact hp
    | ⟨1, _⟩ => show 0 = if (1 : Nat) = 1 then 0 else q.val; rw [if_pos rfl]
  refine (broadcastInDim_apply _ hb1 _ (ix2 p (0 : Fin 1)) (ix1 p) (fun a => ?_)).trans ?_
  · match a with
    | ⟨0, _⟩ => show p.val = if (1 : Nat) = 1 then 0 else p.val; rw [if_pos rfl]; exact hp
  show max _ _ = _
  refine congrArg₂ max ?_ ?_
  · exact broadcastInDim_apply _ hb0 _ (ix1 p) ix0 (fun a => a.elim0)
  · exact rowMax_hostReduce L _ hr reduces_S1x350_S1 hu p

/-! ### The row sum, both spellings, at an entry -/

theorem rowSumK_apply (E : FVec Ideal S1x350 .f32) (p : Fin 1) (q : Fin 350) :
    rowSumK E (ix2 p q) = ∑ k : Fin 350, E (ix2 p k) := by
  unfold rowSumK
  refine (KeepdimsLayout.broadcastTo_a1_ab_apply _ broadcasts_S1x1_S1x350 p q).trans ?_
  refine (KeepdimsLayout.shapeCast_a_a1_apply _ shapeCasts_S1_S1x1 p 0).trans ?_
  exact RowSum.multiReduction_apply E _ reduces_S1x350_S1 _ _ p

theorem rowSumH_apply (E : FVec Ideal ⟨2, ![1, 350]⟩ .f32)
    (hb2 : (⟨2, ![1, 1]⟩ : Shape).BroadcastsInDim ⟨2, ![1, 350]⟩ ![0, 1])
    (hb1 : (⟨1, ![1]⟩ : Shape).BroadcastsInDim ⟨2, ![1, 1]⟩ ![0])
    (hr : (⟨2, ![1, 350]⟩ : Shape).ReducesTo [1] ⟨1, ![1]⟩) (hu : 0 < (⟨0, ![]⟩ : Shape).numel) (p : Fin 1) (q : Fin 350) :
    broadcastInDim (⟨2, ![1, 350]⟩ : Shape) ![0, 1] hb2 (broadcastInDim (⟨2, ![1, 1]⟩ : Shape) ![0] hb1
      (Host.reduceAdd (F := Ideal) E (constant (F := Ideal) ⟨0, ![]⟩ .f32 0x00000000#32) hr hu)) (ix2 p q)
    = ∑ k : Fin 350, E (ix2 p k) := by
  have hp : p.val = 0 := by have := p.isLt; omega
  refine (broadcastInDim_apply _ hb2 _ (ix2 p q) (ix2 p (0 : Fin 1)) (fun a => ?_)).trans ?_
  · match a with
    | ⟨0, _⟩ => show p.val = if (1 : Nat) = 1 then 0 else p.val; rw [if_pos rfl]; exact hp
    | ⟨1, _⟩ => show 0 = if (1 : Nat) = 1 then 0 else q.val; rw [if_pos rfl]
  refine (broadcastInDim_apply _ hb1 _ (ix2 p (0 : Fin 1)) (ix1 p) (fun a => ?_)).trans ?_
  · match a with
    | ⟨0, _⟩ => show p.val = if (1 : Nat) = 1 then 0 else p.val; rw [if_pos rfl]; exact hp
  show Ideal.hostReduceAdd hr E (Ideal.ofBits .f32 0x00000000#32) (ix1 p) = _
  rw [Ideal.hostReduceAdd_single hr reduces_S1x350_S1 E _ (ix1 p), Ideal.ofBits_zero_f32, zero_add]
  exact Finset.sum_congr rfl fun k _ => congrArg E (RowSum.lift_ix2 reduces_S1x350_S1 p k)

/-! ### The logits, both spellings, at an entry -/

theorem isABt_K : DotForms.IsABt (M := 1) (K := 4096) (N := 350) dot_S1x4096_S350x4096_S1x350_1_1_0_0_n_n :=
  ⟨rfl, rfl, rfl, rfl, rfl, rfl⟩

theorem isPlain_K : PlainDot.IsPlain (M := 1) (K := 350) (N := 2048) dot_S1x350_S350x2048_S1x2048_1_0_0_1_n_n :=
  ⟨rfl, rfl, rfl, rfl, rfl, rfl⟩

theorem logitsK_apply (x h : FVec Ideal S1x2048 .f32) (W : FVec Ideal S350x4096 .f32) (b2 : FVec Ideal S1x350 .f32)
    (p : Fin 1) (q : Fin 350) :
    logitsK x h W b2 (ix2 p q) = (∑ i : Fin 4096, catK x h (ix2 p i) * W (ix2 q i)) + b2 (ix2 p q) := by
  unfold logitsK
  show matmul _ none _ _ _ (ix2 p q) + shapeCast S1x350 b2 shapeCasts_S1x350_S1x350 (ix2 p q) = _
  rw [shapeCast_self]
  refine congrArg (· + b2 (ix2 p q)) ?_
  exact DotForms.abt_matmul_zero_apply isABt_K none _ _ p q

theorem logitsH_apply (cat : FVec Ideal ⟨2, ![1, 4096]⟩ .f32) (W : FVec Ideal ⟨2, ![350, 4096]⟩ .f32) (b : FVec Ideal ⟨1, ![350]⟩ .f32)
    {dR : DotDims ⟨2, ![1, 4096]⟩ ⟨2, ![4096, 350]⟩ ⟨2, ![1, 350]⟩} (hR : PlainDot.IsPlain dR)
    (htr : (⟨2, ![350, 4096]⟩ : Shape).Transposes [1, 0] ⟨2, ![4096, 350]⟩)
    (hbc : (⟨1, ![350]⟩ : Shape).BroadcastsInDim ⟨2, ![1, 350]⟩ ![1]) (p : Fin 1) (q : Fin 350) :
    addf (Host.dotGeneral dR none cat (transpose (⟨2, ![4096, 350]⟩ : Shape) [1, 0] W htr))
        (broadcastInDim (⟨2, ![1, 350]⟩ : Shape) ![1] hbc b) (ix2 p q)
      = (∑ i : Fin 4096, cat (ix2 p i) * W (ix2 q i)) + b (ix1 q) := by
  show FloatOps.dotGeneral dR none .single cat _ (ix2 p q) + broadcastInDim _ _ hbc b (ix2 p q) = _
  refine congrArg₂ (· + ·) ?_ ?_
  · refine (PlainDot.dotGeneral_apply hR none .single cat _ p q).trans ?_
    refine Finset.sum_congr rfl fun i _ => congrArg (cat (ix2 p i) * ·) ?_
    exact transpose_apply [1, 0] W htr (ix2 i q) (ix2 q i) (fun b => match b with | ⟨0, _⟩ => rfl | ⟨1, _⟩ => rfl)
  · exact broadcastInDim_apply _ hbc b (ix2 p q) (ix1 q) (fun a => match a with
      | ⟨0, _⟩ => by show q.val = if (350 : Nat) = 1 then 0 else q.val; rw [if_neg (by decide)])

/-- The bias row is the bias vector with a unit axis in front. -/
theorem bias_apply (b : FVec Ideal S350 .f32) (hs : S350.ShapeCasts S1x350) (p : Fin 1) (q : Fin 350) :
    shapeCast S1x350 b hs (ix2 p q) = b (ix1 q) :=
  shapeCast_apply b hs (ix2 p q) (ix1 q) (by
    rw [Shape.rowMajor_val_one, Shape.rowMajor_val_two]
    show q.val = p.val * 350 + q.val
    have := p.isLt; omega)

/-- The kernel's concatenation is the concatenation of the two rows themselves. -/
theorem catK_eq (x h : FVec Ideal S1x2048 .f32) (hc : Shape.Concatenates [S1x2048, S1x2048] S1x4096 1) :
    catK x h = concatenate S1x4096 1 [⟨S1x2048, x⟩, ⟨S1x2048, h⟩] hc := by
  unfold catK
  rw [shapeCast_self, shapeCast_self]

/-! ### The context product, both spellings -/

theorem ctx_generic (aw : FVec Ideal ⟨2, ![1, 350]⟩ .f32) (enc : FVec Ideal ⟨2, ![350, 2048]⟩ .f32)
    {dK dR : DotDims ⟨2, ![1, 350]⟩ ⟨2, ![350, 2048]⟩ ⟨2, ![1, 2048]⟩} (hK : PlainDot.IsPlain dK) (hR : PlainDot.IsPlain dR)
    (t1 t2 : FTy.bits .bf16 < FTy.bits .f32) :
    matmul dK none (truncf .bf16 aw t1) (truncf .bf16 enc t2) (constant (⟨2, ![1, 2048]⟩ : Shape) .f32 0x00000000#32)
      = Host.dotGeneral dR none aw enc := by
  funext j
  obtain ⟨p, q, rfl⟩ : ∃ (p : Fin 1) (q : Fin 2048), j = ix2 p q := ⟨j 0, j 1, eq_ix2 j⟩
  exact (PlainDot.matmul_zero_apply hK none _ _ p q).trans (PlainDot.dotGeneral_apply hR none .single aw enc p q).symm

end Algebra

section Bridge

open Cert.ReferenceIdeal.Fns

/-! ### The kernel's chain is the reference's, stage by stage -/

theorem isPlain_logitsR : PlainDot.IsPlain (M := 1) (K := 4096) (N := 350) Cert.ReferenceIdeal.dot_S1x4096_S4096x350_S1x350_1_0_0_1_n_n :=
  ⟨rfl, rfl, rfl, rfl, rfl, rfl⟩

theorem isPlain_ctxR : PlainDot.IsPlain (M := 1) (K := 350) (N := 2048) Cert.ReferenceIdeal.dot_S1x350_S350x2048_S1x2048_1_0_0_1_n_n :=
  ⟨rfl, rfl, rfl, rfl, rfl, rfl⟩

/-- The logits: the kernel's product of [x, h] with W's rows is the reference's product with W transposed, entry by
    entry the same sum over the 4096 columns; the bias row is the bias vector. -/
theorem logits_eq (x h : FVec Ideal S1x2048 .f32) (W : FVec Ideal S350x4096 .f32) (b : FVec Ideal S350 .f32)
    (b2 : FVec Ideal S1x350 .f32) (hb : b2 = shapeCast _ b shapeCasts_S350_S1x350) :
    logitsK x h W b2 = logitsRef (F := Ideal) x h W b := by
  subst hb
  funext j
  obtain ⟨p, q, rfl⟩ : ∃ (p : Fin 1) (q : Fin 350), j = ix2 p q := ⟨j 0, j 1, eq_ix2 j⟩
  unfold logitsRef
  refine (logitsK_apply x h W _ p q).trans ?_
  refine Eq.trans ?_ (logitsH_apply _ W b isPlain_logitsR _ _ p q).symm
  rw [catK_eq x h concatenates_S1x2048_S1x2048_S1x4096_d1, bias_apply]

/-- The row maximum: both are the maximum of minus infinity and the fold of the maximum over the row from minus infinity. -/
theorem rowMax_eq (L : FVec Ideal S1x350 .f32) : rowMaxK L = rowMaxRef (F := Ideal) L := by
  funext j
  obtain ⟨p, q, rfl⟩ : ∃ (p : Fin 1) (q : Fin 350), j = ix2 p q := ⟨j 0, j 1, eq_ix2 j⟩
  unfold rowMaxRef
  exact (rowMaxK_apply L p q).trans (rowMaxH_apply L _ _ _ _ _ _ p q).symm

/-- The shifted exponentials: the exponential is one function on both sides. -/
theorem exp_eq (L : FVec Ideal S1x350 .f32) : expK L = expRef (F := Ideal) L := by
  unfold expK expRef
  rw [rowMax_eq]
  rfl

/-- The row sum: both are the sum of the row's 350 entries (the reference's starts from zero). -/
theorem rowSum_eq (E : FVec Ideal S1x350 .f32) : rowSumK E = rowSumRef (F := Ideal) E := by
  funext j
  obtain ⟨p, q, rfl⟩ : ∃ (p : Fin 1) (q : Fin 350), j = ix2 p q := ⟨j 0, j 1, eq_ix2 j⟩
  unfold rowSumRef
  exact (rowSumK_apply E p q).trans (rowSumH_apply E _ _ _ _ p q).symm

/-- The softmax of equal logits: the quotient is one function on both sides. -/
theorem softmax_eq (L : FVec Ideal S1x350 .f32) : softmaxK L = softmaxRef (F := Ideal) L := by
  unfold softmaxK softmaxRef
  rw [exp_eq, rowSum_eq]
  rfl

/-- The weights' payload of the arrays is the reference's attention weights. -/
theorem pay1_awRef (x h : FVec Ideal S1x2048 .f32) (W : FVec Ideal S350x4096 .f32) (b : FVec Ideal S350 .f32)
    (b2 : FVec Ideal S1x350 .f32) (hb : b2 = shapeCast _ b shapeCasts_S350_S1x350) :
    k0_pay1 (F := Ideal) x h W b2 = awRef (F := Ideal) x h W b := by
  rw [pay1_eq, logits_eq x h W b b2 hb, softmax_eq]
  rfl

/-- The context payload of the arrays is the reference's context row of those weights. -/
theorem pay2_ctxRef (x h : FVec Ideal S1x2048 .f32) (W : FVec Ideal S350x4096 .f32) (b : FVec Ideal S350 .f32)
    (b2 : FVec Ideal S1x350 .f32) (enc : FVec Ideal S350x2048 .f32) (hb : b2 = shapeCast _ b shapeCasts_S350_S1x350) :
    k0_pay2 (F := Ideal) x h W b2 enc = ctxRef (F := Ideal) (awRef (F := Ideal) x h W b) enc := by
  rw [pay2_eq, pay1_awRef x h W b b2 hb]
  unfold ctxRef
  exact ctx_generic _ enc isPlain_K isPlain_ctxR _ _

end Bridge

end AttnValue

open AttnValue

variable (V : (c : Dev nD) → (b : Ref sig .tc) → Buf (Elt Ideal) ((c : Thread nD τ).loc b))

/-- The attention weights' array after the region. -/
theorem aw_eq (c : Dev nD) (b : FVec Ideal S350 .f32)
    (hb : (V c main_v2 : S1x350.Idx → EReal) = shapeCast _ b shapeCasts_S350_S1x350) :
    ((dat0 (F := Ideal) V c).arrAt 5 cfg0.N : S1x350.Idx → EReal)
      = Cert.ReferenceIdeal.Fns.awRef (F := Ideal) (V c main_v0) (V c main_v1) (V c main_arg3) b :=
  (arr5_eq (F := Ideal) V c).trans (pay1_awRef (V c main_v0) (V c main_v1) (V c main_arg3) b (V c main_v2) hb)

/-- The context array after the region. -/
theorem ctx_eq (c : Dev nD) (b : FVec Ideal S350 .f32)
    (hb : (V c main_v2 : S1x350.Idx → EReal) = shapeCast _ b shapeCasts_S350_S1x350) :
    ((dat0 (F := Ideal) V c).arrAt 6 cfg0.N : S1x2048.Idx → EReal)
      = Cert.ReferenceIdeal.Fns.ctxRef (F := Ideal)
          (Cert.ReferenceIdeal.Fns.awRef (F := Ideal) (V c main_v0) (V c main_v1) (V c main_arg3) b) (V c main_arg2) :=
  (arr6_eq (F := Ideal) V c).trans (pay2_ctxRef (V c main_v0) (V c main_v1) (V c main_arg3) b (V c main_v2) (V c main_arg2) hb)

end Cert.KernelIdeal.Hand

end
-- ==== Proof.KI.Val1.lean ====
/-
  The combine region's result at the exact instance: the array its eight write-backs leave is the reference's
  rectified combination, as a function of the arrays the region is entered from.
-/
import proofs.«123148_j15350213116625_1_alg».proof.Proof.KI.Data1
import proofs.«123148_j15350213116625_1_alg».proof.Proof.Ref.Fns
import Idealize.ShloMosaic.Lib.Pipeline.Value
import Idealize.ShloMosaic.Lib.ValueIdx
import Idealize.ShloMosaic.PureOps.Ideal.Laws
import Idealize.ShloMosaic.Lib.ValueLayout
import proofs.«123148_j15350213116625_1_alg».proof.Proof.LibDotForms
import proofs.«123148_j15350213116625_1_alg».proof.Proof.LibPlainDot

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

namespace Val1

/-- Entry j of the rectified combination: the joined row against row j of the weights, plus the bias entry, cut at zero. -/
def combAt (cat : (⟨2, ![1, 4096]⟩ : Shape).Idx → EReal) (W : (⟨2, ![2048, 4096]⟩ : Shape).Idx → EReal)
    (b : (⟨1, ![2048]⟩ : Shape).Idx → EReal) (j : Fin 2048) : EReal :=
  max (∑ k : Fin 4096, cat (ix2 0 k) * W (ix2 j k) + b (ix1 j)) (Ideal.ofBits .f32 0x00000000#32)

/-- The reference's row at lane j: its product against the transposed weights is the joined row against row j of the
    weights; the bias entry and the zero it is cut at are read off their broadcasts. -/
theorem gRef_at (x ctx : FVec Ideal Cert.ReferenceIdeal.S1x2048 .f32) (W : FVec Ideal Cert.ReferenceIdeal.S2048x4096 .f32)
    (b : FVec Ideal Cert.ReferenceIdeal.S2048 .f32) (j : Fin 2048) :
    Cert.ReferenceIdeal.Fns.gRef (F := Ideal) x ctx W b (ix2 0 j)
      = combAt (concatenate Cert.ReferenceIdeal.S1x4096 1 [⟨Cert.ReferenceIdeal.S1x2048, x⟩, ⟨Cert.ReferenceIdeal.S1x2048, ctx⟩]
          Cert.ReferenceIdeal.Gen.concatenates_S1x2048_S1x2048_S1x4096_d1) W b j := by
  unfold Cert.ReferenceIdeal.Fns.gRef combAt
  generalize concatenate Cert.ReferenceIdeal.S1x4096 1 [⟨Cert.ReferenceIdeal.S1x2048, x⟩, ⟨Cert.ReferenceIdeal.S1x2048, ctx⟩] _ = cat
  refine congrArg₂ max (congrArg₂ (· + ·) ?_ ?_) ?_
  · refine (PlainDot.dotGeneral_apply (d := Cert.ReferenceIdeal.dot_S1x4096_S4096x2048_S1x2048_1_0_0_1_n_n)
      ⟨rfl, rfl, rfl, rfl, rfl, rfl⟩ none .single cat _ 0 j).trans ?_
    refine Finset.sum_congr rfl fun k _ => congrArg (cat (ix2 0 k) * ·) ?_
    exact transpose_ix2_apply W _ k j
  · exact broadcastInDim_apply _ _ b (ix2 0 j) (ix1 j) (fun a => match a with
      | ⟨0, _⟩ => by show (j : ℕ) = if (2048 : ℕ) = 1 then 0 else (j : ℕ); rw [if_neg (by decide)])
  · exact broadcastInDim_apply _ _ (constant (F := Ideal) Cert.ReferenceIdeal.S_ .f32 0x00000000#32) (ix2 0 j) ix0 (fun a => a.elim0)

/-- The body's stored row at lane q: the joined row against row q of the weight block (both operands contracted along
    their second axis), plus the bias block's lane q, cut at zero; the casts to the narrower format are the identity here. -/
theorem pay_at (x ctx : Vec Ideal S1x2048 .f32) (Wb : Vec Ideal S256x4096 .f32) (bb : Vec Ideal S1x256 .f32) (q : Fin 256) :
    k1_pay1 (F := Ideal) x ctx Wb bb (ix2 0 q)
      = max (∑ k : Fin 4096, (concatenate S1x4096 1 [⟨S1x2048, x⟩, ⟨S1x2048, ctx⟩] concatenates_S1x2048_S1x2048_S1x4096_d1 : S1x4096.Idx → EReal) (ix2 0 k) * Wb (ix2 q k) + bb (ix2 0 q))
          (Ideal.ofBits .f32 0x00000000#32) := by
  unfold k1_pay1
  refine congrArg₂ max (congrArg₂ (· + ·) ?_ ?_) rfl
  · refine (DotForms.abt_matmul_zero_apply (d := dot_S1x4096_S256x4096_S1x256_1_1_0_0_n_n)
      ⟨rfl, rfl, rfl, rfl, rfl, rfl⟩ none _ _ 0 q).trans ?_
    refine Finset.sum_congr rfl fun k _ => ?_
    rw [shapeCast_self, shapeCast_self]
    rfl
  · exact congrFun (shapeCast_self bb _) (ix2 0 q)

/-- The whole-buffer rectangle starts at the origin. -/
theorem hz1 : (![0, 0] : Fin 2 → Nat) = fun _ => 0 := funext fun a => by fin_cases a <;> rfl

/-- A [1,n] index is its lane. -/
theorem eq_row {n : Nat} (y : (⟨2, ![1, n]⟩ : Shape).Idx) : y = ix2 (0 : Fin 1) (⟨(y 1).val, idx2_lt1 y⟩ : Fin n) := by
  funext a
  match a with
  | ⟨0, _⟩ => exact Fin.ext (by have := idx2_lt0 y; show (y 0).val = 0; omega)
  | ⟨1, _⟩ => rfl

/-- The bias row is the bias vector with a unit axis in front. -/
theorem bias_at (b : FVec Ideal S2048 .f32) (i : S1x2048.Idx) (j : Fin 2048) (h : (i 1).val = j.val) :
    shapeCast S1x2048 b shapeCasts_S2048_S1x2048 i = b (ix1 j) := by
  rw [eq_row i, show (⟨(i 1).val, idx2_lt1 i⟩ : Fin 2048) = j from Fin.ext h]
  exact shapeCast_a_1a_apply b shapeCasts_S2048_S1x2048 0 j

/-- One lane of one block against the reference's entry: when the row blocks are the whole rows, row q of the weight
    block is row j of the weights and the bias block's lane q is the bias entry j, the two sides are the same sum, the
    same bias and the same cut. -/
theorem blk_entry (x ctx : Vec Ideal S1x2048 .f32) (W : Vec Ideal S2048x4096 .f32) (bv : FVec Ideal S2048 .f32)
    (xb cb : Vec Ideal S1x2048 .f32) (Wb : Vec Ideal S256x4096 .f32) (bb : Vec Ideal S1x256 .f32)
    (y : S1x256.Idx) (i : S1x2048.Idx) (hx : xb = x) (hc : cb = ctx)
    (hW : ∀ k : Fin 4096, Wb (ix2 (⟨(y 1).val, idx2_lt1 y⟩ : Fin 256) k) = W (ix2 (⟨(i 1).val, idx2_lt1 i⟩ : Fin 2048) k))
    (hbb : bb y = bv (ix1 (⟨(i 1).val, idx2_lt1 i⟩ : Fin 2048))) :
    k1_pay1 (F := Ideal) xb cb Wb bb y = Cert.ReferenceIdeal.Fns.gRef (F := Ideal) x ctx W bv i := by
  subst hx hc
  rw [eq_row y] at hbb ⊢
  rw [eq_row i]
  rw [pay_at, gRef_at]
  unfold combAt
  refine congrArg₂ max (congrArg₂ (· + ·) (Finset.sum_congr rfl fun k _ => ?_) hbb) rfl
  exact congrArg (_ * ·) (hW k)

/-- The index maps over the eight points: windows 0 and 1 stay at block (0,0); window 2 moves down the rows,
    windows 3 and 4 along the lanes, one block per point. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = t.val
    ∧ win1_4.index t (0 : Fin 2) = 0 ∧ win1_4.index t (1 : Fin 2) = t.val :=
  (by decide +kernel : ∀ t : Fin grid1.N, _)

end Val1

variable (V : (c : Dev nD) → (b : Ref sig .tc) → Buf (Elt Ideal) ((c : Thread nD τ).loc b))

namespace Val1

/-- What point t writes back is block t of the reference's row: lane q of the block is lane 256 t + q of the row; it
    reads the whole rows main_v0 and main_v3_1, row 256 t + q of main_arg5 and lane 256 t + q of the bias row. -/
theorem flushed1_eq (c : Dev nD) (b : FVec Ideal S2048 .f32)
    (hb : (V c main_v4 : S1x2048.Idx → EReal) = shapeCast _ b shapeCasts_S2048_S1x2048) (t : Fin cfg1.N) :
    (dat1 (F := Ideal) V c).flushed 4 t = ((cfg1.win 4).blk t).view.read (Elt Ideal)
      (Cert.ReferenceIdeal.Fns.gRef (F := Ideal) (V c main_v0) (V c main_v3_1) (V c main_arg5) b) := by
  show (cfg1.win 4).cut (grid1.coords t) ((dat1 (F := Ideal) V c).after 4 t) = _
  rw [after1_4]
  unfold out1_4
  rw [View.canon_unit_zero hz1]
  simp only [View.ld_unit_zero (S := S1x2048) hz1, View.ld_unit_zero (S := S256x4096) hz1, View.ld_unit_zero (S := S1x256) hz1]
  obtain ⟨e00, e01, e10, e11, e20, e21, e30, e31, e40, e41⟩ := idx_facts1 t
  funext y
  show k1_pay1 (F := Ideal) (iblk1 V c 0 t) (iblk1 V c 1 t) (iblk1 V c 2 t) (iblk1 V c 3 t) y
      = Cert.ReferenceIdeal.Fns.gRef (F := Ideal) (V c main_v0) (V c main_v3_1) (V c main_arg5) b (((cfg1.win 4).blk t).view.emb y)
  refine blk_entry (V c main_v0) (V c main_v3_1) (V c main_arg5) b (iblk1 V c 0 t) (iblk1 V c 1 t) (iblk1 V c 2 t) (iblk1 V c 3 t)
    y (((cfg1.win 4).blk t).view.emb y) ?_ ?_ ?_ ?_
  · funext z
    show V c main_v0 (((cfg1.win 0).blk t).view.emb z) = V c main_v0 z
    refine congrArg _ (funext fun a => Fin.ext ?_)
    match a with
    | ⟨0, _⟩ => show win1_0.index t (0 : Fin 2) * 1 + 1 * (z 0).val = (z 0).val; omega
    | ⟨1, _⟩ => show win1_0.index t (1 : Fin 2) * 2048 + 1 * (z 1).val = (z 1).val; omega
  · funext z
    show V c main_v3_1 (((cfg1.win 1).blk t).view.emb z) = V c main_v3_1 z
    refine congrArg _ (funext fun a => Fin.ext ?_)
    match a with
    | ⟨0, _⟩ => show win1_1.index t (0 : Fin 2) * 1 + 1 * (z 0).val = (z 0).val; omega
    | ⟨1, _⟩ => show win1_1.index t (1 : Fin 2) * 2048 + 1 * (z 1).val = (z 1).val; omega
  · intro k
    show V c main_arg5 (((cfg1.win 2).blk t).view.emb (ix2 _ k)) = V c main_arg5 (ix2 _ k)
    refine congrArg _ (funext fun a => Fin.ext ?_)
    match a with
    | ⟨0, _⟩ => show win1_2.index t (0 : Fin 2) * 256 + 1 * (y 1).val = win1_4.index t (1 : Fin 2) * 256 + 1 * (y 1).val; omega
    | ⟨1, _⟩ => show win1_2.index t (1 : Fin 2) * 4096 + 1 * k.val = k.val; omega
  · show V c main_v4 (((cfg1.win 3).blk t).view.emb y) = _
    refine (congrFun hb _).trans (bias_at b _ _ ?_)
    show win1_3.index t (1 : Fin 2) * 256 + 1 * (y 1).val = win1_4.index t (1 : Fin 2) * 256 + 1 * (y 1).val
    omega

/-- An index of the row is in point t's block iff each coordinate is in the block's range on its axis. -/
theorem mem_blk1 (t : Fin cfg1.N) (i : S1x2048.Idx) :
    i ∈ ((cfg1.win 4).blk t).view.set ↔ ∀ a : Fin 2, win1_4.index t a * S1x256.size a ≤ (i a).val ∧ (i a).val < win1_4.index t a * S1x256.size a + S1x256.size a := by
  show i ∈ ((View.whole main_v5).slice (win1_4.rect t)).set ↔ _
  rw [View.set_slice_whole, Rect.mem_set_unit]
  exact Iff.rfl

/-- Lane j lies in the block of point j / 256. -/
theorem cover1 (i : S1x2048.Idx) : ∃ t : Fin cfg1.N, (cfg1.win 4).flush t = true ∧ i ∈ ((cfg1.win 4).blk t).view.set := by
  have hN : cfg1.N = 8 := N_1
  have h0 : (i 0).val < 1 := idx2_lt0 i
  have h1 : (i 1).val < 2048 := idx2_lt1 i
  refine ⟨⟨(i 1).val / 256, by rw [hN]; omega⟩, flush1_4 _, ?_⟩
  rw [mem_blk1]
  obtain ⟨-, -, -, -, -, -, -, -, e40, e41⟩ := idx_facts1 ⟨(i 1).val / 256, by rw [hN]; omega⟩
  intro a
  match a with
  | ⟨0, _⟩ => show win1_4.index _ (0 : Fin 2) * 1 ≤ (i 0).val ∧ (i 0).val < win1_4.index _ (0 : Fin 2) * 1 + 1; rw [e40]; omega
  | ⟨1, _⟩ => show win1_4.index _ (1 : Fin 2) * 256 ≤ (i 1).val ∧ (i 1).val < win1_4.index _ (1 : Fin 2) * 256 + 256; rw [e41]; show (i 1).val / 256 * 256 ≤ _ ∧ _ < (i 1).val / 256 * 256 + 256; omega

end Val1

/-- The combined row's array after the region. -/
theorem g_eq (c : Dev nD) (b : FVec Ideal S2048 .f32)
    (hb : (V c main_v4 : S1x2048.Idx → EReal) = shapeCast _ b shapeCasts_S2048_S1x2048) :
    ((dat1 (F := Ideal) V c).arrAt 4 cfg1.N : S1x2048.Idx → EReal)
      = Cert.ReferenceIdeal.Fns.gRef (F := Ideal) (V c main_v0) (V c main_v3_1) (V c main_arg5) b :=
  (dat1 (F := Ideal) V c).arrAt_eq_of_cover 4 (Cert.ReferenceIdeal.Fns.gRef (F := Ideal) (V c main_v0) (V c main_v3_1) (V c main_arg5) b)
    (fun t _ => Val1.flushed1_eq V c b hb t) Val1.cover1

end Cert.KernelIdeal.Hand

end
-- ==== Proof.KI.Val2Lane.lean ====
/-
  One lane of the recurrent unit at the exact instance: what the body stores at lane q of its 128-wide piece at
  grid point t is the reference's new hidden state at column 128 t + q, when the weight and bias blocks the body
  is handed are the blocks of the reference's matrices at that point.
-/
import proofs.«123148_j15350213116625_1_alg».proof.Proof.KI.Data2
import proofs.«123148_j15350213116625_1_alg».proof.Proof.Ref.Fns
import Idealize.ShloMosaic.Lib.Pipeline.Value
import Idealize.ShloMosaic.Lib.ValueIdx
import Idealize.ShloMosaic.PureOps.Ideal.Laws
import proofs.«123148_j15350213116625_1_alg».proof.Proof.LibDotForms
import proofs.«123148_j15350213116625_1_alg».proof.Proof.LibPlainDot
import Idealize.ShloMosaic.Lib.ValueLayout

set_option maxRecDepth 16384

noncomputable section

/-! ## The cell, and the reference's lane -/

namespace Cert.GruLane

open Idealize.ShloMosaic Idealize.ShloMosaic.TcCoe Idealize.SL.Sem Idealize.ShloMosaic.StableHlo
open Cert.ReferenceIdeal Cert.ReferenceIdeal.Gen
open scoped BigOperators
open ValueIdx

/-- One lane of the recurrent unit from its six gate pre-activations and the old state's entry:
    (1 - z) n + z h, with r and z the logistic function of the summed reset and update pre-activations and n the
    hyperbolic tangent of the input-side candidate plus r times the hidden-side candidate. The 1 of 1 - z is
    kept as the word of 1.0, the same word on both sides. -/
def gruCell (ir iz inn hr hz hn hp : EReal) : EReal :=
  (Ideal.ofBits .f32 0x3F800000#32 - Ideal.logistic (iz + hz)) * Ideal.tanh (inn + Ideal.logistic (ir + hr) * hn)
    + Ideal.logistic (iz + hz) * hp

/-- The reference's gate product contracts the row's columns with the transposed matrix's rows. -/
theorem gates_isPlain : PlainDot.IsPlain dot_S1x2048_S2048x6144_S1x6144_1_0_0_1_n_n := ⟨rfl, rfl, rfl, rfl, rfl, rfl⟩

/-- The three gates' pre-activations side by side, at column c: the row against row c of the 6144-row matrix
    (the transposed matrix's column c), plus the bias at c. -/
theorem gatesBody_apply (v : FVec Ideal S1x2048 .f32) (w : FVec Ideal S6144x2048 .f32) (b : FVec Ideal S6144 .f32) (c : Fin 6144) :
    addf (Host.dotGeneral dot_S1x2048_S2048x6144_S1x6144_1_0_0_1_n_n none v
        (transpose S2048x6144 [1, 0] w transposes_S6144x2048_S2048x6144_1_0))
      (broadcastInDim S1x6144 ![1] bcast_S6144_S1x6144_1 b) (ix2 (0 : Fin 1) c)
      = (∑ k : Fin 2048, v (ix2 (0 : Fin 1) k) * w (ix2 c k)) + b (ix1 c) := by
  refine (addf_apply _ _ _).trans ?_
  refine congrArg₂ (· + ·) ((PlainDot.dotGeneral_apply gates_isPlain none _ v _ (0 : Fin 1) c).trans ?_) ?_
  · exact Finset.sum_congr rfl fun k _ => congrArg (v (ix2 (0 : Fin 1) k) * ·) (transpose_ix2_apply w _ k c)
  · exact broadcastInDim_apply _ bcast_S6144_S1x6144_1 b _ (ix1 c) (fun a => match a with
      | ⟨0, _⟩ => by show c.val = if (6144 : Nat) = 1 then 0 else c.val; rw [if_neg (by decide)])

/-- A 2048-wide cut of a 1x6144 row from column o, at column j: the row at column o + j. -/
theorem cut_apply (X : FVec Ideal S1x6144 .f32) (o : Nat) (hs : S1x6144.Slices ![0, o] S1x2048) (j : Fin 2048) (c : Fin 6144)
    (hc : c.val = o + j.val) :
    extractStridedSlice S1x2048 ![0, o] X hs (ix2 (0 : Fin 1) j) = X (ix2 (0 : Fin 1) c) :=
  slice2_axis1_apply o X hs (0 : Fin 1) j c hc

/-- The row of ones, at any column: the word of 1.0. -/
theorem onesBody_apply (j : Fin 2048) :
    broadcastInDim S1x2048 ![] bcast_S_S1x2048 (constant (F := Ideal) S_ .f32 0x3F800000#32) (ix2 (0 : Fin 1) j)
      = Ideal.ofBits .f32 0x3F800000#32 :=
  (broadcastInDim_apply _ bcast_S_S1x2048 (constant (F := Ideal) S_ .f32 0x3F800000#32) _ ix0 (fun a => a.elim0)).trans rfl

/-- The word of 1.0 is the extended real 1. -/
theorem one_word : Ideal.ofBits .f32 0x3F800000#32 = 1 := IdealRules.sign_bit.ideal_onePat .f32

/-- The logistic function spelled 1 / (1 + exp (-x)) over the word of 1.0 is the logistic function: its definition. -/
theorem sig_scalar (x : EReal) :
    Ideal.div (Ideal.ofBits .f32 0x3F800000#32) (Ideal.ofBits .f32 0x3F800000#32 + Ideal.exp (-x)) = Ideal.logistic x := by
  rw [one_word]; rfl

open Cert.ReferenceIdeal.Fns

/-- The reference's gate pre-activations at column c. -/
theorem gatesRef_apply (v : FVec Ideal S1x2048 .f32) (w : FVec Ideal S6144x2048 .f32) (b : FVec Ideal S6144 .f32) (c : Fin 6144) :
    gatesRef (F := Ideal) v w b (ix2 (0 : Fin 1) c) = (∑ k : Fin 2048, v (ix2 (0 : Fin 1) k) * w (ix2 c k)) + b (ix1 c) := by
  unfold gatesRef
  exact gatesBody_apply v w b c

/-- The reference's row of ones, at any column. -/
theorem onesRef_apply (j : Fin 2048) : onesRef (F := Ideal) (ix2 (0 : Fin 1) j) = Ideal.ofBits .f32 0x3F800000#32 := by
  unfold onesRef
  exact onesBody_apply j

/-- The reference's spelling of the logistic function, at a column: the logistic function of the entry. -/
theorem sigRef_apply (v : FVec Ideal S1x2048 .f32) (j : Fin 2048) :
    sigRef (F := Ideal) v (ix2 (0 : Fin 1) j) = Ideal.logistic (v (ix2 (0 : Fin 1) j)) := by
  show Ideal.div (onesRef (F := Ideal) (ix2 (0 : Fin 1) j)) (onesRef (F := Ideal) (ix2 (0 : Fin 1) j) + Ideal.exp (-(v (ix2 (0 : Fin 1) j)))) = _
  rw [onesRef_apply]
  exact sig_scalar _

/-- The reference's arrangement of the cell over any six gate rows and old-state row, at column j. -/
theorem cellRows_apply (a0 a1 a2 b0 b1 b2 h : FVec Ideal S1x2048 .f32) (j : Fin 2048) :
    addf (mulf (subf (onesRef (F := Ideal)) (sigRef (addf a1 b1))) (Host.tanh (addf a2 (mulf (sigRef (addf a0 b0)) b2))))
        (mulf (sigRef (addf a1 b1)) h) (ix2 (0 : Fin 1) j)
      = gruCell (a0 (ix2 (0 : Fin 1) j)) (a1 (ix2 (0 : Fin 1) j)) (a2 (ix2 (0 : Fin 1) j))
          (b0 (ix2 (0 : Fin 1) j)) (b1 (ix2 (0 : Fin 1) j)) (b2 (ix2 (0 : Fin 1) j)) (h (ix2 (0 : Fin 1) j)) := by
  show (onesRef (F := Ideal) (ix2 (0 : Fin 1) j) - sigRef (F := Ideal) (addf a1 b1) (ix2 (0 : Fin 1) j))
        * Ideal.tanh (a2 (ix2 (0 : Fin 1) j) + sigRef (F := Ideal) (addf a0 b0) (ix2 (0 : Fin 1) j) * b2 (ix2 (0 : Fin 1) j))
      + sigRef (F := Ideal) (addf a1 b1) (ix2 (0 : Fin 1) j) * h (ix2 (0 : Fin 1) j) = _
  rw [sigRef_apply, sigRef_apply, onesRef_apply]
  rfl

/-- The reference's new hidden state at column j: the cell of the six cuts of the two gate rows at j and the old
    state's entry at j. -/
theorem hnewRef_apply (g h : FVec Ideal S1x2048 .f32) (wih whh : FVec Ideal S6144x2048 .f32) (bih bhh : FVec Ideal S6144 .f32) (j : Fin 2048) :
    hnewRef (F := Ideal) g h wih whh bih bhh (ix2 (0 : Fin 1) j)
      = gruCell
          (extractStridedSlice S1x2048 ![0, 0] (gatesRef (F := Ideal) g wih bih) slices_S1x6144_S1x2048_0_0 (ix2 (0 : Fin 1) j))
          (extractStridedSlice S1x2048 ![0, 2048] (gatesRef (F := Ideal) g wih bih) slices_S1x6144_S1x2048_0_2048 (ix2 (0 : Fin 1) j))
          (extractStridedSlice S1x2048 ![0, 4096] (gatesRef (F := Ideal) g wih bih) slices_S1x6144_S1x2048_0_4096 (ix2 (0 : Fin 1) j))
          (extractStridedSlice S1x2048 ![0, 0] (gatesRef (F := Ideal) h whh bhh) slices_S1x6144_S1x2048_0_0 (ix2 (0 : Fin 1) j))
          (extractStridedSlice S1x2048 ![0, 2048] (gatesRef (F := Ideal) h whh bhh) slices_S1x6144_S1x2048_0_2048 (ix2 (0 : Fin 1) j))
          (extractStridedSlice S1x2048 ![0, 4096] (gatesRef (F := Ideal) h whh bhh) slices_S1x6144_S1x2048_0_4096 (ix2 (0 : Fin 1) j))
          (h (ix2 (0 : Fin 1) j)) := by
  unfold hnewRef
  exact cellRows_apply _ _ _ _ _ _ h j

/-- A cut of the reference's gate row from column 2048 a, at column 128 t + q: the row against row
    2048 a + 128 t + q of the matrix, plus the bias there. -/
theorem cutGates_apply (v : FVec Ideal S1x2048 .f32) (w : FVec Ideal S6144x2048 .f32) (b : FVec Ideal S6144 .f32)
    (o : Nat) (hs : S1x6144.Slices ![0, o] S1x2048) (j : Fin 2048) (c : Fin 6144) (hc : c.val = o + j.val) :
    extractStridedSlice S1x2048 ![0, o] (gatesRef (F := Ideal) v w b) hs (ix2 (0 : Fin 1) j)
      = (∑ k : Fin 2048, v (ix2 (0 : Fin 1) k) * w (ix2 c k)) + b (ix1 c) :=
  (cut_apply _ o hs j c hc).trans (gatesRef_apply v w b c)

end Cert.GruLane

/-! ## The body's lane -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx
open scoped BigOperators

namespace Lane2

open Cert.GruLane (gruCell)

/-- The contraction of the body's six products: a row against the transpose of a 128-row block. -/
theorem rowBlock_isABt : DotForms.IsABt dot_S1x2048_S128x2048_S1x128_1_1_0_0_n_n := ⟨rfl, rfl, rfl, rfl, rfl, rfl⟩

/-- A 1x2048 row times the transpose of a 128x2048 block, into the zero accumulator, at lane q: the sum over the
    2048 columns of the row's entry times the block's entry in row q. -/
theorem rowBlock_apply {φ₁ φ₂ : FTy} (v : FVec Ideal S1x2048 φ₁) (B : FVec Ideal S128x2048 φ₂) (q : Fin 128) :
    matmul dot_S1x2048_S128x2048_S1x128_1_1_0_0_n_n none v B (constant (F := Ideal) S1x128 .f32 0x00000000#32) (ix2 (0 : Fin 1) q)
      = ∑ k : Fin 2048, v (ix2 (0 : Fin 1) k) * B (ix2 q k) :=
  DotForms.abt_matmul_zero_apply rowBlock_isABt none v B (0 : Fin 1) q

/-- Gate a's 128x2048 block cut out of a [3,128,2048] stack (offset o = a on the first axis) and read as a matrix:
    entry (r, k) is the stack's entry (a, r, k). -/
theorem gateBlock_apply {φ : FTy} (w : FVec Ideal S3x128x2048 φ) (o : Nat) (hs : S3x128x2048.Slices ![o, 0, 0] S1x128x2048)
    (a : Fin 3) (ha : a.val = o) (r : Fin 128) (k : Fin 2048) :
    shapeCast S128x2048 (extractStridedSlice S1x128x2048 ![o, 0, 0] w hs) shapeCasts_S1x128x2048_S128x2048 (ix2 r k)
      = w (ix3 a r k) := by
  refine (shapeCast_1ab_ab_apply _ _ r k).trans ?_
  exact extractStridedSlice_apply _ w hs _ _ (fun ax => by
    match ax with
    | ⟨0, _⟩ => exact ha.trans (Nat.add_zero o).symm
    | ⟨1, _⟩ => exact (Nat.zero_add _).symm
    | ⟨2, _⟩ => exact (Nat.zero_add _).symm)

/-- Gate a's bias row cut out of a [3,1,128] stack and read as a 1x128 row: lane q is the stack's entry (a, 0, q). -/
theorem gateBias_apply (b : FVec Ideal S3x1x128 .f32) (o : Nat) (hs : S3x1x128.Slices ![o, 0, 0] S1x1x128)
    (a : Fin 3) (ha : a.val = o) (q : Fin 128) :
    shapeCast S1x128 (extractStridedSlice S1x1x128 ![o, 0, 0] b hs) shapeCasts_S1x1x128_S1x128 (ix2 (0 : Fin 1) q)
      = b (ix3 a (0 : Fin 1) q) := by
  refine (shapeCast_1ab_ab_apply _ _ (0 : Fin 1) q).trans ?_
  exact extractStridedSlice_apply _ b hs _ _ (fun ax => by
    match ax with
    | ⟨0, _⟩ => exact ha.trans (Nat.add_zero o).symm
    | ⟨1, _⟩ => exact (Nat.zero_add _).symm
    | ⟨2, _⟩ => exact (Nat.zero_add _).symm)

/-- One gate's pre-activation as the body spells it — a row against gate a's block, plus gate a's bias row — at
    lane q: the sum over the columns of the row times the stack's row (a, q), plus the bias at (a, 0, q). -/
theorem gatePre_apply {φ₁ φ₂ : FTy} (v : FVec Ideal S1x2048 φ₁) (w : FVec Ideal S3x128x2048 φ₂) (b : FVec Ideal S3x1x128 .f32)
    (o : Nat) (hs : S3x128x2048.Slices ![o, 0, 0] S1x128x2048) (hb : S3x1x128.Slices ![o, 0, 0] S1x1x128)
    (a : Fin 3) (ha : a.val = o) (q : Fin 128) :
    addf (matmul dot_S1x2048_S128x2048_S1x128_1_1_0_0_n_n none v
            (shapeCast S128x2048 (extractStridedSlice S1x128x2048 ![o, 0, 0] w hs) shapeCasts_S1x128x2048_S128x2048)
            (constant (F := Ideal) S1x128 .f32 0x00000000#32))
         (shapeCast S1x128 (extractStridedSlice S1x1x128 ![o, 0, 0] b hb) shapeCasts_S1x1x128_S1x128) (ix2 (0 : Fin 1) q)
      = (∑ k : Fin 2048, v (ix2 (0 : Fin 1) k) * w (ix3 a q k)) + b (ix3 a (0 : Fin 1) q) := by
  refine (addf_apply _ _ _).trans ?_
  refine congrArg₂ (· + ·) ((rowBlock_apply v _ q).trans ?_) (gateBias_apply b o hb a ha q)
  exact Finset.sum_congr rfl fun k _ => congrArg (v (ix2 (0 : Fin 1) k) * ·) (gateBlock_apply w o hs a ha q k)

/-- The body's change of format and same-shape cast leave every entry as it was: the stack of weight blocks. -/
theorem pay5_apply (w : Vec Ideal S3x128x2048 .f32) (i : S3x128x2048.Idx) : k2_pay5 (F := Ideal) w i = w i := by
  unfold k2_pay5
  exact congrFun (shapeCast_self w shapeCasts_S3x128x2048_S3x128x2048) i

theorem pay6_apply (w : Vec Ideal S3x128x2048 .f32) (i : S3x128x2048.Idx) : k2_pay6 (F := Ideal) w i = w i := by
  unfold k2_pay6
  exact congrFun (shapeCast_self w shapeCasts_S3x128x2048_S3x128x2048) i

/-- The same for the two 1x2048 rows, the row's piece and the two bias stacks. -/
theorem pay2_apply (v : Vec Ideal S1x2048 .f32) (i : S1x2048.Idx) : k2_pay2 (F := Ideal) v i = v i := by
  unfold k2_pay2
  exact congrFun (shapeCast_self v shapeCasts_S1x2048_S1x2048) i

theorem pay3_apply (v : Vec Ideal S1x2048 .f32) (i : S1x2048.Idx) : k2_pay3 (F := Ideal) v i = v i := by
  unfold k2_pay3
  exact congrFun (shapeCast_self v shapeCasts_S1x2048_S1x2048) i

theorem pay4_apply (v : Vec Ideal S1x128 .f32) (i : S1x128.Idx) : k2_pay4 (F := Ideal) v i = v i := by
  unfold k2_pay4
  exact congrFun (shapeCast_self v shapeCasts_S1x128_S1x128) i

theorem pay7_apply (b : Vec Ideal S3x1x128 .f32) (i : S3x1x128.Idx) : k2_pay7 (F := Ideal) b i = b i := by
  unfold k2_pay7
  exact congrFun (shapeCast_self b shapeCasts_S3x1x128_S3x1x128) i

theorem pay8_apply (b : Vec Ideal S3x1x128 .f32) (i : S3x1x128.Idx) : k2_pay8 (F := Ideal) b i = b i := by
  unfold k2_pay8
  exact congrFun (shapeCast_self b shapeCasts_S3x1x128_S3x1x128) i

/-- Gate a's pre-activation over the loaded row, weight stack and bias stack, at lane q. -/
def gateSum (v : Vec Ideal S1x2048 .f32) (w : Vec Ideal S3x128x2048 .f32) (b : Vec Ideal S3x1x128 .f32) (a : Fin 3) (q : Fin 128) : EReal :=
  (∑ k : Fin 2048, v (ix2 (0 : Fin 1) k) * w (ix3 a q k)) + b (ix3 a (0 : Fin 1) q)

/-- The gate pre-activation with the body's casts on its three operands. -/
theorem gatePre_cast_apply (v : Vec Ideal S1x2048 .f32) (w : Vec Ideal S3x128x2048 .f32) (b : Vec Ideal S3x1x128 .f32)
    (v' : FVec Ideal S1x2048 .bf16) (w' : FVec Ideal S3x128x2048 .bf16) (b' : FVec Ideal S3x1x128 .f32)
    (hv : ∀ i, v' i = v i) (hw : ∀ i, w' i = w i) (hb' : ∀ i, b' i = b i)
    (o : Nat) (hs : S3x128x2048.Slices ![o, 0, 0] S1x128x2048) (hb : S3x1x128.Slices ![o, 0, 0] S1x1x128)
    (a : Fin 3) (ha : a.val = o) (q : Fin 128) :
    addf (matmul dot_S1x2048_S128x2048_S1x128_1_1_0_0_n_n none v'
            (shapeCast S128x2048 (extractStridedSlice S1x128x2048 ![o, 0, 0] w' hs) shapeCasts_S1x128x2048_S128x2048)
            (constant (F := Ideal) S1x128 .f32 0x00000000#32))
         (shapeCast S1x128 (extractStridedSlice S1x1x128 ![o, 0, 0] b' hb) shapeCasts_S1x1x128_S1x128) (ix2 (0 : Fin 1) q)
      = gateSum v w b a q := by
  refine (gatePre_apply v' w' b' o hs hb a ha q).trans ?_
  unfold gateSum
  refine congrArg₂ (· + ·) (Finset.sum_congr rfl fun k _ => ?_) (hb' _)
  rw [hv, hw]

/-- The three input-side gate pre-activations the body computes ahead of the hidden-side ones. -/
theorem pay9_apply (g : Vec Ideal S1x2048 .f32) (wi : Vec Ideal S3x128x2048 .f32) (bi : Vec Ideal S3x1x128 .f32) (q : Fin 128) :
    k2_pay9 (F := Ideal) g wi bi (ix2 (0 : Fin 1) q) = gateSum g wi bi 0 q := by
  unfold k2_pay9
  exact gatePre_cast_apply g wi bi _ _ _ (pay2_apply g) (pay5_apply wi) (pay7_apply bi) 0 _ _ 0 rfl q

theorem pay10_apply (g : Vec Ideal S1x2048 .f32) (wi : Vec Ideal S3x128x2048 .f32) (bi : Vec Ideal S3x1x128 .f32) (q : Fin 128) :
    k2_pay10 (F := Ideal) g wi bi (ix2 (0 : Fin 1) q) = gateSum g wi bi 1 q := by
  unfold k2_pay10
  exact gatePre_cast_apply g wi bi _ _ _ (pay2_apply g) (pay5_apply wi) (pay7_apply bi) 1 _ _ 1 rfl q

theorem pay11_apply (g : Vec Ideal S1x2048 .f32) (wi : Vec Ideal S3x128x2048 .f32) (bi : Vec Ideal S3x1x128 .f32) (q : Fin 128) :
    k2_pay11 (F := Ideal) g wi bi (ix2 (0 : Fin 1) q) = gateSum g wi bi 2 q := by
  unfold k2_pay11
  exact gatePre_cast_apply g wi bi _ _ _ (pay2_apply g) (pay5_apply wi) (pay7_apply bi) 2 _ _ 2 rfl q

/-- The stored lane: the cell of the three input-side pre-activations handed in, the three hidden-side ones the
    body computes from the hidden row and the hidden weight and bias stacks, and the hidden row's piece. -/
theorem pay1_apply (h : Vec Ideal S1x2048 .f32) (hb : Vec Ideal S1x128 .f32) (wh : Vec Ideal S3x128x2048 .f32) (bh : Vec Ideal S3x1x128 .f32)
    (v23 v29 v35 : FVec Ideal S1x128 .f32) (q : Fin 128) :
    k2_pay1 (F := Ideal) (k2_pay3 h) (k2_pay4 hb) (k2_pay6 wh) (k2_pay8 bh) v23 v29 v35 (k2_pay12 wh) (ix2 (0 : Fin 1) q)
      = gruCell (v23 (ix2 (0 : Fin 1) q)) (v29 (ix2 (0 : Fin 1) q)) (v35 (ix2 (0 : Fin 1) q))
          (gateSum h wh bh 0 q) (gateSum h wh bh 1 q) (gateSum h wh bh 2 q) (hb (ix2 (0 : Fin 1) q)) := by
  have e0 := gatePre_cast_apply h wh bh (k2_pay3 h) (k2_pay6 wh) (k2_pay8 bh) (pay3_apply h) (pay6_apply wh) (pay8_apply bh)
    0 slices_S3x128x2048_o0_0_0_S1x128x2048 slices_S3x1x128_o0_0_0_S1x1x128 0 rfl q
  have e1 := gatePre_cast_apply h wh bh (k2_pay3 h) (k2_pay6 wh) (k2_pay8 bh) (pay3_apply h) (pay6_apply wh) (pay8_apply bh)
    1 slices_S3x128x2048_o1_0_0_S1x128x2048 slices_S3x1x128_o1_0_0_S1x1x128 1 rfl q
  have e2 := gatePre_cast_apply h wh bh (k2_pay3 h) (k2_pay6 wh) (k2_pay8 bh) (pay3_apply h) (pay6_apply wh) (pay8_apply bh)
    2 slices_S3x128x2048_o2_0_0_S1x128x2048 slices_S3x1x128_o2_0_0_S1x1x128 2 rfl q
  have e4 := pay4_apply hb (ix2 (0 : Fin 1) q)
  rw [← e0, ← e1, ← e2, ← e4]
  rfl

/-- A gate's pre-activation over the body's blocks is the reference's gate row, cut from column 2048 a, at column
    128 t + q — when the weight block's row (a, r) is row 2048 a + 128 t + r of the 6144-row matrix and the bias
    block's entry (a, 0, r) is the bias there: the two sums agree term by term. -/
theorem gate_match (v : Vec Ideal S1x2048 .f32) (w : Vec Ideal S3x128x2048 .f32) (b : Vec Ideal S3x1x128 .f32)
    (W : FVec Ideal S6144x2048 .f32) (B : FVec Ideal S6144 .f32) (t : Fin 16) (a : Fin 3)
    (hw : ∀ (r : Fin 128) (k : Fin 2048), w (ix3 a r k) = W (ix2 (⟨2048 * a.val + 128 * t.val + r.val, by omega⟩ : Fin 6144) k))
    (hb : ∀ r : Fin 128, b (ix3 a (0 : Fin 1) r) = B (ix1 (⟨2048 * a.val + 128 * t.val + r.val, by omega⟩ : Fin 6144)))
    (o : Nat) (ho : o = 2048 * a.val) (hs : Cert.ReferenceIdeal.S1x6144.Slices ![0, o] Cert.ReferenceIdeal.S1x2048) (q : Fin 128) :
    gateSum v w b a q
      = extractStridedSlice Cert.ReferenceIdeal.S1x2048 ![0, o] (Cert.ReferenceIdeal.Fns.gatesRef (F := Ideal) v W B) hs
          (ix2 (0 : Fin 1) (⟨128 * t.val + q.val, by omega⟩ : Fin 2048)) := by
  refine Eq.trans ?_ (Cert.GruLane.cutGates_apply v W B o hs _ (⟨2048 * a.val + 128 * t.val + q.val, by omega⟩ : Fin 6144)
    (by show 2048 * a.val + 128 * t.val + q.val = o + (128 * t.val + q.val); omega)).symm
  unfold gateSum
  exact congrArg₂ (· + ·) (Finset.sum_congr rfl fun k _ => congrArg (v (ix2 (0 : Fin 1) k) * ·) (hw q k)) (hb q)

end Lane2

/-- Lane q of the stored piece at point t. The hypotheses say what the body's blocks are: the hidden row's piece
    hb is h at columns 128 t + q; gate a's weight block rows are rows 2048 a + 128 t + r of the 6144-row matrices;
    gate a's bias block is the bias at 2048 a + 128 t + r. -/
theorem gru_lane (g h : Vec Ideal S1x2048 .f32) (hb : Vec Ideal S1x128 .f32) (wi wh : Vec Ideal S3x128x2048 .f32)
    (bi bh : Vec Ideal S3x1x128 .f32) (wih whh : FVec Ideal S6144x2048 .f32) (bih bhh : FVec Ideal S6144 .f32) (t : Fin 16)
    (hhb : ∀ r : Fin 128, hb (ix2 (0 : Fin 1) r) = h (ix2 (0 : Fin 1) (⟨128 * t.val + r.val, by omega⟩ : Fin 2048)))
    (hwi : ∀ (a : Fin 3) (r : Fin 128) (k : Fin 2048), wi (ix3 a r k) = wih (ix2 (⟨2048 * a.val + 128 * t.val + r.val, by omega⟩ : Fin 6144) k))
    (hwh : ∀ (a : Fin 3) (r : Fin 128) (k : Fin 2048), wh (ix3 a r k) = whh (ix2 (⟨2048 * a.val + 128 * t.val + r.val, by omega⟩ : Fin 6144) k))
    (hbi : ∀ (a : Fin 3) (r : Fin 128), bi (ix3 a (0 : Fin 1) r) = bih (ix1 (⟨2048 * a.val + 128 * t.val + r.val, by omega⟩ : Fin 6144)))
    (hbh : ∀ (a : Fin 3) (r : Fin 128), bh (ix3 a (0 : Fin 1) r) = bhh (ix1 (⟨2048 * a.val + 128 * t.val + r.val, by omega⟩ : Fin 6144)))
    (q : Fin 128) :
    k2_pay1 (F := Ideal) (k2_pay3 h) (k2_pay4 hb) (k2_pay6 wh) (k2_pay8 bh) (k2_pay9 g wi bi) (k2_pay10 g wi bi) (k2_pay11 g wi bi) (k2_pay12 wh)
        (ix2 (0 : Fin 1) q)
      = Cert.ReferenceIdeal.Fns.hnewRef (F := Ideal) g h wih whh bih bhh (ix2 (0 : Fin 1) (⟨128 * t.val + q.val, by omega⟩ : Fin 2048)) := by
  -- the body's lane is the cell of its six gate sums and the piece's entry; the reference's column is the cell of the
  -- six cuts of its two gate rows and the old state's entry
  refine (Lane2.pay1_apply h hb wh bh _ _ _ q).trans ?_
  refine Eq.trans ?_ (Cert.GruLane.hnewRef_apply g h wih whh bih bhh (⟨128 * t.val + q.val, by omega⟩ : Fin 2048)).symm
  -- the seven arguments agree one by one
  rw [Lane2.pay9_apply, Lane2.pay10_apply, Lane2.pay11_apply, hhb q,
    Lane2.gate_match g wi bi wih bih t 0 (hwi 0) (hbi 0) 0 rfl Cert.ReferenceIdeal.Gen.slices_S1x6144_S1x2048_0_0 q,
    Lane2.gate_match g wi bi wih bih t 1 (hwi 1) (hbi 1) 2048 rfl Cert.ReferenceIdeal.Gen.slices_S1x6144_S1x2048_0_2048 q,
    Lane2.gate_match g wi bi wih bih t 2 (hwi 2) (hbi 2) 4096 rfl Cert.ReferenceIdeal.Gen.slices_S1x6144_S1x2048_0_4096 q,
    Lane2.gate_match h wh bh whh bhh t 0 (hwh 0) (hbh 0) 0 rfl Cert.ReferenceIdeal.Gen.slices_S1x6144_S1x2048_0_0 q,
    Lane2.gate_match h wh bh whh bhh t 1 (hwh 1) (hbh 1) 2048 rfl Cert.ReferenceIdeal.Gen.slices_S1x6144_S1x2048_0_2048 q,
    Lane2.gate_match h wh bh whh bhh t 2 (hwh 2) (hbh 2) 4096 rfl Cert.ReferenceIdeal.Gen.slices_S1x6144_S1x2048_0_4096 q]

end Cert.KernelIdeal.Hand

end
-- ==== Proof.KI.Val2.lean ====
/-
  The recurrent-unit region's result at the exact instance: the array its sixteen write-backs leave is the
  reference's new hidden state, as a function of the arrays the region is entered from, the reshaped weight and
  bias arrays read back as the matrices and vectors they were reshaped from.

  The road: every window's block index at a point is read off once over the sixteen points; the stored piece is
  the lane arithmetic of the point's input blocks; each input block is its array read through the block's
  rectangle (a block's coordinate is block index × block size + the coordinate inside the block), and a reshaped
  array is read through the row-by-row numbering of its entries; one lane of the stored piece is then the new
  hidden state at its column, and since column j lies in the piece of point j / 128 the sixteen pieces fill the row.
-/
import proofs.«123148_j15350213116625_1_alg».proof.Proof.KI.Data2
import proofs.«123148_j15350213116625_1_alg».proof.Proof.KI.Val2Lane
import proofs.«123148_j15350213116625_1_alg».proof.Proof.Ref.Fns
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open ValueIdx

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block index of every window at every point, decided over the sixteen points: the two whole rows sit at
    block (0, 0); the hidden row's piece and the output's piece at block (0, t); the weight blocks at (0, t, 0);
    the bias blocks at (0, 0, t). -/
theorem blockIdx2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = t.val
    ∧ win2_3.index t (0 : Fin 3) = 0 ∧ win2_3.index t (1 : Fin 3) = t.val ∧ win2_3.index t (2 : Fin 3) = 0
    ∧ win2_4.index t (0 : Fin 3) = 0 ∧ win2_4.index t (1 : Fin 3) = t.val ∧ win2_4.index t (2 : Fin 3) = 0
    ∧ win2_5.index t (0 : Fin 3) = 0 ∧ win2_5.index t (1 : Fin 3) = 0 ∧ win2_5.index t (2 : Fin 3) = t.val
    ∧ win2_6.index t (0 : Fin 3) = 0 ∧ win2_6.index t (1 : Fin 3) = 0 ∧ win2_6.index t (2 : Fin 3) = t.val
    ∧ win2_7.index t (0 : Fin 2) = 0 ∧ win2_7.index t (1 : Fin 2) = t.val :=
  (by decide +kernel : ∀ t : Fin grid2.N, _)

section blocks

variable {F : FTy → Type} [FloatOps F]
variable (V : (c : Dev nD) → (b : Ref sig .tc) → Buf (Elt F) ((c : Thread nD τ).loc b))

/-- What the body stores is the lane arithmetic of the blocks themselves: every load and the one store go through
    the whole staging buffer. -/
theorem out2_7_eq (x0 x1 : Vec F S1x2048 .f32) (x2 : Vec F S1x128 .f32) (x3 x4 : Vec F S3x128x2048 .f32) (x5 x6 : Vec F S3x1x128 .f32) :
    out2_7 x0 x1 x2 x3 x4 x5 x6
      = k2_pay1 (k2_pay3 x1) (k2_pay4 x2) (k2_pay6 x4) (k2_pay8 x6) (k2_pay9 x0 x3 x5) (k2_pay10 x0 x3 x5) (k2_pay11 x0 x3 x5) (k2_pay12 x4) := by
  unfold out2_7
  rw [View.canon_unit_zero zeros2]
  simp only [View.ld_unit_zero (S := S1x2048) zeros2, View.ld_unit_zero (S := S1x128) zeros2,
    View.ld_unit_zero (S := S3x128x2048) zeros3, View.ld_unit_zero (S := S3x1x128) zeros3]

/-- Window 0's block at any point is the whole combined row. -/
theorem blk2_0 (c : Dev nD) (t : Fin cfg2.N) : (iblk2 V c 0 t : Vec F S1x2048 .f32) = (V c main_v5 : S1x2048.Idx → Elt F .f32) := by
  obtain ⟨e00, e01, -⟩ := blockIdx2 t
  funext y
  unfold iblk2
  rw [View.read_apply]
  show V c main_v5 _ = V c main_v5 y
  congr 1
  funext a; apply Fin.ext
  match a with
  | ⟨0, _⟩ => show win2_0.index t (0 : Fin 2) * 1 + 1 * (y 0).val = (y 0).val; omega
  | ⟨1, _⟩ => show win2_0.index t (1 : Fin 2) * 2048 + 1 * (y 1).val = (y 1).val; omega

end blocks

section blocks2

variable {F : FTy → Type} [FloatOps F]
variable (V : (c : Dev nD) → (b : Ref sig .tc) → Buf (Elt F) ((c : Thread nD τ).loc b))

/-- Window 1's block at any point is the whole hidden row. -/
theorem blk2_1 (c : Dev nD) (t : Fin cfg2.N) : (iblk2 V c 1 t : Vec F S1x2048 .f32) = (V c main_v1 : S1x2048.Idx → Elt F .f32) := by
  obtain ⟨-, -, e10, e11, -⟩ := blockIdx2 t
  funext y
  unfold iblk2
  rw [View.read_apply]
  show V c main_v1 _ = V c main_v1 y
  congr 1
  funext a; apply Fin.ext
  match a with
  | ⟨0, _⟩ => show win2_1.index t (0 : Fin 2) * 1 + 1 * (y 0).val = (y 0).val; omega
  | ⟨1, _⟩ => show win2_1.index t (1 : Fin 2) * 2048 + 1 * (y 1).val = (y 1).val; omega

/-- Window 2's block at point t is the hidden row at columns 128 t …. -/
theorem blk2_2 (c : Dev nD) (t : Fin cfg2.N) (y : S1x128.Idx) (k : S1x2048.Idx)
    (hk0 : (k 0).val = (y 0).val) (hk1 : (k 1).val = 128 * t.val + (y 1).val) :
    (iblk2 V c 2 t : Vec F S1x128 .f32) y = (V c main_v1 : S1x2048.Idx → Elt F .f32) k := by
  obtain ⟨-, -, -, -, e20, e21, -⟩ := blockIdx2 t
  unfold iblk2
  rw [View.read_apply]
  show V c main_v1 _ = V c main_v1 k
  congr 1
  funext a; apply Fin.ext
  match a with
  | ⟨0, _⟩ => show win2_2.index t (0 : Fin 2) * 1 + 1 * (y 0).val = (k 0).val; omega
  | ⟨1, _⟩ => show win2_2.index t (1 : Fin 2) * 128 + 1 * (y 1).val = (k 1).val; omega

/-- Window 3's block at point t is the input-side weight array at rows 128 t … of each gate. -/
theorem blk2_3 (c : Dev nD) (t : Fin cfg2.N) (y : S3x128x2048.Idx) (k : S3x2048x2048.Idx)
    (hk0 : (k 0).val = (y 0).val) (hk1 : (k 1).val = 128 * t.val + (y 1).val) (hk2 : (k 2).val = (y 2).val) :
    (iblk2 V c 3 t : Vec F S3x128x2048 .f32) y = (V c main_v6 : S3x2048x2048.Idx → Elt F .f32) k := by
  obtain ⟨-, -, -, -, -, -, e30, e31, e32, -⟩ := blockIdx2 t
  unfold iblk2
  rw [View.read_apply]
  show V c main_v6 _ = V c main_v6 k
  congr 1
  funext a; apply Fin.ext
  match a with
  | ⟨0, _⟩ => show win2_3.index t (0 : Fin 3) * 3 + 1 * (y 0).val = (k 0).val; omega
  | ⟨1, _⟩ => show win2_3.index t (1 : Fin 3) * 128 + 1 * (y 1).val = (k 1).val; omega
  | ⟨2, _⟩ => show win2_3.index t (2 : Fin 3) * 2048 + 1 * (y 2).val = (k 2).val; omega

/-- Window 4's block at point t is the hidden-side weight array at rows 128 t … of each gate. -/
theorem blk2_4 (c : Dev nD) (t : Fin cfg2.N) (y : S3x128x2048.Idx) (k : S3x2048x2048.Idx)
    (hk0 : (k 0).val = (y 0).val) (hk1 : (k 1).val = 128 * t.val + (y 1).val) (hk2 : (k 2).val = (y 2).val) :
    (iblk2 V c 4 t : Vec F S3x128x2048 .f32) y = (V c main_v7 : S3x2048x2048.Idx → Elt F .f32) k := by
  obtain ⟨-, -, -, -, -, -, -, -, -, e40, e41, e42, -⟩ := blockIdx2 t
  unfold iblk2
  rw [View.read_apply]
  show V c main_v7 _ = V c main_v7 k
  congr 1
  funext a; apply Fin.ext
  match a with
  | ⟨0, _⟩ => show win2_4.index t (0 : Fin 3) * 3 + 1 * (y 0).val = (k 0).val; omega
  | ⟨1, _⟩ => show win2_4.index t (1 : Fin 3) * 128 + 1 * (y 1).val = (k 1).val; omega
  | ⟨2, _⟩ => show win2_4.index t (2 : Fin 3) * 2048 + 1 * (y 2).val = (k 2).val; omega

/-- Window 5's block at point t is the input-side bias array at columns 128 t … of each gate. -/
theorem blk2_5 (c : Dev nD) (t : Fin cfg2.N) (y : S3x1x128.Idx) (k : S3x1x2048.Idx)
    (hk0 : (k 0).val = (y 0).val) (hk1 : (k 1).val = (y 1).val) (hk2 : (k 2).val = 128 * t.val + (y 2).val) :
    (iblk2 V c 5 t : Vec F S3x1x128 .f32) y = (V c main_v8 : S3x1x2048.Idx → Elt F .f32) k := by
  obtain ⟨-, -, -, -, -, -, -, -, -, -, -, -, e50, e51, e52, -⟩ := blockIdx2 t
  unfold iblk2
  rw [View.read_apply]
  show V c main_v8 _ = V c main_v8 k
  congr 1
  funext a; apply Fin.ext
  match a with
  | ⟨0, _⟩ => show win2_5.index t (0 : Fin 3) * 3 + 1 * (y 0).val = (k 0).val; omega
  | ⟨1, _⟩ => show win2_5.index t (1 : Fin 3) * 1 + 1 * (y 1).val = (k 1).val; omega
  | ⟨2, _⟩ => show win2_5.index t (2 : Fin 3) * 128 + 1 * (y 2).val = (k 2).val; omega

/-- Window 6's block at point t is the hidden-side bias array at columns 128 t … of each gate. -/
theorem blk2_6 (c : Dev nD) (t : Fin cfg2.N) (y : S3x1x128.Idx) (k : S3x1x2048.Idx)
    (hk0 : (k 0).val = (y 0).val) (hk1 : (k 1).val = (y 1).val) (hk2 : (k 2).val = 128 * t.val + (y 2).val) :
    (iblk2 V c 6 t : Vec F S3x1x128 .f32) y = (V c main_v9 : S3x1x2048.Idx → Elt F .f32) k := by
  obtain ⟨-, -, -, -, -, -, -, -, -, -, -, -, -, -, -, e60, e61, e62, -⟩ := blockIdx2 t
  unfold iblk2
  rw [View.read_apply]
  show V c main_v9 _ = V c main_v9 k
  congr 1
  funext a; apply Fin.ext
  match a with
  | ⟨0, _⟩ => show win2_6.index t (0 : Fin 3) * 3 + 1 * (y 0).val = (k 0).val; omega
  | ⟨1, _⟩ => show win2_6.index t (1 : Fin 3) * 1 + 1 * (y 1).val = (k 1).val; omega
  | ⟨2, _⟩ => show win2_6.index t (2 : Fin 3) * 128 + 1 * (y 2).val = (k 2).val; omega

end blocks2

/-- A column of the new hidden state's array lies in point t's block iff it lies in the block's range on each axis. -/
theorem mem_blk2_7 (t : Fin cfg2.N) (i : S1x2048.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v10).slice (win2_7.rect t)).set ↔ _
  rw [View.set_slice_whole, Rect.mem_set_unit]
  exact Iff.rfl

/-- Column j is written back by point j / 128: the sixteen 128-wide pieces fill the row. -/
theorem cover2_out (i : S1x2048.Idx) : ∃ t : Fin cfg2.N, (cfg2.win 7).flush t = true ∧ i ∈ ((cfg2.win 7).blk t).view.set := by
  have hi0 : (i 0).val < 1 := (i 0).isLt
  have hi1 : (i 1).val < 2048 := (i 1).isLt
  have hlt : (i 1).val / 128 < cfg2.N := by show _ < grid2.N; rw [N_2]; omega
  obtain ⟨t, ht⟩ : ∃ t : Fin cfg2.N, t.val = (i 1).val / 128 := ⟨⟨(i 1).val / 128, hlt⟩, rfl⟩
  refine ⟨t, flush2_7 t, ?_⟩
  rw [mem_blk2_7]
  have e := (blockIdx2 t).2.2.2.2.2.2.2.2.2.2.2.2.2.2.2.2.2.2
  obtain ⟨e70, e71⟩ := e
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 128 ≤ (i 1).val ∧ (i 1).val < win2_7.index t (1 : Fin 2) * 128 + 128; omega

/-- A 1x128 piece whose lane q is G at column 128 t + q is G read at any index of the piece. -/
theorem piece_of_lanes (P : Vec Ideal S1x128 .f32) (G : S1x2048.Idx → EReal) (tv : Nat)
    (hP : ∀ (q : Fin 128) (k : S1x2048.Idx), (k 0).val = 0 → (k 1).val = 128 * tv + q.val → P (ix2 (0 : Fin 1) q) = G k)
    (y : S1x128.Idx) (k : S1x2048.Idx) (hk0 : (k 0).val = (y 0).val) (hk1 : (k 1).val = 128 * tv + (y 1).val) : P y = G k := by
  obtain ⟨p, q, rfl⟩ : ∃ (p : Fin 1) (q : Fin 128), y = ix2 p q := ⟨y 0, y 1, eq_ix2 y⟩
  obtain rfl : p = 0 := Subsingleton.elim _ _
  exact hP q k (by rw [hk0]; rfl) hk1

section point

variable (V : (c : Dev nD) → (b : Ref sig .tc) → Buf (Elt Ideal) ((c : Thread nD τ).loc b))

/-- What point t writes back is its block of G, once every lane of the stored piece is G at its column. -/
theorem flushed2_7_eq (c : Dev nD) (G : S1x2048.Idx → EReal)
    (hG : ∀ (t : Fin cfg2.N) (q : Fin 128) (k : S1x2048.Idx), (k 0).val = 0 → (k 1).val = 128 * t.val + q.val →
      k2_pay1 (F := Ideal) (k2_pay3 (V c main_v1)) (k2_pay4 (iblk2 V c 2 t)) (k2_pay6 (iblk2 V c 4 t)) (k2_pay8 (iblk2 V c 6 t))
        (k2_pay9 (V c main_v5) (iblk2 V c 3 t) (iblk2 V c 5 t)) (k2_pay10 (V c main_v5) (iblk2 V c 3 t) (iblk2 V c 5 t))
        (k2_pay11 (V c main_v5) (iblk2 V c 3 t) (iblk2 V c 5 t)) (k2_pay12 (iblk2 V c 4 t)) (ix2 (0 : Fin 1) q) = G k)
    (t : Fin cfg2.N) :
    (dat2 V c).flushed 7 t = ((cfg2.win 7).blk t).view.read (Elt Ideal) G := by
  show (cfg2.win 7).cut (grid2.coords t) ((dat2 V c).after 7 t) = _
  rw [after2_7, out2_7_eq, blk2_0 V c t, blk2_1 V c t]
  obtain ⟨e70, e71⟩ := (blockIdx2 t).2.2.2.2.2.2.2.2.2.2.2.2.2.2.2.2.2.2
  funext j
  rw [View.read_apply]
  refine piece_of_lanes _ G t.val (hG t) _ _ ?_ ?_
  · show win2_7.index t (0 : Fin 2) * 1 + 1 * (j 0).val = (j 0).val; omega
  · show win2_7.index t (1 : Fin 2) * 128 + 1 * (j 1).val = 128 * t.val + (j 1).val; omega

/-- The array after the sixteen write-backs is G. -/
theorem arr2_7_eq (c : Dev nD) (G : S1x2048.Idx → EReal)
    (hG : ∀ (t : Fin cfg2.N) (q : Fin 128) (k : S1x2048.Idx), (k 0).val = 0 → (k 1).val = 128 * t.val + q.val →
      k2_pay1 (F := Ideal) (k2_pay3 (V c main_v1)) (k2_pay4 (iblk2 V c 2 t)) (k2_pay6 (iblk2 V c 4 t)) (k2_pay8 (iblk2 V c 6 t))
        (k2_pay9 (V c main_v5) (iblk2 V c 3 t) (iblk2 V c 5 t)) (k2_pay10 (V c main_v5) (iblk2 V c 3 t) (iblk2 V c 5 t))
        (k2_pay11 (V c main_v5) (iblk2 V c 3 t) (iblk2 V c 5 t)) (k2_pay12 (iblk2 V c 4 t)) (ix2 (0 : Fin 1) q) = G k) :
    ((dat2 (F := Ideal) V c).arrAt 7 cfg2.N : S1x2048.Idx → EReal) = G :=
  (dat2 V c).arrAt_eq_of_cover 7 G (fun t _ => flushed2_7_eq V c G hG t) cover2_out

end point

/-- A 6144x2048 matrix reshaped into three 2048x2048 gates, read at (a, r, k), is the matrix at (2048 a + r, k):
    both arrays list their entries row by row. -/
theorem gates_of_matrix (w : FVec Ideal S6144x2048 .f32) (j : S3x2048x2048.Idx) (k : S6144x2048.Idx)
    (h0 : (k 0).val = 2048 * (j 0).val + (j 1).val) (h1 : (k 1).val = (j 2).val) :
    shapeCast S3x2048x2048 w shapeCasts_S6144x2048_S3x2048x2048 j = w k := by
  refine shapeCast_apply _ _ _ _ ?_
  rw [Shape.rowMajor_val_two, Shape.rowMajor_val_three]
  show (k 0).val * 2048 + (k 1).val = ((j 0).val * 2048 + (j 1).val) * 2048 + (j 2).val
  omega

/-- A 6144-vector reshaped into three 1x2048 gates, read at (a, 0, r), is the vector at 2048 a + r. -/
theorem gates_of_vector (b : FVec Ideal S6144 .f32) (j : S3x1x2048.Idx) (k : S6144.Idx)
    (h0 : (k 0).val = 2048 * (j 0).val + (j 2).val) :
    shapeCast S3x1x2048 b shapeCasts_S6144_S3x1x2048 j = b k := by
  refine shapeCast_apply _ _ _ _ ?_
  rw [Shape.rowMajor_val_one, Shape.rowMajor_val_three]
  show (k 0).val = ((j 0).val * 1 + (j 1).val) * 2048 + (j 2).val
  have : (j 1).val < 1 := (j 1).isLt
  omega

section weights

variable (V : (c : Dev nD) → (b : Ref sig .tc) → Buf (Elt Ideal) ((c : Thread nD τ).loc b))

/-- Gate a's rows of a weight block at point t are rows 2048 a + 128 t + r of the matrix the array was reshaped from. -/
theorem wblock2_3 (c : Dev nD) (t : Fin cfg2.N) (w : FVec Ideal S6144x2048 .f32)
    (h6 : (V c main_v6 : S3x2048x2048.Idx → EReal) = shapeCast _ w shapeCasts_S6144x2048_S3x2048x2048)
    (a : Fin 3) (r : Fin 128) (k : Fin 2048) (hlt : 2048 * a.val + 128 * t.val + r.val < 6144) :
    (iblk2 V c 3 t : Vec Ideal S3x128x2048 .f32) (ix3 a r k) = w (ix2 (⟨2048 * a.val + 128 * t.val + r.val, hlt⟩ : Fin 6144) k) := by
  have ht : t.val < 16 := lt_of_lt_of_eq t.isLt (N_2 : cfg2.N = 16)
  refine (blk2_3 V c t (ix3 a r k) (ix3 a (⟨128 * t.val + r.val, by have := r.isLt; omega⟩ : Fin 2048) k) rfl rfl rfl).trans ?_
  refine (congrFun h6 _).trans ?_
  exact gates_of_matrix w _ _ (by show 2048 * a.val + 128 * t.val + r.val = 2048 * a.val + (128 * t.val + r.val); omega) rfl

theorem wblock2_4 (c : Dev nD) (t : Fin cfg2.N) (w : FVec Ideal S6144x2048 .f32)
    (h7 : (V c main_v7 : S3x2048x2048.Idx → EReal) = shapeCast _ w shapeCasts_S6144x2048_S3x2048x2048)
    (a : Fin 3) (r : Fin 128) (k : Fin 2048) (hlt : 2048 * a.val + 128 * t.val + r.val < 6144) :
    (iblk2 V c 4 t : Vec Ideal S3x128x2048 .f32) (ix3 a r k) = w (ix2 (⟨2048 * a.val + 128 * t.val + r.val, hlt⟩ : Fin 6144) k) := by
  have ht : t.val < 16 := lt_of_lt_of_eq t.isLt (N_2 : cfg2.N = 16)
  refine (blk2_4 V c t (ix3 a r k) (ix3 a (⟨128 * t.val + r.val, by have := r.isLt; omega⟩ : Fin 2048) k) rfl rfl rfl).trans ?_
  refine (congrFun h7 _).trans ?_
  exact gates_of_matrix w _ _ (by show 2048 * a.val + 128 * t.val + r.val = 2048 * a.val + (128 * t.val + r.val); omega) rfl

/-- Gate a's entries of a bias block at point t are entries 2048 a + 128 t + r of the vector the array was reshaped from. -/
theorem bblock2_5 (c : Dev nD) (t : Fin cfg2.N) (b : FVec Ideal S6144 .f32)
    (h8 : (V c main_v8 : S3x1x2048.Idx → EReal) = shapeCast _ b shapeCasts_S6144_S3x1x2048)
    (a : Fin 3) (r : Fin 128) (hlt : 2048 * a.val + 128 * t.val + r.val < 6144) :
    (iblk2 V c 5 t : Vec Ideal S3x1x128 .f32) (ix3 a (0 : Fin 1) r) = b (ix1 (⟨2048 * a.val + 128 * t.val + r.val, hlt⟩ : Fin 6144)) := by
  have ht : t.val < 16 := lt_of_lt_of_eq t.isLt (N_2 : cfg2.N = 16)
  refine (blk2_5 V c t (ix3 a (0 : Fin 1) r) (ix3 a (0 : Fin 1) (⟨128 * t.val + r.val, by have := r.isLt; omega⟩ : Fin 2048)) rfl rfl rfl).trans ?_
  refine (congrFun h8 _).trans ?_
  exact gates_of_vector b _ _ (by show 2048 * a.val + 128 * t.val + r.val = 2048 * a.val + (128 * t.val + r.val); omega)

theorem bblock2_6 (c : Dev nD) (t : Fin cfg2.N) (b : FVec Ideal S6144 .f32)
    (h9 : (V c main_v9 : S3x1x2048.Idx → EReal) = shapeCast _ b shapeCasts_S6144_S3x1x2048)
    (a : Fin 3) (r : Fin 128) (hlt : 2048 * a.val + 128 * t.val + r.val < 6144) :
    (iblk2 V c 6 t : Vec Ideal S3x1x128 .f32) (ix3 a (0 : Fin 1) r) = b (ix1 (⟨2048 * a.val + 128 * t.val + r.val, hlt⟩ : Fin 6144)) := by
  have ht : t.val < 16 := lt_of_lt_of_eq t.isLt (N_2 : cfg2.N = 16)
  refine (blk2_6 V c t (ix3 a (0 : Fin 1) r) (ix3 a (0 : Fin 1) (⟨128 * t.val + r.val, by have := r.isLt; omega⟩ : Fin 2048)) rfl rfl rfl).trans ?_
  refine (congrFun h9 _).trans ?_
  exact gates_of_vector b _ _ (by show 2048 * a.val + 128 * t.val + r.val = 2048 * a.val + (128 * t.val + r.val); omega)

end weights

variable (V : (c : Dev nD) → (b : Ref sig .tc) → Buf (Elt Ideal) ((c : Thread nD τ).loc b))

/-- The new hidden state's array after the region. -/
theorem hnew_eq (c : Dev nD) (wih whh : FVec Ideal S6144x2048 .f32) (bih bhh : FVec Ideal S6144 .f32)
    (h6 : (V c main_v6 : S3x2048x2048.Idx → EReal) = shapeCast _ wih shapeCasts_S6144x2048_S3x2048x2048)
    (h7 : (V c main_v7 : S3x2048x2048.Idx → EReal) = shapeCast _ whh shapeCasts_S6144x2048_S3x2048x2048)
    (h8 : (V c main_v8 : S3x1x2048.Idx → EReal) = shapeCast _ bih shapeCasts_S6144_S3x1x2048)
    (h9 : (V c main_v9 : S3x1x2048.Idx → EReal) = shapeCast _ bhh shapeCasts_S6144_S3x1x2048) :
    ((dat2 (F := Ideal) V c).arrAt 7 cfg2.N : S1x2048.Idx → EReal)
      = Cert.ReferenceIdeal.Fns.hnewRef (F := Ideal) (V c main_v5) (V c main_v1) wih whh bih bhh := by
  -- it suffices that lane q of the piece stored at point t is the new hidden state at column 128 t + q
  refine arr2_7_eq V c _ ?_
  intro t q
  have ht : t.val < 16 := lt_of_lt_of_eq t.isLt (N_2 : cfg2.N = 16)
  have hcol : 128 * t.val + q.val < 2048 := by have := q.isLt; omega
  intro k hk0 hk1
  obtain rfl : k = ix2 (0 : Fin 1) (⟨128 * t.val + q.val, hcol⟩ : Fin 2048) := by
    funext a
    match a with
    | ⟨0, _⟩ => exact Fin.ext hk0
    | ⟨1, _⟩ => exact Fin.ext hk1
  -- the point's blocks are the pieces of the hidden row, the matrices and the vectors that one lane asks for
  exact gru_lane (V c main_v5) (V c main_v1) (iblk2 V c 2 t) (iblk2 V c 3 t) (iblk2 V c 4 t) (iblk2 V c 5 t) (iblk2 V c 6 t)
    wih whh bih bhh ⟨t.val, ht⟩
    (fun r => blk2_2 V c t (ix2 (0 : Fin 1) r) (ix2 (0 : Fin 1) (⟨128 * t.val + r.val, by have := r.isLt; omega⟩ : Fin 2048)) rfl rfl)
    (fun a r k => wblock2_3 V c t wih h6 a r k _)
    (fun a r k => wblock2_4 V c t whh h7 a r k _)
    (fun a r => bblock2_5 V c t bih h8 a r _)
    (fun a r => bblock2_6 V c t bhh h9 a r _)
    q

end Cert.KernelIdeal.Hand

end
-- ==== Proof.KI.Chain.lean ====
/-
  The program's result arrays at the exact instance as the reference's stage functions of the launch arrays: the
  attention weights, the context row, the rectified combination and the new hidden row, each region's value
  read at the boundary contents the regions before it left.
-/
import proofs.«123148_j15350213116625_1_alg».proof.Proof.KI.Readback
import proofs.«123148_j15350213116625_1_alg».proof.Proof.KI.Val0
import proofs.«123148_j15350213116625_1_alg».proof.Proof.KI.Val1
import proofs.«123148_j15350213116625_1_alg».proof.Proof.KI.Val2
import proofs.«123148_j15350213116625_1_alg».proof.Proof.Ref.Fns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- The attention weights as the reference's function of the launch arrays. -/
def awK (c : Dev nD) : S1x350.Idx → EReal :=
  Cert.ReferenceIdeal.Fns.awRef (F := Ideal)
    (shapeCast _ (m ((c : Thread nD τ).loc main_arg0)) shapeCasts_S1x1x2048_S1x2048)
    (shapeCast _ (m ((c : Thread nD τ).loc main_arg1)) shapeCasts_S1x1x2048_S1x2048)
    (m ((c : Thread nD τ).loc main_arg3)) (m ((c : Thread nD τ).loc main_arg4))
/-- The context row. -/
def ctxK (c : Dev nD) : S1x2048.Idx → EReal :=
  Cert.ReferenceIdeal.Fns.ctxRef (F := Ideal) (awK m c) (m ((c : Thread nD τ).loc main_arg2))
/-- The rectified combination. -/
def gK (c : Dev nD) : S1x2048.Idx → EReal :=
  Cert.ReferenceIdeal.Fns.gRef (F := Ideal)
    (shapeCast _ (m ((c : Thread nD τ).loc main_arg0)) shapeCasts_S1x1x2048_S1x2048)
    (ctxK m c) (m ((c : Thread nD τ).loc main_arg5)) (m ((c : Thread nD τ).loc main_arg6))
/-- The new hidden row. -/
def hnewK (c : Dev nD) : S1x2048.Idx → EReal :=
  Cert.ReferenceIdeal.Fns.hnewRef (F := Ideal) (gK m c)
    (shapeCast _ (m ((c : Thread nD τ).loc main_arg1)) shapeCasts_S1x1x2048_S1x2048)
    (m ((c : Thread nD τ).loc main_arg7)) (m ((c : Thread nD τ).loc main_arg8))
    (m ((c : Thread nD τ).loc main_arg9)) (m ((c : Thread nD τ).loc main_arg10))

theorem aw_k (c : Dev nD) : ((dat0 (F := Ideal) (V1 m) c).arrAt 5 cfg0.N : S1x350.Idx → EReal) = awK m c := by
  have h := aw_eq (V1 m) c (m ((c : Thread nD τ).loc main_arg4)) (V1_v2 m c)
  rw [V1_v0 m c, V1_v1 m c, V1_arg3 m c] at h
  exact h

theorem ctx_k (c : Dev nD) : ((dat0 (F := Ideal) (V1 m) c).arrAt 6 cfg0.N : S1x2048.Idx → EReal) = ctxK m c := by
  have h := ctx_eq (V1 m) c (m ((c : Thread nD τ).loc main_arg4)) (V1_v2 m c)
  rw [V1_v0 m c, V1_v1 m c, V1_arg3 m c, V1_arg2 m c] at h
  exact h

theorem g_k (c : Dev nD) : ((dat1 (F := Ideal) (V3 m) c).arrAt 4 cfg1.N : S1x2048.Idx → EReal) = gK m c := by
  have h := g_eq (V3 m) c (m ((c : Thread nD τ).loc main_arg6)) (V3_v4 m c)
  rw [V3_v0 m c, V3_v3_1 m c, V3_arg5 m c, ctx_k m c] at h
  exact h

theorem hnew_k (c : Dev nD) : ((dat2 (F := Ideal) (V5 m) c).arrAt 7 cfg2.N : S1x2048.Idx → EReal) = hnewK m c := by
  have h := hnew_eq (V5 m) c (m ((c : Thread nD τ).loc main_arg7)) (m ((c : Thread nD τ).loc main_arg8))
    (m ((c : Thread nD τ).loc main_arg9)) (m ((c : Thread nD τ).loc main_arg10)) (V5_v6 m c) (V5_v7 m c) (V5_v8 m c) (V5_v9 m c)
  rw [V5_v5 m c, V5_v1 m c, g_k m c] at h
  exact h

end Cert.KernelIdeal.Hand

end
-- ==== Proof.KI.OutShape.lean ====
/-
  The returned arrays' layout: a 1x2048 row reshaped to 1x1x2048 (the kernel's program) is the row with a unit
  axis put in front by a broadcast along axes 1 and 2 (the reference's program): entry (0, 0, k) of either is
  entry (0, k) of the row.
-/
import proofs.«123148_j15350213116625_1_alg».proof.KernelIdeal
import proofs.«123148_j15350213116625_1_alg».proof.ReferenceIdeal
import Idealize.ShloMosaic.Lib.Pipeline.Value
import Idealize.ShloMosaic.Lib.ValueIdx

noncomputable section

namespace Cert.KernelIdeal.Hand

open Idealize.ShloMosaic Idealize.ShloMosaic.TcCoe

theorem reshape_eq_broadcast {α : Type} (h1 : Cert.KernelIdeal.S1x2048.ShapeCasts Cert.KernelIdeal.S1x1x2048)
    (h2 : Cert.ReferenceIdeal.S1x2048.BroadcastsInDim Cert.ReferenceIdeal.S1x1x2048 (![1, 2] : Fin 2 → Fin Cert.ReferenceIdeal.S1x1x2048.rank))
    (v : Cert.KernelIdeal.S1x2048.Idx → α) :
    shapeCast Cert.KernelIdeal.S1x1x2048 v h1 = broadcastInDim Cert.ReferenceIdeal.S1x1x2048 ![1, 2] h2 v := by
  -- both sides at (i0, i1, k) are the row at (0, k): the reshape keeps the row-major position, and i0 = i1 = 0
  -- on the two unit axes; the broadcast reads axis 2 for the row's long axis and 0 on the row's unit axis
  funext i
  have e0 : (i 0).val = 0 := by have h : (i 0).val < 1 := (i 0).isLt; omega
  have e1 : (i 1).val = 0 := by have h : (i 1).val < 1 := (i 1).isLt; omega
  refine (shapeCast_apply v h1 i (fun a => match a with
      | ⟨0, _⟩ => ⟨0, Nat.one_pos⟩
      | ⟨1, _⟩ => ⟨(i 2).val, (i 2).isLt⟩) ?_).trans (broadcastInDim_apply _ h2 v i _ (fun a => match a with
      | ⟨0, _⟩ => by show 0 = if (1 : Nat) = 1 then 0 else (i 1).val; rw [if_pos rfl]
      | ⟨1, _⟩ => by show (i 2).val = if (2048 : Nat) = 1 then 0 else (i 2).val; rw [if_neg (by decide)])).symm
  rw [Shape.rowMajor_val_two, Shape.rowMajor_val_three]
  show 0 * 2048 + (i 2).val = ((i 0).val * 1 + (i 1).val) * 2048 + (i 2).val
  omega

end Cert.KernelIdeal.Hand

end
-- ==== Proof.Ref.RunChunks.lean ====
/-
  The reference's run, read in three stretches. The reference is a straight line of 73 host operations; it
  joins two rows side by side twice, once to form the attention logits' left operand and once to form the
  combination's. Cutting the line before each of those joins leaves three stretches in which every joined row
  is a value the stretch finds, not one it computes: the two reshapes; the attention weights and the context row;
  the combination, the gates and the new hidden row. Each stretch, started from any contents, writes its results as
  the reference's stage functions of the contents it finds and leaves what it does not write; the three in a row
  are the whole line.
-/
import proofs.«123148_j15350213116625_1_alg».proof.Proof.Ref.Fns
import Idealize.ShloMosaic.Lib.StableHlo.Run
import Idealize.ShloMosaic.Lib.Pipeline.Frame

noncomputable section

namespace Cert.ReferenceIdeal.Fns

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The reference's 73 operations, in order (a called function's operations stand in its call's place). -/
abbrev ops : List (HloOp τ sig (Elt F)) :=
  [ reshape main_arg0 main_v0 rfl shapeCasts_S1x1x2048_S1x2048,
    reshape main_arg1 main_v1 rfl shapeCasts_S1x1x2048_S1x2048,
    binary main_v0 main_v1 main_v2 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg3 main_v3 ((transpose S4096x350 [1, 0] · transposes_S350x4096_S4096x350_1_0) : (⟨S350x4096, .f32⟩ : BufTy).Contents (Elt F) → (⟨S4096x350, .f32⟩ : BufTy).Contents (Elt F)),
    binary main_v2 main_v3 main_v4 ((fun l r => Host.dotGeneral dot_S1x4096_S4096x350_S1x350_1_0_0_1_n_n none l r) : (⟨S1x4096, .f32⟩ : BufTy).Contents (Elt F) → (⟨S4096x350, .f32⟩ : BufTy).Contents (Elt F) → (⟨S1x350, .f32⟩ : BufTy).Contents (Elt F)),
    unary main_arg4 main_v5 (broadcastInDim S1x350 ![1] bcast_S350_S1x350_1 : (⟨S350, .f32⟩ : BufTy).Contents (Elt F) → (⟨S1x350, .f32⟩ : BufTy).Contents (Elt F)),
    binary main_v4 main_v5 main_v6 (addf : (⟨S1x350, .f32⟩ : BufTy).Contents (Elt F) → (⟨S1x350, .f32⟩ : BufTy).Contents (Elt F) → (⟨S1x350, .f32⟩ : BufTy).Contents (Elt F)),
    nullary main_cst (constant S_ .f32 0xFF800000#32),
    binary main_v6 main_cst main_v7 ((fun x v => Host.reduce FloatOps.maximumf x v reducesTo_S1x350_S1_d1 h_S_) : (⟨S1x350, .f32⟩ : BufTy).Contents (Elt F) → (⟨S_, .f32⟩ : BufTy).Contents (Elt F) → (⟨S1, .f32⟩ : BufTy).Contents (Elt F)),
    nullary main_cst_0 (constant S_ .f32 0xFF800000#32),
    unary main_cst_0 main_v8 (broadcastInDim S1 ![] bcast_S_S1 : (⟨S_, .f32⟩ : BufTy).Contents (Elt F) → (⟨S1, .f32⟩ : BufTy).Contents (Elt F)),
    binary main_v8 main_v7 main_v9 (maximumf : (⟨S1, .f32⟩ : BufTy).Contents (Elt F) → (⟨S1, .f32⟩ : BufTy).Contents (Elt F) → (⟨S1, .f32⟩ : BufTy).Contents (Elt F)),
    unary main_v9 main_v10 (broadcastInDim S1x1 ![0] bcast_S1_S1x1_0 : (⟨S1, .f32⟩ : BufTy).Contents (Elt F) → (⟨S1x1, .f32⟩ : BufTy).Contents (Elt F)),
    unary main_v10 main_v11 (broadcastInDim S1x350 ![0, 1] bcast_S1x1_S1x350_0_1 : (⟨S1x1, .f32⟩ : BufTy).Contents (Elt F) → (⟨S1x350, .f32⟩ : BufTy).Contents (Elt F)),
    binary main_v6 main_v11 main_v12 (subf : (⟨S1x350, .f32⟩ : BufTy).Contents (Elt F) → (⟨S1x350, .f32⟩ : BufTy).Contents (Elt F) → (⟨S1x350, .f32⟩ : BufTy).Contents (Elt F)),
    unary main_v12 main_v13 (Host.exp : (⟨S1x350, .f32⟩ : BufTy).Contents (Elt F) → (⟨S1x350, .f32⟩ : BufTy).Contents (Elt F)),
    nullary main_cst_1 (constant S_ .f32 0x00000000#32),
    binary main_v13 main_cst_1 main_v14 ((fun x v => Host.reduceAdd x v reducesTo_S1x350_S1_d1 h_S_) : (⟨S1x350, .f32⟩ : BufTy).Contents (Elt F) → (⟨S_, .f32⟩ : BufTy).Contents (Elt F) → (⟨S1, .f32⟩ : BufTy).Contents (Elt F)),
    unary main_v14 main_v15 (broadcastInDim S1x1 ![0] bcast_S1_S1x1_0 : (⟨S1, .f32⟩ : BufTy).Contents (Elt F) → (⟨S1x1, .f32⟩ : BufTy).Contents (Elt F)),
    unary main_v15 main_v16 (broadcastInDim S1x350 ![0, 1] bcast_S1x1_S1x350_0_1 : (⟨S1x1, .f32⟩ : BufTy).Contents (Elt F) → (⟨S1x350, .f32⟩ : BufTy).Contents (Elt F)),
    binary main_v13 main_v16 main_v17 (Host.divf : (⟨S1x350, .f32⟩ : BufTy).Contents (Elt F) → (⟨S1x350, .f32⟩ : BufTy).Contents (Elt F) → (⟨S1x350, .f32⟩ : BufTy).Contents (Elt F)),
    binary main_v17 main_arg2 main_v18 ((fun l r => Host.dotGeneral dot_S1x350_S350x2048_S1x2048_1_0_0_1_n_n none l r) : (⟨S1x350, .f32⟩ : BufTy).Contents (Elt F) → (⟨S350x2048, .f32⟩ : BufTy).Contents (Elt F) → (⟨S1x2048, .f32⟩ : BufTy).Contents (Elt F)),
    binary main_v0 main_v18 main_v19 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg5 main_v20 ((transpose S4096x2048 [1, 0] · transposes_S2048x4096_S4096x2048_1_0) : (⟨S2048x4096, .f32⟩ : BufTy).Contents (Elt F) → (⟨S4096x2048, .f32⟩ : BufTy).Contents (Elt F)),
    binary main_v19 main_v20 main_v21 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    unary main_arg6 main_v22 (broadcastInDim S1x2048 ![1] bcast_S2048_S1x2048_1 : (⟨S2048, .f32⟩ : BufTy).Contents (Elt F) → (⟨S1x2048, .f32⟩ : BufTy).Contents (Elt F)),
    binary main_v21 main_v22 main_v23 (addf : (⟨S1x2048, .f32⟩ : BufTy).Contents (Elt F) → (⟨S1x2048, .f32⟩ : BufTy).Contents (Elt F) → (⟨S1x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x2048, .f32⟩) main_call0_v0) (broadcastInDim S1x2048 ![] bcast_S_S1x2048),
    TRef.binary (TRef.of (T := ⟨S1x2048, .f32⟩) main_v23) (TRef.of (T := ⟨S1x2048, .f32⟩) main_call0_v0) (TRef.of (T := ⟨S1x2048, .f32⟩) main_v24) maximumf,
    unary main_arg7 main_v25 ((transpose S2048x6144 [1, 0] · transposes_S6144x2048_S2048x6144_1_0) : (⟨S6144x2048, .f32⟩ : BufTy).Contents (Elt F) → (⟨S2048x6144, .f32⟩ : BufTy).Contents (Elt F)),
    binary main_v24 main_v25 main_v26 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg9 main_v27 (broadcastInDim S1x6144 ![1] bcast_S6144_S1x6144_1 : (⟨S6144, .f32⟩ : BufTy).Contents (Elt F) → (⟨S1x6144, .f32⟩ : BufTy).Contents (Elt F)),
    binary main_v26 main_v27 main_v28 (addf : (⟨S1x6144, .f32⟩ : BufTy).Contents (Elt F) → (⟨S1x6144, .f32⟩ : BufTy).Contents (Elt F) → (⟨S1x6144, .f32⟩ : BufTy).Contents (Elt F)),
    unary main_arg8 main_v29 ((transpose S2048x6144 [1, 0] · transposes_S6144x2048_S2048x6144_1_0) : (⟨S6144x2048, .f32⟩ : BufTy).Contents (Elt F) → (⟨S2048x6144, .f32⟩ : BufTy).Contents (Elt F)),
    binary main_v1 main_v29 main_v30 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg10 main_v31 (broadcastInDim S1x6144 ![1] bcast_S6144_S1x6144_1 : (⟨S6144, .f32⟩ : BufTy).Contents (Elt F) → (⟨S1x6144, .f32⟩ : BufTy).Contents (Elt F)),
    binary main_v30 main_v31 main_v32 (addf : (⟨S1x6144, .f32⟩ : BufTy).Contents (Elt F) → (⟨S1x6144, .f32⟩ : BufTy).Contents (Elt F) → (⟨S1x6144, .f32⟩ : BufTy).Contents (Elt F)),
    unary main_v28 main_v33 ((extractStridedSlice S1x2048 ![0, 0] · slices_S1x6144_S1x2048_0_0) : (⟨S1x6144, .f32⟩ : BufTy).Contents (Elt F) → (⟨S1x2048, .f32⟩ : BufTy).Contents (Elt F)),
    unary main_v28 main_v34 ((extractStridedSlice S1x2048 ![0, 2048] · slices_S1x6144_S1x2048_0_2048) : (⟨S1x6144, .f32⟩ : BufTy).Contents (Elt F) → (⟨S1x2048, .f32⟩ : BufTy).Contents (Elt F)),
    unary main_v28 main_v35 ((extractStridedSlice S1x2048 ![0, 4096] · slices_S1x6144_S1x2048_0_4096) : (⟨S1x6144, .f32⟩ : BufTy).Contents (Elt F) → (⟨S1x2048, .f32⟩ : BufTy).Contents (Elt F)),
    unary main_v32 main_v36 ((extractStridedSlice S1x2048 ![0, 0] · slices_S1x6144_S1x2048_0_0) : (⟨S1x6144, .f32⟩ : BufTy).Contents (Elt F) → (⟨S1x2048, .f32⟩ : BufTy).Contents (Elt F)),
    unary main_v32 main_v37 ((extractStridedSlice S1x2048 ![0, 2048] · slices_S1x6144_S1x2048_0_2048) : (⟨S1x6144, .f32⟩ : BufTy).Contents (Elt F) → (⟨S1x2048, .f32⟩ : BufTy).Contents (Elt F)),
    unary main_v32 main_v38 ((extractStridedSlice S1x2048 ![0, 4096] · slices_S1x6144_S1x2048_0_4096) : (⟨S1x6144, .f32⟩ : BufTy).Contents (Elt F) → (⟨S1x2048, .f32⟩ : BufTy).Contents (Elt F)),
    binary main_v33 main_v36 main_v39 (addf : (⟨S1x2048, .f32⟩ : BufTy).Contents (Elt F) → (⟨S1x2048, .f32⟩ : BufTy).Contents (Elt F) → (⟨S1x2048, .f32⟩ : BufTy).Contents (Elt F)),
    unary main_v39 main_v40 (Host.negf : (⟨S1x2048, .f32⟩ : BufTy).Contents (Elt F) → (⟨S1x2048, .f32⟩ : BufTy).Contents (Elt F)),
    unary main_v40 main_v41 (Host.exp : (⟨S1x2048, .f32⟩ : BufTy).Contents (Elt F) → (⟨S1x2048, .f32⟩ : BufTy).Contents (Elt F)),
    nullary main_cst_2 (constant S_ .f32 0x3F800000#32),
    unary main_cst_2 main_v42 (broadcastInDim S1x2048 ![] bcast_S_S1x2048 : (⟨S_, .f32⟩ : BufTy).Contents (Elt F) → (⟨S1x2048, .f32⟩ : BufTy).Contents (Elt F)),
    binary main_v42 main_v41 main_v43 (addf : (⟨S1x2048, .f32⟩ : BufTy).Contents (Elt F) → (⟨S1x2048, .f32⟩ : BufTy).Contents (Elt F) → (⟨S1x2048, .f32⟩ : BufTy).Contents (Elt F)),
    nullary main_cst_3 (constant S_ .f32 0x3F800000#32),
    unary main_cst_3 main_v44 (broadcastInDim S1x2048 ![] bcast_S_S1x2048 : (⟨S_, .f32⟩ : BufTy).Contents (Elt F) → (⟨S1x2048, .f32⟩ : BufTy).Contents (Elt F)),
    binary main_v44 main_v43 main_v45 (Host.divf : (⟨S1x2048, .f32⟩ : BufTy).Contents (Elt F) → (⟨S1x2048, .f32⟩ : BufTy).Contents (Elt F) → (⟨S1x2048, .f32⟩ : BufTy).Contents (Elt F)),
    binary main_v34 main_v37 main_v46 (addf : (⟨S1x2048, .f32⟩ : BufTy).Contents (Elt F) → (⟨S1x2048, .f32⟩ : BufTy).Contents (Elt F) → (⟨S1x2048, .f32⟩ : BufTy).Contents (Elt F)),
    unary main_v46 main_v47 (Host.negf : (⟨S1x2048, .f32⟩ : BufTy).Contents (Elt F) → (⟨S1x2048, .f32⟩ : BufTy).Contents (Elt F)),
    unary main_v47 main_v48 (Host.exp : (⟨S1x2048, .f32⟩ : BufTy).Contents (Elt F) → (⟨S1x2048, .f32⟩ : BufTy).Contents (Elt F)),
    nullary main_cst_4 (constant S_ .f32 0x3F800000#32),
    unary main_cst_4 main_v49 (broadcastInDim S1x2048 ![] bcast_S_S1x2048 : (⟨S_, .f32⟩ : BufTy).Contents (Elt F) → (⟨S1x2048, .f32⟩ : BufTy).Contents (Elt F)),
    binary main_v49 main_v48 main_v50 (addf : (⟨S1x2048, .f32⟩ : BufTy).Contents (Elt F) → (⟨S1x2048, .f32⟩ : BufTy).Contents (Elt F) → (⟨S1x2048, .f32⟩ : BufTy).Contents (Elt F)),
    nullary main_cst_5 (constant S_ .f32 0x3F800000#32),
    unary main_cst_5 main_v51 (broadcastInDim S1x2048 ![] bcast_S_S1x2048 : (⟨S_, .f32⟩ : BufTy).Contents (Elt F) → (⟨S1x2048, .f32⟩ : BufTy).Contents (Elt F)),
    binary main_v51 main_v50 main_v52 (Host.divf : (⟨S1x2048, .f32⟩ : BufTy).Contents (Elt F) → (⟨S1x2048, .f32⟩ : BufTy).Contents (Elt F) → (⟨S1x2048, .f32⟩ : BufTy).Contents (Elt F)),
    binary main_v45 main_v38 main_v53 (mulf : (⟨S1x2048, .f32⟩ : BufTy).Contents (Elt F) → (⟨S1x2048, .f32⟩ : BufTy).Contents (Elt F) → (⟨S1x2048, .f32⟩ : BufTy).Contents (Elt F)),
    binary main_v35 main_v53 main_v54 (addf : (⟨S1x2048, .f32⟩ : BufTy).Contents (Elt F) → (⟨S1x2048, .f32⟩ : BufTy).Contents (Elt F) → (⟨S1x2048, .f32⟩ : BufTy).Contents (Elt F)),
    unary main_v54 main_v55 (Host.tanh : (⟨S1x2048, .f32⟩ : BufTy).Contents (Elt F) → (⟨S1x2048, .f32⟩ : BufTy).Contents (Elt F)),
    nullary main_cst_6 (constant S_ .f32 0x3F800000#32),
    unary main_cst_6 main_v56 (broadcastInDim S1x2048 ![] bcast_S_S1x2048 : (⟨S_, .f32⟩ : BufTy).Contents (Elt F) → (⟨S1x2048, .f32⟩ : BufTy).Contents (Elt F)),
    binary main_v56 main_v52 main_v57 (subf : (⟨S1x2048, .f32⟩ : BufTy).Contents (Elt F) → (⟨S1x2048, .f32⟩ : BufTy).Contents (Elt F) → (⟨S1x2048, .f32⟩ : BufTy).Contents (Elt F)),
    binary main_v57 main_v55 main_v58 (mulf : (⟨S1x2048, .f32⟩ : BufTy).Contents (Elt F) → (⟨S1x2048, .f32⟩ : BufTy).Contents (Elt F) → (⟨S1x2048, .f32⟩ : BufTy).Contents (Elt F)),
    binary main_v52 main_v1 main_v59 (mulf : (⟨S1x2048, .f32⟩ : BufTy).Contents (Elt F) → (⟨S1x2048, .f32⟩ : BufTy).Contents (Elt F) → (⟨S1x2048, .f32⟩ : BufTy).Contents (Elt F)),
    binary main_v58 main_v59 main_v60 (addf : (⟨S1x2048, .f32⟩ : BufTy).Contents (Elt F) → (⟨S1x2048, .f32⟩ : BufTy).Contents (Elt F) → (⟨S1x2048, .f32⟩ : BufTy).Contents (Elt F)),
    unary main_v60 main_v61 (broadcastInDim S1x1x2048 ![1, 2] bcast_S1x2048_S1x1x2048_1_2 : (⟨S1x2048, .f32⟩ : BufTy).Contents (Elt F) → (⟨S1x1x2048, .f32⟩ : BufTy).Contents (Elt F)),
    unary main_v60 main_v62 (broadcastInDim S1x1x2048 ![1, 2] bcast_S1x2048_S1x1x2048_1_2 : (⟨S1x2048, .f32⟩ : BufTy).Contents (Elt F) → (⟨S1x1x2048, .f32⟩ : BufTy).Contents (Elt F)) ]

/-- First stretch: the two input rows reshaped. -/
abbrev opsA : List (HloOp τ sig (Elt F)) :=
  [ reshape main_arg0 main_v0 rfl shapeCasts_S1x1x2048_S1x2048,
    reshape main_arg1 main_v1 rfl shapeCasts_S1x1x2048_S1x2048 ]

/-- Second stretch: from the two rows side by side to the attention weights and the context row. -/
abbrev opsB : List (HloOp τ sig (Elt F)) :=
  [ binary main_v0 main_v1 main_v2 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg3 main_v3 ((transpose S4096x350 [1, 0] · transposes_S350x4096_S4096x350_1_0) : (⟨S350x4096, .f32⟩ : BufTy).Contents (Elt F) → (⟨S4096x350, .f32⟩ : BufTy).Contents (Elt F)),
    binary main_v2 main_v3 main_v4 ((fun l r => Host.dotGeneral dot_S1x4096_S4096x350_S1x350_1_0_0_1_n_n none l r) : (⟨S1x4096, .f32⟩ : BufTy).Contents (Elt F) → (⟨S4096x350, .f32⟩ : BufTy).Contents (Elt F) → (⟨S1x350, .f32⟩ : BufTy).Contents (Elt F)),
    unary main_arg4 main_v5 (broadcastInDim S1x350 ![1] bcast_S350_S1x350_1 : (⟨S350, .f32⟩ : BufTy).Contents (Elt F) → (⟨S1x350, .f32⟩ : BufTy).Contents (Elt F)),
    binary main_v4 main_v5 main_v6 (addf : (⟨S1x350, .f32⟩ : BufTy).Contents (Elt F) → (⟨S1x350, .f32⟩ : BufTy).Contents (Elt F) → (⟨S1x350, .f32⟩ : BufTy).Contents (Elt F)),
    nullary main_cst (constant S_ .f32 0xFF800000#32),
    binary main_v6 main_cst main_v7 ((fun x v => Host.reduce FloatOps.maximumf x v reducesTo_S1x350_S1_d1 h_S_) : (⟨S1x350, .f32⟩ : BufTy).Contents (Elt F) → (⟨S_, .f32⟩ : BufTy).Contents (Elt F) → (⟨S1, .f32⟩ : BufTy).Contents (Elt F)),
    nullary main_cst_0 (constant S_ .f32 0xFF800000#32),
    unary main_cst_0 main_v8 (broadcastInDim S1 ![] bcast_S_S1 : (⟨S_, .f32⟩ : BufTy).Contents (Elt F) → (⟨S1, .f32⟩ : BufTy).Contents (Elt F)),
    binary main_v8 main_v7 main_v9 (maximumf : (⟨S1, .f32⟩ : BufTy).Contents (Elt F) → (⟨S1, .f32⟩ : BufTy).Contents (Elt F) → (⟨S1, .f32⟩ : BufTy).Contents (Elt F)),
    unary main_v9 main_v10 (broadcastInDim S1x1 ![0] bcast_S1_S1x1_0 : (⟨S1, .f32⟩ : BufTy).Contents (Elt F) → (⟨S1x1, .f32⟩ : BufTy).Contents (Elt F)),
    unary main_v10 main_v11 (broadcastInDim S1x350 ![0, 1] bcast_S1x1_S1x350_0_1 : (⟨S1x1, .f32⟩ : BufTy).Contents (Elt F) → (⟨S1x350, .f32⟩ : BufTy).Contents (Elt F)),
    binary main_v6 main_v11 main_v12 (subf : (⟨S1x350, .f32⟩ : BufTy).Contents (Elt F) → (⟨S1x350, .f32⟩ : BufTy).Contents (Elt F) → (⟨S1x350, .f32⟩ : BufTy).Contents (Elt F)),
    unary main_v12 main_v13 (Host.exp : (⟨S1x350, .f32⟩ : BufTy).Contents (Elt F) → (⟨S1x350, .f32⟩ : BufTy).Contents (Elt F)),
    nullary main_cst_1 (constant S_ .f32 0x00000000#32),
    binary main_v13 main_cst_1 main_v14 ((fun x v => Host.reduceAdd x v reducesTo_S1x350_S1_d1 h_S_) : (⟨S1x350, .f32⟩ : BufTy).Contents (Elt F) → (⟨S_, .f32⟩ : BufTy).Contents (Elt F) → (⟨S1, .f32⟩ : BufTy).Contents (Elt F)),
    unary main_v14 main_v15 (broadcastInDim S1x1 ![0] bcast_S1_S1x1_0 : (⟨S1, .f32⟩ : BufTy).Contents (Elt F) → (⟨S1x1, .f32⟩ : BufTy).Contents (Elt F)),
    unary main_v15 main_v16 (broadcastInDim S1x350 ![0, 1] bcast_S1x1_S1x350_0_1 : (⟨S1x1, .f32⟩ : BufTy).Contents (Elt F) → (⟨S1x350, .f32⟩ : BufTy).Contents (Elt F)),
    binary main_v13 main_v16 main_v17 (Host.divf : (⟨S1x350, .f32⟩ : BufTy).Contents (Elt F) → (⟨S1x350, .f32⟩ : BufTy).Contents (Elt F) → (⟨S1x350, .f32⟩ : BufTy).Contents (Elt F)),
    binary main_v17 main_arg2 main_v18 ((fun l r => Host.dotGeneral dot_S1x350_S350x2048_S1x2048_1_0_0_1_n_n none l r) : (⟨S1x350, .f32⟩ : BufTy).Contents (Elt F) → (⟨S350x2048, .f32⟩ : BufTy).Contents (Elt F) → (⟨S1x2048, .f32⟩ : BufTy).Contents (Elt F)) ]

/-- Third stretch: from the input row beside the context row to the two returned arrays. -/
abbrev opsC : List (HloOp τ sig (Elt F)) :=
  [ binary main_v0 main_v18 main_v19 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    unary main_arg5 main_v20 ((transpose S4096x2048 [1, 0] · transposes_S2048x4096_S4096x2048_1_0) : (⟨S2048x4096, .f32⟩ : BufTy).Contents (Elt F) → (⟨S4096x2048, .f32⟩ : BufTy).Contents (Elt F)),
    binary main_v19 main_v20 main_v21 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    unary main_arg6 main_v22 (broadcastInDim S1x2048 ![1] bcast_S2048_S1x2048_1 : (⟨S2048, .f32⟩ : BufTy).Contents (Elt F) → (⟨S1x2048, .f32⟩ : BufTy).Contents (Elt F)),
    binary main_v21 main_v22 main_v23 (addf : (⟨S1x2048, .f32⟩ : BufTy).Contents (Elt F) → (⟨S1x2048, .f32⟩ : BufTy).Contents (Elt F) → (⟨S1x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x2048, .f32⟩) main_call0_v0) (broadcastInDim S1x2048 ![] bcast_S_S1x2048),
    TRef.binary (TRef.of (T := ⟨S1x2048, .f32⟩) main_v23) (TRef.of (T := ⟨S1x2048, .f32⟩) main_call0_v0) (TRef.of (T := ⟨S1x2048, .f32⟩) main_v24) maximumf,
    unary main_arg7 main_v25 ((transpose S2048x6144 [1, 0] · transposes_S6144x2048_S2048x6144_1_0) : (⟨S6144x2048, .f32⟩ : BufTy).Contents (Elt F) → (⟨S2048x6144, .f32⟩ : BufTy).Contents (Elt F)),
    binary main_v24 main_v25 main_v26 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg9 main_v27 (broadcastInDim S1x6144 ![1] bcast_S6144_S1x6144_1 : (⟨S6144, .f32⟩ : BufTy).Contents (Elt F) → (⟨S1x6144, .f32⟩ : BufTy).Contents (Elt F)),
    binary main_v26 main_v27 main_v28 (addf : (⟨S1x6144, .f32⟩ : BufTy).Contents (Elt F) → (⟨S1x6144, .f32⟩ : BufTy).Contents (Elt F) → (⟨S1x6144, .f32⟩ : BufTy).Contents (Elt F)),
    unary main_arg8 main_v29 ((transpose S2048x6144 [1, 0] · transposes_S6144x2048_S2048x6144_1_0) : (⟨S6144x2048, .f32⟩ : BufTy).Contents (Elt F) → (⟨S2048x6144, .f32⟩ : BufTy).Contents (Elt F)),
    binary main_v1 main_v29 main_v30 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg10 main_v31 (broadcastInDim S1x6144 ![1] bcast_S6144_S1x6144_1 : (⟨S6144, .f32⟩ : BufTy).Contents (Elt F) → (⟨S1x6144, .f32⟩ : BufTy).Contents (Elt F)),
    binary main_v30 main_v31 main_v32 (addf : (⟨S1x6144, .f32⟩ : BufTy).Contents (Elt F) → (⟨S1x6144, .f32⟩ : BufTy).Contents (Elt F) → (⟨S1x6144, .f32⟩ : BufTy).Contents (Elt F)),
    unary main_v28 main_v33 ((extractStridedSlice S1x2048 ![0, 0] · slices_S1x6144_S1x2048_0_0) : (⟨S1x6144, .f32⟩ : BufTy).Contents (Elt F) → (⟨S1x2048, .f32⟩ : BufTy).Contents (Elt F)),
    unary main_v28 main_v34 ((extractStridedSlice S1x2048 ![0, 2048] · slices_S1x6144_S1x2048_0_2048) : (⟨S1x6144, .f32⟩ : BufTy).Contents (Elt F) → (⟨S1x2048, .f32⟩ : BufTy).Contents (Elt F)),
    unary main_v28 main_v35 ((extractStridedSlice S1x2048 ![0, 4096] · slices_S1x6144_S1x2048_0_4096) : (⟨S1x6144, .f32⟩ : BufTy).Contents (Elt F) → (⟨S1x2048, .f32⟩ : BufTy).Contents (Elt F)),
    unary main_v32 main_v36 ((extractStridedSlice S1x2048 ![0, 0] · slices_S1x6144_S1x2048_0_0) : (⟨S1x6144, .f32⟩ : BufTy).Contents (Elt F) → (⟨S1x2048, .f32⟩ : BufTy).Contents (Elt F)),
    unary main_v32 main_v37 ((extractStridedSlice S1x2048 ![0, 2048] · slices_S1x6144_S1x2048_0_2048) : (⟨S1x6144, .f32⟩ : BufTy).Contents (Elt F) → (⟨S1x2048, .f32⟩ : BufTy).Contents (Elt F)),
    unary main_v32 main_v38 ((extractStridedSlice S1x2048 ![0, 4096] · slices_S1x6144_S1x2048_0_4096) : (⟨S1x6144, .f32⟩ : BufTy).Contents (Elt F) → (⟨S1x2048, .f32⟩ : BufTy).Contents (Elt F)),
    binary main_v33 main_v36 main_v39 (addf : (⟨S1x2048, .f32⟩ : BufTy).Contents (Elt F) → (⟨S1x2048, .f32⟩ : BufTy).Contents (Elt F) → (⟨S1x2048, .f32⟩ : BufTy).Contents (Elt F)),
    unary main_v39 main_v40 (Host.negf : (⟨S1x2048, .f32⟩ : BufTy).Contents (Elt F) → (⟨S1x2048, .f32⟩ : BufTy).Contents (Elt F)),
    unary main_v40 main_v41 (Host.exp : (⟨S1x2048, .f32⟩ : BufTy).Contents (Elt F) → (⟨S1x2048, .f32⟩ : BufTy).Contents (Elt F)),
    nullary main_cst_2 (constant S_ .f32 0x3F800000#32),
    unary main_cst_2 main_v42 (broadcastInDim S1x2048 ![] bcast_S_S1x2048 : (⟨S_, .f32⟩ : BufTy).Contents (Elt F) → (⟨S1x2048, .f32⟩ : BufTy).Contents (Elt F)),
    binary main_v42 main_v41 main_v43 (addf : (⟨S1x2048, .f32⟩ : BufTy).Contents (Elt F) → (⟨S1x2048, .f32⟩ : BufTy).Contents (Elt F) → (⟨S1x2048, .f32⟩ : BufTy).Contents (Elt F)),
    nullary main_cst_3 (constant S_ .f32 0x3F800000#32),
    unary main_cst_3 main_v44 (broadcastInDim S1x2048 ![] bcast_S_S1x2048 : (⟨S_, .f32⟩ : BufTy).Contents (Elt F) → (⟨S1x2048, .f32⟩ : BufTy).Contents (Elt F)),
    binary main_v44 main_v43 main_v45 (Host.divf : (⟨S1x2048, .f32⟩ : BufTy).Contents (Elt F) → (⟨S1x2048, .f32⟩ : BufTy).Contents (Elt F) → (⟨S1x2048, .f32⟩ : BufTy).Contents (Elt F)),
    binary main_v34 main_v37 main_v46 (addf : (⟨S1x2048, .f32⟩ : BufTy).Contents (Elt F) → (⟨S1x2048, .f32⟩ : BufTy).Contents (Elt F) → (⟨S1x2048, .f32⟩ : BufTy).Contents (Elt F)),
    unary main_v46 main_v47 (Host.negf : (⟨S1x2048, .f32⟩ : BufTy).Contents (Elt F) → (⟨S1x2048, .f32⟩ : BufTy).Contents (Elt F)),
    unary main_v47 main_v48 (Host.exp : (⟨S1x2048, .f32⟩ : BufTy).Contents (Elt F) → (⟨S1x2048, .f32⟩ : BufTy).Contents (Elt F)),
    nullary main_cst_4 (constant S_ .f32 0x3F800000#32),
    unary main_cst_4 main_v49 (broadcastInDim S1x2048 ![] bcast_S_S1x2048 : (⟨S_, .f32⟩ : BufTy).Contents (Elt F) → (⟨S1x2048, .f32⟩ : BufTy).Contents (Elt F)),
    binary main_v49 main_v48 main_v50 (addf : (⟨S1x2048, .f32⟩ : BufTy).Contents (Elt F) → (⟨S1x2048, .f32⟩ : BufTy).Contents (Elt F) → (⟨S1x2048, .f32⟩ : BufTy).Contents (Elt F)),
    nullary main_cst_5 (constant S_ .f32 0x3F800000#32),
    unary main_cst_5 main_v51 (broadcastInDim S1x2048 ![] bcast_S_S1x2048 : (⟨S_, .f32⟩ : BufTy).Contents (Elt F) → (⟨S1x2048, .f32⟩ : BufTy).Contents (Elt F)),
    binary main_v51 main_v50 main_v52 (Host.divf : (⟨S1x2048, .f32⟩ : BufTy).Contents (Elt F) → (⟨S1x2048, .f32⟩ : BufTy).Contents (Elt F) → (⟨S1x2048, .f32⟩ : BufTy).Contents (Elt F)),
    binary main_v45 main_v38 main_v53 (mulf : (⟨S1x2048, .f32⟩ : BufTy).Contents (Elt F) → (⟨S1x2048, .f32⟩ : BufTy).Contents (Elt F) → (⟨S1x2048, .f32⟩ : BufTy).Contents (Elt F)),
    binary main_v35 main_v53 main_v54 (addf : (⟨S1x2048, .f32⟩ : BufTy).Contents (Elt F) → (⟨S1x2048, .f32⟩ : BufTy).Contents (Elt F) → (⟨S1x2048, .f32⟩ : BufTy).Contents (Elt F)),
    unary main_v54 main_v55 (Host.tanh : (⟨S1x2048, .f32⟩ : BufTy).Contents (Elt F) → (⟨S1x2048, .f32⟩ : BufTy).Contents (Elt F)),
    nullary main_cst_6 (constant S_ .f32 0x3F800000#32),
    unary main_cst_6 main_v56 (broadcastInDim S1x2048 ![] bcast_S_S1x2048 : (⟨S_, .f32⟩ : BufTy).Contents (Elt F) → (⟨S1x2048, .f32⟩ : BufTy).Contents (Elt F)),
    binary main_v56 main_v52 main_v57 (subf : (⟨S1x2048, .f32⟩ : BufTy).Contents (Elt F) → (⟨S1x2048, .f32⟩ : BufTy).Contents (Elt F) → (⟨S1x2048, .f32⟩ : BufTy).Contents (Elt F)),
    binary main_v57 main_v55 main_v58 (mulf : (⟨S1x2048, .f32⟩ : BufTy).Contents (Elt F) → (⟨S1x2048, .f32⟩ : BufTy).Contents (Elt F) → (⟨S1x2048, .f32⟩ : BufTy).Contents (Elt F)),
    binary main_v52 main_v1 main_v59 (mulf : (⟨S1x2048, .f32⟩ : BufTy).Contents (Elt F) → (⟨S1x2048, .f32⟩ : BufTy).Contents (Elt F) → (⟨S1x2048, .f32⟩ : BufTy).Contents (Elt F)),
    binary main_v58 main_v59 main_v60 (addf : (⟨S1x2048, .f32⟩ : BufTy).Contents (Elt F) → (⟨S1x2048, .f32⟩ : BufTy).Contents (Elt F) → (⟨S1x2048, .f32⟩ : BufTy).Contents (Elt F)),
    unary main_v60 main_v61 (broadcastInDim S1x1x2048 ![1, 2] bcast_S1x2048_S1x1x2048_1_2 : (⟨S1x2048, .f32⟩ : BufTy).Contents (Elt F) → (⟨S1x1x2048, .f32⟩ : BufTy).Contents (Elt F)),
    unary main_v60 main_v62 (broadcastInDim S1x1x2048 ![1, 2] bcast_S1x2048_S1x1x2048_1_2 : (⟨S1x2048, .f32⟩ : BufTy).Contents (Elt F) → (⟨S1x1x2048, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., unary_bufs_sub .., unary_bufs_sub ..⟩

set_option maxRecDepth 8192 in
/-- The line is its three stretches in a row. -/
theorem ops_cut : (ops : List (HloOp τ sig (Elt F))) = opsA ++ (opsB ++ opsC) := rfl

/-- The contents after the whole line are those after the third stretch, from those after the second, from those
    after the first. -/
theorem after_ops (V : Valuation τ sig (Elt F)) : after ops V = after opsC (after opsB (after opsA V)) := by
  rw [ops_cut, after_append, after_append]

/-! ## What each stretch writes, and that it leaves the rest -/

abbrev opsA_W : List (Ref sig .tc) := [main_v0, main_v1]
abbrev opsB_W : List (Ref sig .tc) := [main_v2, main_v3, main_v4, main_v5, main_v6, main_cst, main_v7, main_cst_0, main_v8, main_v9, main_v10, main_v11, main_v12, main_v13, main_cst_1, main_v14, main_v15, main_v16, main_v17, main_v18]
abbrev opsC_W : List (Ref sig .tc) := [main_v19, main_v20, main_v21, main_v22, main_v23, main_call0_cst, main_call0_v0, main_v24, main_v25, main_v26, main_v27, main_v28, main_v29, main_v30, main_v31, main_v32, main_v33, main_v34, main_v35, main_v36, main_v37, main_v38, main_v39, main_v40, main_v41, main_cst_2, main_v42, main_v43, main_cst_3, main_v44, main_v45, main_v46, main_v47, main_v48, main_cst_4, main_v49, main_v50, main_cst_5, main_v51, main_v52, main_v53, main_v54, main_v55, main_cst_6, main_v56, main_v57, main_v58, main_v59, main_v60, main_v61, main_v62]

set_option maxRecDepth 8192 in
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer the first stretch does not write keeps its contents through it; so for the second and the third. -/
theorem A_keep (V : Valuation τ sig (Elt F)) (r : Ref sig .tc) (h : r ∉ opsA_W) :
    after opsA V (Proc.devRef .tc r) = V (Proc.devRef .tc r) := after_of_writes_sub opsA V opsA_writes h
theorem B_keep (V : Valuation τ sig (Elt F)) (r : Ref sig .tc) (h : r ∉ opsB_W) :
    after opsB V (Proc.devRef .tc r) = V (Proc.devRef .tc r) := after_of_writes_sub opsB V opsB_writes h
theorem C_keep (V : Valuation τ sig (Elt F)) (r : Ref sig .tc) (h : r ∉ opsC_W) :
    after opsC V (Proc.devRef .tc r) = V (Proc.devRef .tc r) := after_of_writes_sub opsC V opsC_writes h

/-! ## What each stretch computes, from any contents -/

set_option maxRecDepth 8192 in
/-- The first stretch leaves the input row reshaped to one row of 2048, -/
theorem A_v0 (V : Valuation τ sig (Elt F)) :
    after opsA V (Proc.devRef .tc main_v0) = shapeCast _ (V (Proc.devRef .tc main_arg0)) shapeCasts_S1x1x2048_S1x2048 := by
  simp only [opsA]
  after_results_simp <;> rfl

set_option maxRecDepth 8192 in
/-- and the hidden row likewise. -/
theorem A_v1 (V : Valuation τ sig (Elt F)) :
    after opsA V (Proc.devRef .tc main_v1) = shapeCast _ (V (Proc.devRef .tc main_arg1)) shapeCasts_S1x1x2048_S1x2048 := by
  simp only [opsA]
  after_results_simp <;> rfl

set_option maxRecDepth 8192 in
set_option maxHeartbeats 2000000 in
/-- The second stretch leaves the attention weights of the two rows it finds: the softmax of their logits. -/
theorem B_v17 (V : Valuation τ sig (Elt F)) :
    after opsB V (Proc.devRef .tc main_v17)
      = awRef (F := F) (V (Proc.devRef .tc main_v0)) (V (Proc.devRef .tc main_v1)) (V (Proc.devRef .tc main_arg3)) (V (Proc.devRef .tc main_arg4)) := by
  simp only [opsB]
  after_results_simp <;> rfl

set_option maxRecDepth 8192 in
set_option maxHeartbeats 2000000 in
/-- and the context row: those weights against the encoder outputs. -/
theorem B_v18 (V : Valuation τ sig (Elt F)) :
    after opsB V (Proc.devRef .tc main_v18)
      = ctxRef (F := F) (awRef (V (Proc.devRef .tc main_v0)) (V (Proc.devRef .tc main_v1)) (V (Proc.devRef .tc main_arg3)) (V (Proc.devRef .tc main_arg4))) (V (Proc.devRef .tc main_arg2)) := by
  simp only [opsB]
  after_results_simp <;> rfl

set_option maxRecDepth 8192 in
set_option maxHeartbeats 4000000 in
/-- The third stretch leaves, in each returned array, the new hidden row with a unit axis in front: the gated update
    of the hidden row it finds by the rectified combination of the input row and the context row it finds. -/
theorem C_v61 (V : Valuation τ sig (Elt F)) :
    after opsC V (Proc.devRef .tc main_v61)
      = outRef (F := F) (hnewRef (gRef (V (Proc.devRef .tc main_v0)) (V (Proc.devRef .tc main_v18)) (V (Proc.devRef .tc main_arg5)) (V (Proc.devRef .tc main_arg6)))
          (V (Proc.devRef .tc main_v1)) (V (Proc.devRef .tc main_arg7)) (V (Proc.devRef .tc main_arg8)) (V (Proc.devRef .tc main_arg9)) (V (Proc.devRef .tc main_arg10))) := by
  simp only [opsC]
  after_results_simp <;> (try simp only [TRef.ofBuf, TRef.toBuf, cast_eq]) <;> rfl

set_option maxRecDepth 8192 in
set_option maxHeartbeats 4000000 in
theorem C_v62 (V : Valuation τ sig (Elt F)) :
    after opsC V (Proc.devRef .tc main_v62)
      = outRef (F := F) (hnewRef (gRef (V (Proc.devRef .tc main_v0)) (V (Proc.devRef .tc main_v18)) (V (Proc.devRef .tc main_arg5)) (V (Proc.devRef .tc main_arg6)))
          (V (Proc.devRef .tc main_v1)) (V (Proc.devRef .tc main_arg7)) (V (Proc.devRef .tc main_arg8)) (V (Proc.devRef .tc main_arg9)) (V (Proc.devRef .tc main_arg10))) := by
  simp only [opsC]
  after_results_simp <;> (try simp only [TRef.ofBuf, TRef.toBuf, cast_eq]) <;> rfl

/-! ## The results of the whole line, at the launch arrays -/

variable (m : (ℓ : Loc nD τ sig) → Buf (Elt F) ℓ)

/-- The two input rows, reshaped. -/
abbrev xRow (c : Dev nD) : FVec F S1x2048 .f32 := shapeCast _ (m ((c.tc : Thread nD τ).loc main_arg0)) shapeCasts_S1x1x2048_S1x2048
abbrev hRow (c : Dev nD) : FVec F S1x2048 .f32 := shapeCast _ (m ((c.tc : Thread nD τ).loc main_arg1)) shapeCasts_S1x1x2048_S1x2048
/-- The attention weights of the launch arrays. -/
def awOf (c : Dev nD) : FVec F S1x350 .f32 :=
  awRef (xRow m c) (hRow m c) (m ((c.tc : Thread nD τ).loc main_arg3)) (m ((c.tc : Thread nD τ).loc main_arg4))
/-- The context row. -/
def ctxOf (c : Dev nD) : FVec F S1x2048 .f32 := ctxRef (awOf m c) (m ((c.tc : Thread nD τ).loc main_arg2))
/-- The rectified combination. -/
def gOf (c : Dev nD) : FVec F S1x2048 .f32 :=
  gRef (xRow m c) (ctxOf m c) (m ((c.tc : Thread nD τ).loc main_arg5)) (m ((c.tc : Thread nD τ).loc main_arg6))
/-- The new hidden row. -/
def hnewOf (c : Dev nD) : FVec F S1x2048 .f32 :=
  hnewRef (gOf m c) (hRow m c) (m ((c.tc : Thread nD τ).loc main_arg7)) (m ((c.tc : Thread nD τ).loc main_arg8))
    (m ((c.tc : Thread nD τ).loc main_arg9)) (m ((c.tc : Thread nD τ).loc main_arg10))

/-- A buffer none of the three stretches writes ends as it was launched. -/
theorem arg_keep (c : Dev nD) (r : Ref sig .tc) (hA : r ∉ opsA_W) (hB : r ∉ opsB_W) (hC : r ∉ opsC_W) :
    after ops (launchContents m c) (Proc.devRef .tc r) = m ((c.tc : Thread nD τ).loc r) := by
  rw [after_ops, C_keep _ r hC, B_keep _ r hB, A_keep _ r hA]

/-- The attention weights end at the weights of the launch arrays: the third stretch leaves them, the second computes
    them from the two reshaped rows the first leaves. -/
theorem run_v17 (c : Dev nD) : after ops (launchContents m c) (Proc.devRef .tc main_v17) = awOf m c := by
  rw [after_ops, C_keep _ main_v17 (by decide), B_v17, A_v0, A_v1, A_keep _ main_arg3 (by decide), A_keep _ main_arg4 (by decide)]
  rfl

/-- Between the second and the third stretch the context row is the context of the launch arrays. -/
theorem mid_v18 (c : Dev nD) : after opsB (after opsA (launchContents m c)) (Proc.devRef .tc main_v18) = ctxOf m c := by
  rw [B_v18, A_v0, A_v1, A_keep _ main_arg3 (by decide), A_keep _ main_arg4 (by decide), A_keep _ main_arg2 (by decide)]
  rfl

/-- The new hidden row with a unit axis in front, as the third stretch leaves it from what the first two leave. -/
theorem run_out (c : Dev nD) :
    outRef (F := F) (hnewRef (gRef (after opsB (after opsA (launchContents m c)) (Proc.devRef .tc main_v0)) (after opsB (after opsA (launchContents m c)) (Proc.devRef .tc main_v18))
        (after opsB (after opsA (launchContents m c)) (Proc.devRef .tc main_arg5)) (after opsB (after opsA (launchContents m c)) (Proc.devRef .tc main_arg6)))
      (after opsB (after opsA (launchContents m c)) (Proc.devRef .tc main_v1)) (after opsB (after opsA (launchContents m c)) (Proc.devRef .tc main_arg7))
      (after opsB (after opsA (launchContents m c)) (Proc.devRef .tc main_arg8)) (after opsB (after opsA (launchContents m c)) (Proc.devRef .tc main_arg9))
      (after opsB (after opsA (launchContents m c)) (Proc.devRef .tc main_arg10)))
      = outRef (hnewOf m c) := by
  rw [mid_v18, B_keep _ main_v0 (by decide), B_keep _ main_v1 (by decide), A_v0, A_v1,
    B_keep _ main_arg5 (by decide), B_keep _ main_arg6 (by decide), B_keep _ main_arg7 (by decide), B_keep _ main_arg8 (by decide),
    B_keep _ main_arg9 (by decide), B_keep _ main_arg10 (by decide),
    A_keep _ main_arg5 (by decide), A_keep _ main_arg6 (by decide), A_keep _ main_arg7 (by decide), A_keep _ main_arg8 (by decide),
    A_keep _ main_arg9 (by decide), A_keep _ main_arg10 (by decide)]
  rfl

theorem run_v61 (c : Dev nD) : after ops (launchContents m c) (Proc.devRef .tc main_v61) = outRef (hnewOf m c) := by
  rw [after_ops, C_v61]; exact run_out m c

theorem run_v62 (c : Dev nD) : after ops (launchContents m c) (Proc.devRef .tc main_v62) = outRef (hnewOf m c) := by
  rw [after_ops, C_v62]; exact run_out m c

/-- Every weakly fair execution of the reference terminates with its results at these functions of the launch
    arrays and the arguments unchanged. -/
theorem ref_run (ρ : Dev nD → PrngReg) :
    θ_run defs (onTc (τ := τ) (main (F := F))) ⟨m, fun _ => 0, ρ⟩ fun r => ∀ c : Dev nD,
      r.2.mem ((c.tc : Thread nD τ).loc main_v61) = outRef (hnewOf m c)
      ∧ r.2.mem ((c.tc : Thread nD τ).loc main_v62) = outRef (hnewOf m c)
      ∧ r.2.mem ((c.tc : Thread nD τ).loc main_v17) = awOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono ?_
    (run_seq scopedRefs_eq scopedSems_eq defs main (fun _ => ops) main_eq (fun _ => ops_sub) m ρ)
  intro _ h c
  exact ⟨(h c main_v61).trans (run_v61 m c), (h c main_v62).trans (run_v62 m c), (h c main_v17).trans (run_v17 m c),
    (h c main_arg0).trans (arg_keep m c main_arg0 (by decide) (by decide) (by decide)),
    (h c main_arg1).trans (arg_keep m c main_arg1 (by decide) (by decide) (by decide)),
    (h c main_arg2).trans (arg_keep m c main_arg2 (by decide) (by decide) (by decide)),
    (h c main_arg3).trans (arg_keep m c main_arg3 (by decide) (by decide) (by decide)),
    (h c main_arg4).trans (arg_keep m c main_arg4 (by decide) (by decide) (by decide)),
    (h c main_arg5).trans (arg_keep m c main_arg5 (by decide) (by decide) (by decide)),
    (h c main_arg6).trans (arg_keep m c main_arg6 (by decide) (by decide) (by decide)),
    (h c main_arg7).trans (arg_keep m c main_arg7 (by decide) (by decide) (by decide)),
    (h c main_arg8).trans (arg_keep m c main_arg8 (by decide) (by decide) (by decide)),
    (h c main_arg9).trans (arg_keep m c main_arg9 (by decide) (by decide) (by decide)),
    (h c main_arg10).trans (arg_keep m c main_arg10 (by decide) (by decide) (by decide))⟩

end Cert.ReferenceIdeal.Fns

end
-- ==== Proof.lean ====
/-
  The certificate of a decoder step with attention: three kernel calls (attention weights and context row; the
  rectified combination, eight column blocks; one step of a gated recurrent unit, sixteen column blocks) among
  reshapes, against the plain array program.

  Frames. The kernel's program, at the word level and at the exact instance, runs as seven segments (four host
  stretches, three kernel regions); each region's body meets the pipeline's obligation, the third region's two
  windows on the hidden row's array hold a half share each; the run ends with every unscoped buffer at the last
  boundary's contents, where no argument was ever written. The reference's run is its generated run.

  Values, at the exact instance. Each region's output array is the reference's stage function of the arrays the
  region is entered from: the softmax row and its product with the encoder outputs; relu of [x, ctx] against the
  rows of the combination matrix plus the bias, column block by column block; the gated unit's new hidden state,
  lane by lane, the three gates' rows of the 6144-row matrices read through the reshape to [3, 2048, 2048]. A
  matrix product against a transposed matrix and the kernel's product against the untransposed one are the same
  sums; the logistic function is 1 / (1 + exp (-v)) on both sides. The returned 1x1x2048 arrays are the new
  hidden row with a unit axis in front, as a reshape on one side and a broadcast on the other.
-/
import proofs.«123148_j15350213116625_1_alg».proof.Proof.Gen.Kernel
import proofs.«123148_j15350213116625_1_alg».proof.Proof.Gen.KernelIdeal
import proofs.«123148_j15350213116625_1_alg».proof.Proof.Gen.ReferenceIdeal
import proofs.«123148_j15350213116625_1_alg».proof.Proof.Gen.Pre_finite_inputs
import proofs.«123148_j15350213116625_1_alg».proof.Defs
import proofs.«123148_j15350213116625_1_alg».proof.Proof.K.Run
import proofs.«123148_j15350213116625_1_alg».proof.Proof.K.Readback
import proofs.«123148_j15350213116625_1_alg».proof.Proof.KI.Run
import proofs.«123148_j15350213116625_1_alg».proof.Proof.KI.Readback
import proofs.«123148_j15350213116625_1_alg».proof.Proof.KI.Chain
import proofs.«123148_j15350213116625_1_alg».proof.Proof.KI.OutShape
import proofs.«123148_j15350213116625_1_alg».proof.Proof.Ref.RunChunks
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_p : Cert.frame_Kernel := fun m ρ _ =>
  (θ_run (Cert.Kernel.defs (F := Bits)) _ _).mono (fun r h c => ⟨
      (h c _ (Cert.Kernel.Hand.mem_uc Cert.Kernel.main_arg0 (by decide))).trans (Cert.Kernel.Hand.W7_arg0 m c),
      (h c _ (Cert.Kernel.Hand.mem_uc Cert.Kernel.main_arg1 (by decide))).trans (Cert.Kernel.Hand.W7_arg1 m c),
      (h c _ (Cert.Kernel.Hand.mem_uc Cert.Kernel.main_arg2 (by decide))).trans (Cert.Kernel.Hand.W7_arg2 m c),
      (h c _ (Cert.Kernel.Hand.mem_uc Cert.Kernel.main_arg3 (by decide))).trans (Cert.Kernel.Hand.W7_arg3 m c),
      (h c _ (Cert.Kernel.Hand.mem_uc Cert.Kernel.main_arg4 (by decide))).trans (Cert.Kernel.Hand.W7_arg4 m c),
      (h c _ (Cert.Kernel.Hand.mem_uc Cert.Kernel.main_arg5 (by decide))).trans (Cert.Kernel.Hand.W7_arg5 m c),
      (h c _ (Cert.Kernel.Hand.mem_uc Cert.Kernel.main_arg6 (by decide))).trans (Cert.Kernel.Hand.W7_arg6 m c),
      (h c _ (Cert.Kernel.Hand.mem_uc Cert.Kernel.main_arg7 (by decide))).trans (Cert.Kernel.Hand.W7_arg7 m c),
      (h c _ (Cert.Kernel.Hand.mem_uc Cert.Kernel.main_arg8 (by decide))).trans (Cert.Kernel.Hand.W7_arg8 m c),
      (h c _ (Cert.Kernel.Hand.mem_uc Cert.Kernel.main_arg9 (by decide))).trans (Cert.Kernel.Hand.W7_arg9 m c),
      (h c _ (Cert.Kernel.Hand.mem_uc Cert.Kernel.main_arg10 (by decide))).trans (Cert.Kernel.Hand.W7_arg10 m c)⟩)
    (Cert.Kernel.Hand.run (F := Bits) m ρ)

theorem frame_pi : Cert.frame_KernelIdeal := fun m ρ _ =>
  (θ_run (Cert.KernelIdeal.defs (F := Ideal)) _ _).mono (fun r h c => ⟨
      (h c _ (Cert.KernelIdeal.Hand.mem_uc Cert.KernelIdeal.main_arg0 (by decide))).trans (Cert.KernelIdeal.Hand.W7_arg0 m c),
      (h c _ (Cert.KernelIdeal.Hand.mem_uc Cert.KernelIdeal.main_arg1 (by decide))).trans (Cert.KernelIdeal.Hand.W7_arg1 m c),
      (h c _ (Cert.KernelIdeal.Hand.mem_uc Cert.KernelIdeal.main_arg2 (by decide))).trans (Cert.KernelIdeal.Hand.W7_arg2 m c),
      (h c _ (Cert.KernelIdeal.Hand.mem_uc Cert.KernelIdeal.main_arg3 (by decide))).trans (Cert.KernelIdeal.Hand.W7_arg3 m c),
      (h c _ (Cert.KernelIdeal.Hand.mem_uc Cert.KernelIdeal.main_arg4 (by decide))).trans (Cert.KernelIdeal.Hand.W7_arg4 m c),
      (h c _ (Cert.KernelIdeal.Hand.mem_uc Cert.KernelIdeal.main_arg5 (by decide))).trans (Cert.KernelIdeal.Hand.W7_arg5 m c),
      (h c _ (Cert.KernelIdeal.Hand.mem_uc Cert.KernelIdeal.main_arg6 (by decide))).trans (Cert.KernelIdeal.Hand.W7_arg6 m c),
      (h c _ (Cert.KernelIdeal.Hand.mem_uc Cert.KernelIdeal.main_arg7 (by decide))).trans (Cert.KernelIdeal.Hand.W7_arg7 m c),
      (h c _ (Cert.KernelIdeal.Hand.mem_uc Cert.KernelIdeal.main_arg8 (by decide))).trans (Cert.KernelIdeal.Hand.W7_arg8 m c),
      (h c _ (Cert.KernelIdeal.Hand.mem_uc Cert.KernelIdeal.main_arg9 (by decide))).trans (Cert.KernelIdeal.Hand.W7_arg9 m c),
      (h c _ (Cert.KernelIdeal.Hand.mem_uc Cert.KernelIdeal.main_arg10 (by decide))).trans (Cert.KernelIdeal.Hand.W7_arg10 m c)⟩)
    (Cert.KernelIdeal.Hand.run (F := Ideal) m ρ)

theorem frame_ri : Cert.frame_ReferenceIdeal := fun m ρ _ =>
  (θ_run (Cert.ReferenceIdeal.defs (F := Ideal)) _ _).mono (fun _ h c => (h c).2.2.2) (Cert.ReferenceIdeal.Fns.ref_run (F := Ideal) m ρ)

open Cert.KernelIdeal Cert.KernelIdeal.Gen Cert.KernelIdeal.Hand in
/-- From memories that agree on the arguments, the reference's stage functions of its launch arrays are the same
    functions of the kernel's launch arrays. -/
theorem stages_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    Cert.ReferenceIdeal.Fns.awOf (F := Ideal) m' c = awK m c ∧ Cert.ReferenceIdeal.Fns.hnewOf (F := Ideal) m' c = hnewK m c := by
  unfold Cert.ReferenceIdeal.Fns.hnewOf Cert.ReferenceIdeal.Fns.gOf Cert.ReferenceIdeal.Fns.ctxOf Cert.ReferenceIdeal.Fns.awOf hnewK gK ctxK awK
  unfold Cert.ReferenceIdeal.Fns.xRow Cert.ReferenceIdeal.Fns.hRow
  rw [h0, h1, h2, h3, h4, h5, h6, h7, h8, h9, h10]
  exact ⟨rfl, rfl⟩

open Cert.KernelIdeal Cert.KernelIdeal.Gen Cert.KernelIdeal.Hand in
theorem algebraic : Cert.algebraic_KernelIdeal_ReferenceIdeal := by
  intro m ρ m' ρ' _ hagree
  refine ⟨fun c => Cert.ReferenceIdeal.Fns.outRef (F := Ideal) (hnewK m c), fun c => Cert.ReferenceIdeal.Fns.outRef (F := Ideal) (hnewK m c),
    fun c => awK m c, ?_, ?_⟩
  · refine (θ_run (Cert.KernelIdeal.defs (F := Ideal)) _ _).mono (fun r h c => ?_) (Cert.KernelIdeal.Hand.run (F := Ideal) m ρ)
    have hout : (shapeCast S1x1x2048 ((dat2 (F := Ideal) (V5 m) c).arrAt 7 cfg2.N : S1x2048.Idx → EReal) shapeCasts_S1x2048_S1x1x2048 : S1x1x2048.Idx → EReal)
        = Cert.ReferenceIdeal.Fns.outRef (F := Ideal) (hnewK m c) := by
      rw [hnew_k m c]
      exact reshape_eq_broadcast _ _ _
    exact ⟨(h c _ (mem_uc main_v11 (by decide))).trans ((W7_v11 m c).trans hout),
      (h c _ (mem_uc main_v12 (by decide))).trans ((W7_v12 m c).trans hout),
      (h c _ (mem_uc main_v3_0 (by decide))).trans ((W7_v3_0 m c).trans (aw_k m c)),
      (h c _ (mem_uc main_arg0 (by decide))).trans (W7_arg0 m c),
      (h c _ (mem_uc main_arg1 (by decide))).trans (W7_arg1 m c),
      (h c _ (mem_uc main_arg2 (by decide))).trans (W7_arg2 m c),
      (h c _ (mem_uc main_arg3 (by decide))).trans (W7_arg3 m c),
      (h c _ (mem_uc main_arg4 (by decide))).trans (W7_arg4 m c),
      (h c _ (mem_uc main_arg5 (by decide))).trans (W7_arg5 m c),
      (h c _ (mem_uc main_arg6 (by decide))).trans (W7_arg6 m c),
      (h c _ (mem_uc main_arg7 (by decide))).trans (W7_arg7 m c),
      (h c _ (mem_uc main_arg8 (by decide))).trans (W7_arg8 m c),
      (h c _ (mem_uc main_arg9 (by decide))).trans (W7_arg9 m c),
      (h c _ (mem_uc main_arg10 (by decide))).trans (W7_arg10 m c)⟩
  · refine (θ_run (Cert.ReferenceIdeal.defs (F := Ideal)) _ _).mono (fun r h c => ?_) (Cert.ReferenceIdeal.Fns.ref_run (F := Ideal) m' ρ')
    obtain ⟨a0, a1, a2, a3, a4, a5, a6, a7, a8, a9, a10⟩ := hagree c
    obtain ⟨e1, e2⟩ := stages_agree m m' c a0 a1 a2 a3 a4 a5 a6 a7 a8 a9 a10
    obtain ⟨r0, r1, r2, rest⟩ := h c
    exact ⟨r0.trans (congrArg _ e2), r1.trans (congrArg _ e2), r2.trans e1, rest⟩

end Claims

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, trivial, Claims.algebraic⟩

end Cert.Proof

end
